-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S128x4096 .f32
  ∧ IdealRules.sign_bit.Statement Cert.KernelIdeal.S128x4096 .f32
  ∧ IdealRules.sign_bit.Statement Cert.KernelIdeal.S128x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x4096 : Shape := ⟨3, ![1, 4096, 4096]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel

variable [Facts]

def fn {F : FTy → Type} [FloatOps F] (main_arg0 : FVec F S1x4096x4096 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  main_v3
-- ==== Kernel.lean ====
abbrev S1x4096x4096 : Shape := ⟨3, ![1, 4096, 4096]⟩
abbrev S4096x4096 : Shape := ⟨2, ![4096, 4096]⟩
abbrev S1x4096 : Shape := ⟨2, ![1, 4096]⟩
abbrev S512x4096 : Shape := ⟨2, ![512, 4096]⟩
abbrev S4096 : Shape := ⟨1, ![4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S1x4096x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [BitOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_2 : BitVec 32 := 0#32
  let v8 : BitVec 1 := Scalar.cmpi .ne v7 c0_i32_2
  v8

def k0_cond2 (i : grid0.Coords) : BitVec 1 :=
  let arg0 : BitVec 32 := BitVec.ofNat 32 (i 0).val
  let c0_i32_3 : BitVec 32 := 0#32
  let v9 : BitVec 1 := Scalar.cmpi .sgt arg0 c0_i32_3
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1x4096x4096_S4096x4096 : S1x4096x4096.ShapeCasts S4096x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S4096 : S512x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  broadcasts_S1x4096_S128x4096 : S1x4096.Broadcasts S128x4096
  reduces_S128x4096_S128 : S128x4096.Reduces [1] S128
  shapeCasts_S128_S128x1 : S128.ShapeCasts S128x1
  broadcasts_S128x1_S128x4096 : S128x1.Broadcasts S128x4096
  shapeCasts_S4096x4096_S1x4096x4096 : S4096x4096.ShapeCasts S1x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S4096x4096.size a
  hwx1_3 : ∀ i : grid1.Coords, EltTy.bits .f32 = 32 ∨ (Rect.block (s := S4096x4096) S128x4096.size (cc1_transform_3 i) (hinb1_3 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x4096.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond1 i == 1#1) && !(k0_cond2 i == 1#1) | 2 => fun i => !(k0_cond1 i == 1#1) && !(k0_cond2 i == 1#1) | ⟨_ + 3, h⟩ => absurd h (Nat.not_lt.2 (Nat.le_add_left _ _))

abbrev win1_0 : Pipeline.Window sig grid1 :=
  Pipeline.Window.ofSpec (Memref.whole main_v0) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1x4096x4096 : Shape := ⟨3, ![1, 4096, 4096]⟩
abbrev S4096x4096 : Shape := ⟨2, ![4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩

abbrev nBuf : Space → Nat
  | .hbm => 155
  | .vmem => 0
  | .smem => 0
  | _ => 0

abbrev hbmTy0_0 (i : Nat) : BufTy := match i % 128 with
  | 0 => ⟨S1x4096x4096, .f32⟩
  | 1 => ⟨S4096x4096, .f32⟩
  | 2 => ⟨S_, .f32⟩
  | 3 => ⟨S4096, .f32⟩
  | 4 => ⟨S_, .f32⟩
  | 5 => ⟨S4096, .f32⟩
  | 6 => ⟨S4096, .f32⟩
  | 7 => ⟨S_, .f32⟩
  | 8 => ⟨S4096, .f32⟩
  | 9 => ⟨S4096, .i1⟩
  | 10 => ⟨S_, .f32⟩
  | 11 => ⟨S4096, .f32⟩
  | 12 => ⟨S4096, .f32⟩
  | 13 => ⟨S1x4096, .f32⟩
  | 14 => ⟨S4096x4096, .f32⟩
  | 15 => ⟨S4096x4096, .f32⟩
  | 16 => ⟨S1x4096, .f32⟩
  | 17 => ⟨S4096x4096, .f32⟩
  | 18 => ⟨S4096x4096, .f32⟩
  | 19 => ⟨S_, .f32⟩
  | 20 => ⟨S4096, .f32⟩
  | 21 => ⟨S4096x1, .f32⟩
  | 22 => ⟨S4096x4096, .f32⟩
  | 23 => ⟨S_, .f32⟩
  | 24 => ⟨S4096, .f32⟩
  | 25 => ⟨S4096x1, .f32⟩
  | 26 => ⟨S_, .f32⟩
  | 27 => ⟨S4096x4096, .f32⟩
  | 28 => ⟨S4096x4096, .f32⟩
  | 29 => ⟨S4096x4096, .f32⟩
  | 30 => ⟨S_, .f32⟩
  | 31 => ⟨S4096x4096, .f32⟩
  | 32 => ⟨S4096x4096, .f32⟩
  | 33 => ⟨S4096x4096, .f32⟩
  | 34 => ⟨S4096x4096, .f32⟩
  | 35 => ⟨S4096x4096, .f32⟩
  | 36 => ⟨S4096x4096, .f32⟩
  | 37 => ⟨S4096x4096, .f32⟩
  | 38 => ⟨S_, .f32⟩
  | 39 => ⟨S4096x4096, .f32⟩
  | 40 => ⟨S4096x4096, .f32⟩
  | 41 => ⟨S_, .f32⟩
  | 42 => ⟨S4096x4096, .f32⟩
  | 43 => ⟨S4096x4096, .f32⟩
  | 44 => ⟨S4096x4096, .f32⟩
  | 45 => ⟨S_, .f32⟩
  | 46 => ⟨S4096x1, .f32⟩
  | 47 => ⟨S4096x1, .f32⟩
  | 48 => ⟨S_, .f32⟩
  | 49 => ⟨S4096x4096, .f32⟩
  | 50 => ⟨S4096x4096, .f32⟩
  | 51 => ⟨S4096x4096, .f32⟩
  | 52 => ⟨S4096x4096, .f32⟩
  | 53 => ⟨S4096x4096, .f32⟩
  | 54 => ⟨S4096x4096, .f32⟩
  | 55 => ⟨S_, .f32⟩
  | 56 => ⟨S4096x4096, .f32⟩
  | 57 => ⟨S4096x4096, .f32⟩
  | 58 => ⟨S4096x4096, .f32⟩
  | 59 => ⟨S_, .f32⟩
  | 60 => ⟨S4096x4096, .f32⟩
  | 61 => ⟨S4096x4096, .f32⟩
  | 62 => ⟨S_, .f32⟩
  | 63 => ⟨S4096, .f32⟩
  | 64 => ⟨S4096x1, .f32⟩
  | 65 => ⟨S4096x4096, .f32⟩
  | 66 => ⟨S_, .f32⟩
  | 67 => ⟨S4096, .f32⟩
  | 68 => ⟨S4096x1, .f32⟩
  | 69 => ⟨S_, .f32⟩
  | 70 => ⟨S4096x4096, .f32⟩
  | 71 => ⟨S4096x4096, .f32⟩
  | 72 => ⟨S4096x4096, .f32⟩
  | 73 => ⟨S_, .f32⟩
  | 74 => ⟨S4096x4096, .f32⟩
  | 75 => ⟨S4096x4096, .f32⟩
  | 76 => ⟨S4096x4096, .f32⟩
  | 77 => ⟨S4096x4096, .f32⟩
  | 78 => ⟨S4096x4096, .f32⟩
  | 79 => ⟨S4096x4096, .f32⟩
  | 80 => ⟨S4096x4096, .f32⟩
  | 81 => ⟨S_, .f32⟩
  | 82 => ⟨S4096x4096, .f32⟩
  | 83 => ⟨S4096x4096, .f32⟩
  | 84 => ⟨S_, .f32⟩
  | 85 => ⟨S4096x4096, .f32⟩
  | 86 => ⟨S4096x4096, .f32⟩
  | 87 => ⟨S4096x4096, .f32⟩
  | 88 => ⟨S_, .f32⟩
  | 89 => ⟨S4096x1, .f32⟩
  | 90 => ⟨S4096x1, .f32⟩
  | 91 => ⟨S_, .f32⟩
  | 92 => ⟨S4096x4096, .f32⟩
  | 93 => ⟨S4096x4096, .f32⟩
  | 94 => ⟨S4096x4096, .f32⟩
  | 95 => ⟨S4096x4096, .f32⟩
  | 96 => ⟨S4096x4096, .f32⟩
  | 97 => ⟨S4096x4096, .f32⟩
  | 98 => ⟨S_, .f32⟩
  | 99 => ⟨S4096x4096, .f32⟩
  | 100 => ⟨S4096x4096, .f32⟩
  | 101 => ⟨S4096x4096, .f32⟩
  | 102 => ⟨S_, .f32⟩
  | 103 => ⟨S4096x4096, .f32⟩
  | 104 => ⟨S4096x4096, .f32⟩
  | 105 => ⟨S_, .f32⟩
  | 106 => ⟨S4096, .f32⟩
  | 107 => ⟨S4096x1, .f32⟩
  | 108 => ⟨S4096x4096, .f32⟩
  | 109 => ⟨S_, .f32⟩
  | 110 => ⟨S4096, .f32⟩
  | 111 => ⟨S4096x1, .f32⟩
  | 112 => ⟨S_, .f32⟩
  | 113 => ⟨S4096x4096, .f32⟩
  | 114 => ⟨S4096x4096, .f32⟩
  | 115 => ⟨S4096x4096, .f32⟩
  | 116 => ⟨S_, .f32⟩
  | 117 => ⟨S4096x4096, .f32⟩
  | 118 => ⟨S4096x4096, .f32⟩
  | 119 => ⟨S4096x4096, .f32⟩
  | 120 => ⟨S4096x4096, .f32⟩
  | 121 => ⟨S4096x4096, .f32⟩
  | 122 => ⟨S4096x4096, .f32⟩
  | 123 => ⟨S4096x4096, .f32⟩
  | 124 => ⟨S_, .f32⟩
  | 125 => ⟨S4096x4096, .f32⟩
  | 126 => ⟨S4096x4096, .f32⟩
  | 127 => ⟨S_, .f32⟩
  | _ => ⟨S1x4096x4096, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S_, .f32⟩
  | 4 => ⟨S4096x1, .f32⟩
  | 5 => ⟨S4096x1, .f32⟩
  | 6 => ⟨S_, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S4096x4096, .f32⟩
  | 13 => ⟨S_, .f32⟩
  | 14 => ⟨S4096x4096, .f32⟩
  | 15 => ⟨S4096x4096, .f32⟩
  | 16 => ⟨S4096x4096, .f32⟩
  | 17 => ⟨S_, .f32⟩
  | 18 => ⟨S4096x4096, .f32⟩
  | 19 => ⟨S4096x4096, .f32⟩
  | 20 => ⟨S1x4096, .f32⟩
  | 21 => ⟨S4096x4096, .f32⟩
  | 22 => ⟨S4096x4096, .f32⟩
  | 23 => ⟨S1x4096, .f32⟩
  | 24 => ⟨S4096x4096, .f32⟩
  | 25 => ⟨S4096x4096, .f32⟩
  | 26 => ⟨S1x4096x4096, .f32⟩
  | _ => ⟨S1x4096x4096, .f32⟩

abbrev hbmTy (i : Nat) : BufTy := match i / 128 with
  | 0 => hbmTy0_0 i
  | 1 => hbmTy0_1 i
  | _ => ⟨S1x4096x4096, .f32⟩

abbrev bufTy : (tb : Table) → Fin (tcTables nBuf tb) → BufTy
  | .hbm, ⟨i, _⟩ => hbmTy i
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_4 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_7 : Ref sig .tc := ⟨.hbm, 38, rfl⟩
abbrev main_v29 : Ref sig .tc := ⟨.hbm, 39, rfl⟩
abbrev main_v30 : Ref sig .tc := ⟨.hbm, 40, rfl⟩
abbrev main_cst_8 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_9 : Ref sig .tc := ⟨.hbm, 45, rfl⟩
abbrev main_v34 : Ref sig .tc := ⟨.hbm, 46, rfl⟩
abbrev main_v35 : Ref sig .tc := ⟨.hbm, 47, rfl⟩
abbrev main_cst_10 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_11 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_12 : Ref sig .tc := ⟨.hbm, 59, rfl⟩
abbrev main_v45 : Ref sig .tc := ⟨.hbm, 60, rfl⟩
abbrev main_v46 : Ref sig .tc := ⟨.hbm, 61, rfl⟩
abbrev main_cst_13 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_cst_15 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_16 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_17 : Ref sig .tc := ⟨.hbm, 81, rfl⟩
abbrev main_v62 : Ref sig .tc := ⟨.hbm, 82, rfl⟩
abbrev main_v63 : Ref sig .tc := ⟨.hbm, 83, rfl⟩
abbrev main_cst_18 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_19 : Ref sig .tc := ⟨.hbm, 88, rfl⟩
abbrev main_v67 : Ref sig .tc := ⟨.hbm, 89, rfl⟩
abbrev main_v68 : Ref sig .tc := ⟨.hbm, 90, rfl⟩
abbrev main_cst_20 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_21 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_22 : Ref sig .tc := ⟨.hbm, 102, rfl⟩
abbrev main_v78 : Ref sig .tc := ⟨.hbm, 103, rfl⟩
abbrev main_v79 : Ref sig .tc := ⟨.hbm, 104, rfl⟩
abbrev main_cst_23 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_24 : Ref sig .tc := ⟨.hbm, 109, rfl⟩
abbrev main_v83 : Ref sig .tc := ⟨.hbm, 110, rfl⟩
abbrev main_v84 : Ref sig .tc := ⟨.hbm, 111, rfl⟩
abbrev main_cst_25 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_26 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_27 : Ref sig .tc := ⟨.hbm, 124, rfl⟩
abbrev main_v95 : Ref sig .tc := ⟨.hbm, 125, rfl⟩
abbrev main_v96 : Ref sig .tc := ⟨.hbm, 126, rfl⟩
abbrev main_cst_28 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_29 : Ref sig .tc := ⟨.hbm, 131, rfl⟩
abbrev main_v100 : Ref sig .tc := ⟨.hbm, 132, rfl⟩
abbrev main_v101 : Ref sig .tc := ⟨.hbm, 133, rfl⟩
abbrev main_cst_30 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_31 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_32 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩

abbrev nD : Nat := 1
abbrev τ : Topo := Topo.v7x

variable {F : FTy → Type} [FloatOps F]

class Facts₀ : Prop where
  shapeCasts_S1x4096x4096_S4096x4096 : S1x4096x4096.ShapeCasts S4096x4096
  reducesTo_S4096x4096_S4096_d0 : S4096x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S4096_S4096x1_0 : S4096.BroadcastsInDim S4096x1 (![0] : Fin 1 → Fin S4096x1.rank)
  bcast_S_S4096x4096 : S_.BroadcastsInDim S4096x4096 (![] : Fin 0 → Fin S4096x4096.rank)
  bcast_S4096x1_S4096x4096_0_1 : S4096x1.BroadcastsInDim S4096x4096 (![0, 1] : Fin 2 → Fin S4096x4096.rank)
  bcast_S_S4096x1 : S_.BroadcastsInDim S4096x1 (![] : Fin 0 → Fin S4096x1.rank)
  shapeCasts_S4096x4096_S1x4096x4096 : S4096x4096.ShapeCasts S1x4096x4096

variable [Facts₀]

class Facts : Prop extends Facts₀ where

variable [Facts]
-- ==== Proof.KernelMinMaxData.lean ====
/-
  The first kernel region: the column extremes, accumulated over eight blocks of 512 rows.

  The region walks the 4096 × 4096 matrix in eight row blocks. At block 0 it stores the block's column minima and
  maxima into its two one-row outputs; at every later block it replaces each by the minimum (maximum) of what the
  output holds and the new block's column minimum (maximum). The two outputs' blocks never move, so they stay in
  their staging buffers from point to point and are written back once, after the last block.

  This module only NAMES what the staging buffers hold after each point (the running minimum and maximum), and the
  region's proof data over them, for an arbitrary float family and arbitrary contents `V` of the buffers when the
  region is entered. The proofs about them are in the modules that import this one.
-/
import proofs.«106010_j79379585565572_1_alg».proof.Proof.Gen.Kernel.Launch
import proofs.«106010_j79379585565572_1_alg».proof.Proof.Gen.Kernel.Skeleton
import proofs.«106010_j79379585565572_1_alg».proof.Proof.Gen.Kernel.Points
import Idealize.ShloMosaic.Lib.Pipeline.FrameBody
import Idealize.ShloMosaic.Lib.Pipeline.Frame

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running column minimum after point `n`: block 0's column minima, then the minimum with each later block's. -/
def runMin (c : Dev nD) : (n : ℕ) → n < cfg0.N → Vec F S1x4096 .f32
  | 0, h => k0_pay2 (iblk V c 0 ⟨0, h⟩)
  | n + 1, h => k0_pay4 (iblk V c 0 ⟨n + 1, h⟩) (runMin c n (Nat.lt_of_succ_lt h))

/-- The running column maximum after point `n`. -/
def runMax (c : Dev nD) : (n : ℕ) → n < cfg0.N → Vec F S1x4096 .f32
  | 0, h => k0_pay3 (iblk V c 0 ⟨0, h⟩)
  | n + 1, h => k0_pay5 (iblk V c 0 ⟨n + 1, h⟩) (runMax c n (Nat.lt_of_succ_lt h))

/-- The region's proof data on core `c`: the arrays as the region finds them; after the body at point `t` the
    input's buffer at its block and the two outputs' at the running extremes; the scoped rest and the generator
    register untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => runMin V c t.val t.isLt
    | ⟨2, _⟩ => runMax V c t.val t.isLt
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = runMin V c t.val t.isLt := by dsimp only [dat]
theorem after_2 (c : Dev nD) (t : Fin cfg0.N) : (dat V c).after 2 t = runMax V c t.val t.isLt := by dsimp only [dat]

end Cert.Kernel.MinMax

end
-- ==== Proof.KernelMinMaxRegion.lean ====
/-
  The first region's body obligation: one run of the column-extremes kernel at a grid point.

  The region visits the eight row blocks of the matrix in order. Its body reads the current 512 × 4096 block `x`
  and then does one of two things, decided by the block's number alone:

  * at block 0 it overwrites the two one-row outputs with the block's column minima and column maxima;
  * at every later block it replaces the first output `lo` by the entrywise minimum of `lo` and the block's
    column minima, and the second output `hi` by the entrywise maximum of `hi` and the block's column maxima.

  Exactly one of the two happens at each block (the tests are "the block number is zero" and "the block number is
  positive"), so no block leaves an output untouched. The outputs' blocks never move, hence they are written back
  only after the last block, and at a later block each output still holds what the block before left there. By
  induction on the block this is the running minimum (maximum) of the column over the blocks seen so far, which is
  what the region's proof data name.

  The module proves: (1) the two tests in closed form over the grid; (2) that neither output is ever idle;
  (3) the body's two runs, one per case, as separation-logic triples over arbitrary whole buffers; (4) what each
  buffer holds when the body is entered (the input its block, an output at a later block the running extreme of the
  block before); and from these (5) the body obligation at every block, for any float family.
-/
import proofs.«106010_j79379585565572_1_alg».proof.Proof.KernelMinMaxData
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership of an index in a rectangle of 4096 columns is checked coordinate by coordinate
set_option maxRecDepth 16384

noncomputable section

namespace Cert.Kernel.MinMax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
variable (V : (c : Dev nD) → (b : Ref sig .tc) → Buf (Elt F) ((c : Thread nD τ).loc b))

local notation "𝕄" => MT nD τ sig Unit (Elt F) ℕ (UR sig nD τ) ℕ

namespace Region

/-! ## The two tests, over the grid -/

/-- The first test holds at block 0 only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)

/-- The second test holds at every block but block 0. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two tests holds at every coordinate, so the first output is stored into at every block: it is
    never idle. -/
theorem live1 : ∀ i : grid0.Coords, cfg0.idle 1 i = false :=
  (by decide +kernel : ∀ i : grid0.Coords, idle0 1 i = false)

/-- Likewise the second output. -/
theorem live2 : ∀ i : grid0.Coords, cfg0.idle 2 i = false :=
  (by decide +kernel : ∀ i : grid0.Coords, idle0 2 i = false)

/-! ## Whole-buffer loads and stores -/

/-- The offsets of every access of the body: the origin. -/
theorem hz : (![0, 0] : Fin 2 → Nat) = fun _ => 0 := funext fun a => by fin_cases a <;> rfl

/-- A load of the whole block reads the block. -/
theorem load_block {κ : Kind} {sp : Space} (v : View sig κ sp S512x4096 .f32) (f : v.ty.Contents (Elt F)) :
    v.readAt (Elt F) (Rect.unit (s := S512x4096) ![0, 0] S512x4096.size inb_S512x4096_S512x4096_0_0) f = v.read (Elt F) f := by
  rw [View.readAt_eq_ld, View.ld_unit_zero hz]

/-- A load of a whole one-row buffer reads the row. -/
theorem load_row {κ : Kind} {sp : Space} (v : View sig κ sp S1x4096 .f32) (f : v.ty.Contents (Elt F)) :
    v.readAt (Elt F) (Rect.unit (s := S1x4096) ![0, 0] S1x4096.size inb_S1x4096_S1x4096_0_0) f = v.read (Elt F) f := by
  rw [View.readAt_eq_ld, View.ld_unit_zero hz]

/-- After a store of a whole row the buffer reads as the row stored, whatever it held. -/
theorem store_row {κ : Kind} {sp : Space} (v : View sig κ sp S1x4096 .f32) (f : v.ty.Contents (Elt F)) (p : Vec F S1x4096 .f32) :
    v.read (Elt F) (v.writes (Elt F) f [⟨Rect.unit (s := S1x4096) ![0, 0] S1x4096.size inb_S1x4096_S1x4096_0_0, p⟩]) = p := by
  rw [View.read_writes_eq_canon v f _ (View.cover_of_tiled _ S1x4096.size (by rfl)), View.canon_unit_zero hz]

/-! ## The body's two runs -/

set_option maxHeartbeats 1000000 in
/-- AT BLOCK 0 (the first test holds, the second fails). On whole buffers, the input's at `x` and the outputs' at
    anything, the body runs to the continuation holding the input's as it was, the first output's at the column
    minima of `x` and the second's at the column maxima: the loads under the first test read and discard, each
    store covers its buffer. -/
theorem run_first (c : Dev nD) (E : Set ℕ) (i : grid0.Coords)
    (a1 : Memref sig .tc .vmem S512x4096 .f32) (w1 : a1.IsWhole)
    (a2 : Memref sig .tc .vmem S1x4096 .f32) (w2 : a2.IsWhole)
    (a3 : Memref sig .tc .vmem S1x4096 .f32) (w3 : a3.IsWhole)
    (h1 : k0_cond1 i = 1#1) (h2 : ¬ k0_cond2 i = 1#1)
    (x : Vec F S512x4096 .f32) (K : PUnit → sProp 𝕄) :
    iprop(owns (c : Thread nD τ) a1 fullShare x ∗ (∃ d, owns (c : Thread nD τ) a2 fullShare d)
        ∗ (∃ d, owns (c : Thread nD τ) a3 fullShare d)
        ∗ (iprop(owns (c : Thread nD τ) a1 fullShare x ∗ owns (c : Thread nD τ) a2 fullShare (k0_pay2 x)
            ∗ owns (c : Thread nD τ) a3 fullShare (k0_pay3 x)) -∗ K ⟨⟩))
      ⊢ wp frame (wpE (defs₀ (F := F)) Variants.none c none) E (cc0__minmax_kernel i a1 w1 a2 w2 a3 w3) K := by
  simp only [cc0__minmax_kernel_eq_skeleton]; unfold cc0__minmax_kernel_skel
  unfold owns
  iintro ⟨⟨%f1, %hf1, H1⟩, ⟨%d2, %f2, -, H2⟩, ⟨%d3, %f3, -, H3⟩, Hk⟩
  subst hf1
  sl_exec (disch := first | exact h1 | exact h2)
  sl_step
  iapply Hk
  isplitl [H1]
  · iexists f1; isplitr; · ipureintro; rfl
    iexact H1
  isplitl [H2]
  · iexists _; isplitr
    swap; · iexact H2
    ipureintro; rw [store_row, load_block]
  iexists _; isplitr
  swap; · iexact H3
  ipureintro; rw [store_row, load_block]

set_option maxHeartbeats 1000000 in
/-- AT A LATER BLOCK (the first test fails, the second holds). On whole buffers, the input's at `x`, the first
    output's at `lo` and the second's at `hi`, the body runs to the continuation holding the input's as it was, the
    first output's at the minimum of `lo` with the column minima of `x` and the second's at the maximum of `hi`
    with the column maxima: each output is read before it is stored into, and each store covers its buffer. -/
theorem run_later (c : Dev nD) (E : Set ℕ) (i : grid0.Coords)
    (a1 : Memref sig .tc .vmem S512x4096 .f32) (w1 : a1.IsWhole)
    (a2 : Memref sig .tc .vmem S1x4096 .f32) (w2 : a2.IsWhole)
    (a3 : Memref sig .tc .vmem S1x4096 .f32) (w3 : a3.IsWhole)
    (h1 : ¬ k0_cond1 i = 1#1) (h2 : k0_cond2 i = 1#1)
    (x : Vec F S512x4096 .f32) (lo hi : Vec F S1x4096 .f32) (K : PUnit → sProp 𝕄) :
    iprop(owns (c : Thread nD τ) a1 fullShare x ∗ owns (c : Thread nD τ) a2 fullShare lo
        ∗ owns (c : Thread nD τ) a3 fullShare hi
        ∗ (iprop(owns (c : Thread nD τ) a1 fullShare x ∗ owns (c : Thread nD τ) a2 fullShare (k0_pay4 x lo)
            ∗ owns (c : Thread nD τ) a3 fullShare (k0_pay5 x hi)) -∗ K ⟨⟩))
      ⊢ wp frame (wpE (defs₀ (F := F)) Variants.none c none) E (cc0__minmax_kernel i a1 w1 a2 w2 a3 w3) K := by
  simp only [cc0__minmax_kernel_eq_skeleton]; unfold cc0__minmax_kernel_skel
  unfold owns
  iintro ⟨⟨%f1, %hf1, H1⟩, ⟨%f2, %hf2, H2⟩, ⟨%f3, %hf3, H3⟩, Hk⟩
  subst hf1; subst hf2; subst hf3
  sl_exec (disch := first | exact h1 | exact h2)
  sl_step
  iapply Hk
  isplitl [H1]
  · iexists f1; isplitr; · ipureintro; rfl
    iexact H1
  isplitl [H2]
  · iexists _; isplitr
    swap; · iexact H2
    ipureintro; rw [store_row, load_block, load_row]
  iexists _; isplitr
  swap; · iexact H3
  ipureintro; rw [store_row, load_block, load_row]

/-! ## What the buffers hold when the body is entered -/

/-- The input's current buffer holds the input's block at every point: the window is fetched at every point, and
    a fetch of an uncut window fills the whole buffer with the block. -/
theorem before_in (c : Dev nD) (t : Fin cfg0.N) (d) : (dat V c).before 0 t d = iblk V c 0 t := by
  rw [Dat.before_fetched _ 0 t (fetch0_0 t) d]
  unfold Dat.fetched Dat.blockOf iblk
  rw [A_eq]
  rfl

/-- At a later block the first output's buffer holds what the body left at the block before, the running minimum
    up to there: the block before did not write the buffer back (only the last block does), the window is never
    idle and never cut. -/
theorem before_min (c : Dev nD) (t : Fin cfg0.N) (ht : t.val ≠ 0) (d) :
    (dat V c).before 1 t d = runMin V c (t.val - 1) (Nat.lt_of_le_of_lt (Nat.sub_le _ _) t.isLt) := by
  have hN : t.val < 8 := lt_of_lt_of_eq t.isLt (show cfg0.N = 8 from N_0)
  rw [Dat.before_out_kept _ 1 rfl t ht
    (Bool.eq_false_iff.mpr fun h => by have := (flush0_1 _).mp h; dsimp only at this; omega)
    live1 (fun _ _ => rfl)]
  exact after_1 V c _

/-- Likewise the second output's buffer holds the running maximum up to the block before. -/
theorem before_max (c : Dev nD) (t : Fin cfg0.N) (ht : t.val ≠ 0) (d) :
    (dat V c).before 2 t d = runMax V c (t.val - 1) (Nat.lt_of_le_of_lt (Nat.sub_le _ _) t.isLt) := by
  have hN : t.val < 8 := lt_of_lt_of_eq t.isLt (show cfg0.N = 8 from N_0)
  rw [Dat.before_out_kept _ 2 rfl t ht
    (Bool.eq_false_iff.mpr fun h => by have := (flush0_2 _).mp h; dsimp only at this; omega)
    live2 (fun _ _ => rfl)]
  exact after_2 V c _

/-! ## The running extremes, one block at a time -/

theorem runMin_first (c : Dev nD) (t : Fin cfg0.N) (ht : t.val = 0) :
    runMin V c t.val t.isLt = k0_pay2 (iblk V c 0 t) := by
  obtain ⟨n, hn⟩ := t
  cases n with
  | zero => rfl
  | succ n => exact absurd ht (Nat.succ_ne_zero n)

theorem runMin_later (c : Dev nD) (t : Fin cfg0.N) (ht : t.val ≠ 0) :
    runMin V c t.val t.isLt
      = k0_pay4 (iblk V c 0 t) (runMin V c (t.val - 1) (Nat.lt_of_le_of_lt (Nat.sub_le _ _) t.isLt)) := by
  obtain ⟨n, hn⟩ := t
  cases n with
  | zero => exact absurd rfl ht
  | succ n => rfl

theorem runMax_first (c : Dev nD) (t : Fin cfg0.N) (ht : t.val = 0) :
    runMax V c t.val t.isLt = k0_pay3 (iblk V c 0 t) := by
  obtain ⟨n, hn⟩ := t
  cases n with
  | zero => rfl
  | succ n => exact absurd ht (Nat.succ_ne_zero n)

theorem runMax_later (c : Dev nD) (t : Fin cfg0.N) (ht : t.val ≠ 0) :
    runMax V c t.val t.isLt
      = k0_pay5 (iblk V c 0 t) (runMax V c (t.val - 1) (Nat.lt_of_le_of_lt (Nat.sub_le _ _) t.isLt)) := by
  obtain ⟨n, hn⟩ := t
  cases n with
  | zero => exact absurd rfl ht
  | succ n => rfl

/-! ## The obligation at a point -/

/-- What the body is called with at point `t`: the invariant, what the core owes, and each window's current buffer
    at what it then holds. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it returns: the same, each buffer at what the proof data say the body leaves. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

set_option maxHeartbeats 800000 in
/-- The body at any point. The input's buffer holds its block. At block 0 the first test holds and the second
    fails, the outputs' buffers hold anything, and the first run leaves the block's column extremes: the running
    extremes after block 0. At a later block the tests are the other way round, the outputs' buffers hold the
    running extremes up to the block before, and the second run leaves their minimum (maximum) with the block's
    column extremes: the running extremes after this block. The invariant and what the core owes pass through
    unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_0, after_1, after_2]
  by_cases h0 : t.val = 0
  · rw [runMin_first V c t h0, runMax_first V c t h0]
    iintro ⟨HΦ, Ho, ⟨%d0, H0⟩, ⟨%d1, H1⟩, ⟨%d2, H2⟩⟩
    iapply (run_first c Set.univ (grid0.coords t) _ _ _ _ _ _ ((cond1_iff t).mpr h0)
      (fun h => (cond2_iff t).mp h h0) (iblk V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [runMin_later V c t h0, runMax_later V c t h0]
    simp only [before_min V c t h0, before_max V c t h0]
    iintro ⟨HΦ, Ho, ⟨%d0, H0⟩, ⟨%d1, H1⟩, ⟨%d2, H2⟩⟩
    iapply (run_later c Set.univ (grid0.coords t) _ _ _ _ _ _ (fun h => h0 ((cond1_iff t).mp h))
      ((cond2_iff t).mpr h0) (iblk V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Region

/-- The library's body obligation for the first region, at every point. -/
theorem body_obligation (c : Dev nD) : BodyObligation (dat (F := F) V c) (defs₀ (F := F)) Variants.none () Set.univ := by
  intro t
  -- the three windows one by one; the two outputs share one table of idle points, nowhere true, so that
  -- rewriting it at this point's coordinates settles what both are left at: what the proof data say
  rw [bigSep_W0, bigSep_W0, Region.live1 (cfg0.grid.coords t)]
  exact Region.sound_body V c t

end Cert.Kernel.MinMax

end
-- ==== Proof.KernelMainData.lean ====
/-
  The second kernel region: the rows corrected, 128 rows at a point.

  At each of its 32 points the region loads a block of 128 full rows of the matrix and the two one-row column
  statistics (the minima and the maxima, which the first region left), computes the corrected rows and stores them
  into the matching block of the result. Nothing is carried from point to point.

  This module only NAMES the value the body stores, as one function of the three loaded blocks, and the region's
  proof data over it, for an arbitrary float family and arbitrary contents `V` of the buffers when the region is
  entered. The proofs about them are in the modules that import this one.
-/
import proofs.«106010_j79379585565572_1_alg».proof.Proof.Gen.Kernel.Launch
import proofs.«106010_j79379585565572_1_alg».proof.Proof.Gen.Kernel.Skeleton
import proofs.«106010_j79379585565572_1_alg».proof.Proof.Gen.Kernel.Points
import Idealize.ShloMosaic.Lib.Pipeline.FrameBody
import Idealize.ShloMosaic.Lib.Pipeline.Frame

noncomputable section

namespace Cert.Kernel.Main

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores, from the block `x` of 128 rows and the one-row blocks `mn`, `mx` of the columns' minima
    and maxima, through the body's three parts: the normalised rows and the first correction's pieces (with the
    sign's word), the row after the first correction and the second's pieces, the row after the second and the
    third's last factor, then the third correction mapped back through the range and the minima. -/
def body (x : Vec F S128x4096 .f32) (mn mx : Vec F S1x4096 .f32) : FVec F S128x4096 .f32 :=
  k1_pay1 (k1_pay2 mn) (k1_pay3 mn mx)
    (k1_pay15
      (k1_pay9 (k1_pay4 x mn mx) (k1_pay6 x mn mx) (k1_pay7 x mn mx) (k1_pay8 x mn mx) 1065353216#32)
      (k1_pay11 (k1_pay4 x mn mx) (k1_pay6 x mn mx) (k1_pay7 x mn mx) (k1_pay8 x mn mx) 1065353216#32)
      (k1_pay12 (k1_pay4 x mn mx) (k1_pay6 x mn mx) (k1_pay7 x mn mx) (k1_pay8 x mn mx) 1065353216#32)
      (k1_pay13 (k1_pay4 x mn mx) (k1_pay6 x mn mx) (k1_pay7 x mn mx) (k1_pay8 x mn mx) 1065353216#32)
      (k1_pay14 (k1_pay4 x mn mx) (k1_pay6 x mn mx) (k1_pay7 x mn mx) (k1_pay8 x mn mx) 1065353216#32)
      (Scalar.ofBits .f32 0x00000000#32))
    (k1_pay16
      (k1_pay9 (k1_pay4 x mn mx) (k1_pay6 x mn mx) (k1_pay7 x mn mx) (k1_pay8 x mn mx) 1065353216#32)
      (k1_pay11 (k1_pay4 x mn mx) (k1_pay6 x mn mx) (k1_pay7 x mn mx) (k1_pay8 x mn mx) 1065353216#32)
      (k1_pay12 (k1_pay4 x mn mx) (k1_pay6 x mn mx) (k1_pay7 x mn mx) (k1_pay8 x mn mx) 1065353216#32)
      (k1_pay13 (k1_pay4 x mn mx) (k1_pay6 x mn mx) (k1_pay7 x mn mx) (k1_pay8 x mn mx) 1065353216#32)
      (k1_pay14 (k1_pay4 x mn mx) (k1_pay6 x mn mx) (k1_pay7 x mn mx) (k1_pay8 x mn mx) 1065353216#32)
      (Scalar.ofBits .f32 0x00000000#32))
    (Scalar.ofBits .f32 0x3F800000#32)

/-- The region's proof data on core `c`: the arrays as the region finds them; after the body at point `t` each
    input's buffer at its block and the output's at `body` of the three input blocks; the scoped rest and the
    generator register untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => body (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = body (iblk V c 0 t) (iblk V c 1 t) (iblk V c 2 t) := by dsimp only [dat]

end Cert.Kernel.Main

end
-- ==== Proof.KernelMainRegion.lean ====
/-
  The second kernel region, as separation logic: at every grid point the body, handed the three input windows'
  current buffers at their blocks and the output's at anything, runs and leaves the inputs as they were and the
  output's buffer at `body` of the three blocks.

  The three inputs are read through whole-buffer loads and the one store covers the output's whole buffer, so what
  the store leaves is its payload; the two one-row inputs are fetched at the first point only and their block index
  never moves, so their buffers hold the same block at every point. The invariant (the other kernels' buffers and
  the generator register) and the core's debts pass through untouched.
-/
import proofs.«106010_j79379585565572_1_alg».proof.Proof.KernelMainData
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.Main

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The input windows hold their blocks at every point -/

/-- The block of 128 rows: fetched at every point. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- The row of minima: fetched once; its block never moves, so every point finds it there. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The row of maxima: likewise. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body's accesses and what its one store leaves -/

/-- The whole 128 × 4096 buffer as a rectangle. -/
abbrev rBig : Rect S128x4096 := Rect.unit (s := S128x4096) ![0, 0] S128x4096.size inb_S128x4096_S128x4096_0_0
/-- The whole 1 × 4096 buffer as a rectangle. -/
abbrev rRow : Rect S1x4096 := Rect.unit (s := S1x4096) ![0, 0] S1x4096.size inb_S1x4096_S1x4096_0_0

theorem hz : (![0, 0] : Fin 2 → Nat) = fun _ => 0 := funext fun a => by fin_cases a <;> rfl

/-- The one store covers the output's buffer. -/
theorem cover_out (p0 : Vec F S128x4096 .f32) (y : S128x4096.Idx) :
    ∃ pc ∈ ([⟨rBig, p0⟩] : List (View.Piece (Elt F) S128x4096 .f32)), y ∈ pc.1.set :=
  View.cover_of_tiled [⟨rBig, p0⟩] S128x4096.size (by rfl) y

/-! ## The body's triple -/

set_option maxHeartbeats 4000000 in
/-- On whole staging buffers, the inputs' holding `x0`, `x1`, `x2` and the output's anything, the body runs to the
    continuation with the inputs' as they were and the output's at `body x0 x1 x2`. -/
theorem sound_kernel (c : Dev nD) (E : Set ℕ) (i : grid1.Coords)
    (arg1 : Memref sig .tc .vmem S128x4096 .f32) (harg1 : arg1.IsWhole) (arg2 : Memref sig .tc .vmem S1x4096 .f32) (harg2 : arg2.IsWhole)
    (arg3 : Memref sig .tc .vmem S1x4096 .f32) (harg3 : arg3.IsWhole) (arg4 : Memref sig .tc .vmem S128x4096 .f32) (harg4 : arg4.IsWhole)
    (x0 : Vec F S128x4096 .f32) (x1 x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (body x0 x1 x2)) -∗ K ⟨⟩))
      ⊢ wp frame (wpE (defs₀ (F := F)) Variants.none c none) E (cc1__main_kernel i arg1 harg1 arg2 harg2 arg3 harg3 arg4 harg4) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _)]
  sl_unfold_words
  rw [View.canon_unit_zero hz]
  simp only [View.readAt_eq_ld, View.ld_unit_zero (S := S128x4096) hz, View.ld_unit_zero (S := S1x4096) hz]
  rfl

/-! ## The body obligation, at a generic point -/

/-- What the body is called with at point `t`: the invariant, the core's debts, every window's current buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant and the
    core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Main

end
-- ==== Proof.KernelWholeRun.lean ====
/-
  The whole program's run: a reshape of the input, the first kernel region (the columns' extremes), the second
  kernel region (the rows corrected), a reshape of the result — and what every buffer holds when it ends.

  The buffers' contents between two items of the program are a fold from the launch memory: a host stretch applies
  its operations; a kernel region leaves each of its arrays at what its write-backs fold to (the region's proof
  data, stated at the contents the region is entered with) and every other buffer as it was. Each region is a
  segment entered from "every unscoped buffer at the contents before it, the generator register at some state,
  nothing owed" and left at the same with the contents after it; the two reshapes are host segments. The launch
  theorem for a program of several regions then gives: every weakly fair execution terminates, and at the end every
  unscoped buffer holds the last contents of the fold. From that: the argument is unchanged (no item writes it), and
  the result buffer is the reshape of what the second region leaves in its output array.
-/
import proofs.«106010_j79379585565572_1_alg».proof.Proof.KernelMinMaxRegion
import proofs.«106010_j79379585565572_1_alg».proof.Proof.KernelMainRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the input's reshape: what the first region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave, every other buffer as entered. -/
def W2 (c : Dev nD) : Valuation τ sig (Elt F) :=
  Pipeline.withArrays spec0 c (W1 m ρ c) fun w => (MinMax.dat (V1 m ρ) c).arrAt w cfg0.N
theorem W2_arr (c : Dev nD) (w : Fin cfg0.W) :
    W2 m ρ c (Proc.devRef .tc (Pipeline.arrRef spec0 w)) = (MinMax.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (MinMax.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region, which is entered with what the first leaves. -/
def W3 (c : Dev nD) : Valuation τ sig (Elt F) :=
  Pipeline.withArrays spec1 c (W2 m ρ c) fun w => (Main.dat (V2 m ρ) c).arrAt w cfg1.N
theorem W3_arr (c : Dev nD) (w : Fin cfg1.W) :
    W3 m ρ c (Proc.devRef .tc (Pipeline.arrRef spec1 w)) = (Main.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Main.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the result's reshape: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => MinMax.dat (V1 m ρ) c
  | ⟨1, _⟩ => fun c => Main.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (MinMax.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Main.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program terminates, nothing faulting, and at the end every unscoped buffer
    of every core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Whole

end
-- ==== Proof.KernelWholeRead.lean ====
/-
  What the last contents of the program's fold are, buffer by buffer: the argument is what was launched (no item
  writes it); the result is the reshape of what the second region leaves in its output array; the second region is
  entered with the reshaped argument as its matrix and with what the first region leaves in its two one-row
  arrays as its column statistics. Hence the frame: every execution ends with the argument unchanged.
-/
import proofs.«106010_j79379585565572_1_alg».proof.Proof.KernelWholeRun
import Idealize.ShloMosaic.Lib.StableHlo.Run

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]
variable (m : (ℓ : Loc nD τ sig) → Buf (Elt F) ℓ) (ρ : Dev nD → PrngReg)

/-- A reshape writes its result buffer only. -/
theorem hostOps0_keeps (c : Dev nD) (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem hostOps2_keeps (c : Dev nD) (W : Valuation τ sig (Elt F)) (b : Ref sig .tc) (hb : b ≠ main_v3) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The argument reaches the end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_keeps c _ main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := hostOps0_keeps c _ main_arg0 (by decide)
    _ = m ((c : Thread nD τ).loc main_arg0) := rfl

/-- THE FRAME: every weakly fair execution terminates, nothing faulting, with the argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W4_main_arg0 m ρ c)) (run_all m ρ)

/-- The first region's matrix is the reshaped argument. -/
theorem V1_main_v0 (c : Dev nD) :
    V1 m ρ c main_v0 = shapeCast _ (m ((c : Thread nD τ).loc main_arg0)) shapeCasts_S1x4096x4096_S4096x4096 := by
  show StableHlo.after hostOps0 (W0 m ρ c) (Proc.devRef .tc main_v0) = _
  after_results
  rfl

/-- The second region's matrix is the first region's, which the first region leaves as it found it. -/
theorem V2_main_v0 (c : Dev nD) : V2 m ρ c main_v0 = V1 m ρ c main_v0 :=
  (W2_arr m ρ c 0).trans (((MinMax.dat (V1 m ρ) c).arrAt_in 0 rfl _).trans (MinMax.A_eq (V1 m ρ) c 0))

/-- The second region's row of minima is what the first region leaves in its first output array. -/
theorem V2_main_v1_0 (c : Dev nD) : V2 m ρ c main_v1_0 = (MinMax.dat (V1 m ρ) c).arrAt 1 cfg0.N := W2_arr m ρ c 1
/-- Its row of maxima is what the first region leaves in its second output array. -/
theorem V2_main_v1_1 (c : Dev nD) : V2 m ρ c main_v1_1 = (MinMax.dat (V1 m ρ) c).arrAt 2 cfg0.N := W2_arr m ρ c 2

/-- The result buffer at the end is the reshape of what the second region leaves in its output array. -/
theorem W4_main_v3 (c : Dev nD) :
    W4 m ρ c (Proc.devRef .tc main_v3)
      = shapeCast _ ((Main.dat (V2 m ρ) c).arrAt 3 cfg1.N) shapeCasts_S4096x4096_S1x4096x4096 := by
  show StableHlo.after hostOps2 (W3 m ρ c) (Proc.devRef .tc main_v3) = _
  after_results
  rw [show (W3 m ρ c (Proc.devRef .tc main_v2)) = (Main.dat (V2 m ρ) c).arrAt 3 cfg1.N from W3_arr m ρ c 3]
  rfl

end Cert.Kernel.Whole

end
-- ==== Proof.MinMaxData.lean ====
/-
  The first kernel region: the column extremes, accumulated over eight blocks of 512 rows.

  The region walks the 4096 × 4096 matrix in eight row blocks. At block 0 it stores the block's column minima and
  maxima into its two one-row outputs; at every later block it replaces each by the minimum (maximum) of what the
  output holds and the new block's column minimum (maximum). The two outputs' blocks never move, so they stay in
  their staging buffers from point to point and are written back once, after the last block.

  This module only NAMES what the staging buffers hold after each point (the running minimum and maximum), and the
  region's proof data over them, for an arbitrary float family and arbitrary contents `V` of the buffers when the
  region is entered. The proofs about them are in the modules that import this one.
-/
import proofs.«106010_j79379585565572_1_alg».proof.Proof.Gen.KernelIdeal.Launch
import proofs.«106010_j79379585565572_1_alg».proof.Proof.Gen.KernelIdeal.Skeleton
import proofs.«106010_j79379585565572_1_alg».proof.Proof.Gen.KernelIdeal.Points
import Idealize.ShloMosaic.Lib.Pipeline.FrameBody
import Idealize.ShloMosaic.Lib.Pipeline.Frame

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running column minimum after point `n`: block 0's column minima, then the minimum with each later block's. -/
def runMin (c : Dev nD) : (n : ℕ) → n < cfg0.N → Vec F S1x4096 .f32
  | 0, h => k0_pay2 (iblk V c 0 ⟨0, h⟩)
  | n + 1, h => k0_pay4 (iblk V c 0 ⟨n + 1, h⟩) (runMin c n (Nat.lt_of_succ_lt h))

/-- The running column maximum after point `n`. -/
def runMax (c : Dev nD) : (n : ℕ) → n < cfg0.N → Vec F S1x4096 .f32
  | 0, h => k0_pay3 (iblk V c 0 ⟨0, h⟩)
  | n + 1, h => k0_pay5 (iblk V c 0 ⟨n + 1, h⟩) (runMax c n (Nat.lt_of_succ_lt h))

/-- The region's proof data on core `c`: the arrays as the region finds them; after the body at point `t` the
    input's buffer at its block and the two outputs' at the running extremes; the scoped rest and the generator
    register untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => runMin V c t.val t.isLt
    | ⟨2, _⟩ => runMax V c t.val t.isLt
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = runMin V c t.val t.isLt := by dsimp only [dat]
theorem after_2 (c : Dev nD) (t : Fin cfg0.N) : (dat V c).after 2 t = runMax V c t.val t.isLt := by dsimp only [dat]

end Cert.KernelIdeal.MinMax

end
-- ==== Proof.MinMaxRegion.lean ====
/-
  The first region's body obligation: one run of the column-extremes kernel at a grid point.

  The region visits the eight row blocks of the matrix in order. Its body reads the current 512 × 4096 block `x`
  and then does one of two things, decided by the block's number alone:

  * at block 0 it overwrites the two one-row outputs with the block's column minima and column maxima;
  * at every later block it replaces the first output `lo` by the entrywise minimum of `lo` and the block's
    column minima, and the second output `hi` by the entrywise maximum of `hi` and the block's column maxima.

  Exactly one of the two happens at each block (the tests are "the block number is zero" and "the block number is
  positive"), so no block leaves an output untouched. The outputs' blocks never move, hence they are written back
  only after the last block, and at a later block each output still holds what the block before left there. By
  induction on the block this is the running minimum (maximum) of the column over the blocks seen so far, which is
  what the region's proof data name.

  The module proves: (1) the two tests in closed form over the grid; (2) that neither output is ever idle;
  (3) the body's two runs, one per case, as separation-logic triples over arbitrary whole buffers; (4) what each
  buffer holds when the body is entered (the input its block, an output at a later block the running extreme of the
  block before); and from these (5) the body obligation at every block, for any float family.
-/
import proofs.«106010_j79379585565572_1_alg».proof.Proof.MinMaxData
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

-- membership of an index in a rectangle of 4096 columns is checked coordinate by coordinate
set_option maxRecDepth 16384

noncomputable section

namespace Cert.KernelIdeal.MinMax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

local notation "𝕄" => MT nD τ sig Unit (Elt F) ℕ (UR sig nD τ) ℕ

namespace Region

/-! ## The two tests, over the grid -/

/-- The first test holds at block 0 only. -/
theorem cond1_iff : ∀ t : Fin cfg0.N, k0_cond1 (grid0.coords t) = 1#1 ↔ t.val = 0 :=
  (by decide +kernel : ∀ t : Fin grid0.N, k0_cond1 (grid0.coords t) = 1#1 ↔ t.val = 0)

/-- The second test holds at every block but block 0. -/
theorem cond2_iff : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two tests holds at every coordinate, so the first output is stored into at every block: it is
    never idle. -/
theorem live1 : ∀ i : grid0.Coords, cfg0.idle 1 i = false :=
  (by decide +kernel : ∀ i : grid0.Coords, idle0 1 i = false)

/-- Likewise the second output. -/
theorem live2 : ∀ i : grid0.Coords, cfg0.idle 2 i = false :=
  (by decide +kernel : ∀ i : grid0.Coords, idle0 2 i = false)

/-! ## Whole-buffer loads and stores -/

/-- The offsets of every access of the body: the origin. -/
theorem hz : (![0, 0] : Fin 2 → Nat) = fun _ => 0 := funext fun a => by fin_cases a <;> rfl

/-- A load of the whole block reads the block. -/
theorem load_block {κ : Kind} {sp : Space} (v : View sig κ sp S512x4096 .f32) (f : v.ty.Contents (Elt F)) :
    v.readAt (Elt F) (Rect.unit (s := S512x4096) ![0, 0] S512x4096.size inb_S512x4096_S512x4096_0_0) f = v.read (Elt F) f := by
  rw [View.readAt_eq_ld, View.ld_unit_zero hz]

/-- A load of a whole one-row buffer reads the row. -/
theorem load_row {κ : Kind} {sp : Space} (v : View sig κ sp S1x4096 .f32) (f : v.ty.Contents (Elt F)) :
    v.readAt (Elt F) (Rect.unit (s := S1x4096) ![0, 0] S1x4096.size inb_S1x4096_S1x4096_0_0) f = v.read (Elt F) f := by
  rw [View.readAt_eq_ld, View.ld_unit_zero hz]

/-- After a store of a whole row the buffer reads as the row stored, whatever it held. -/
theorem store_row {κ : Kind} {sp : Space} (v : View sig κ sp S1x4096 .f32) (f : v.ty.Contents (Elt F)) (p : Vec F S1x4096 .f32) :
    v.read (Elt F) (v.writes (Elt F) f [⟨Rect.unit (s := S1x4096) ![0, 0] S1x4096.size inb_S1x4096_S1x4096_0_0, p⟩]) = p := by
  rw [View.read_writes_eq_canon v f _ (View.cover_of_tiled _ S1x4096.size (by rfl)), View.canon_unit_zero hz]

/-! ## The body's two runs -/

set_option maxHeartbeats 1000000 in
/-- AT BLOCK 0 (the first test holds, the second fails). On whole buffers, the input's at `x` and the outputs' at
    anything, the body runs to the continuation holding the input's as it was, the first output's at the column
    minima of `x` and the second's at the column maxima: the loads under the first test read and discard, each
    store covers its buffer. -/
theorem run_first (c : Dev nD) (E : Set ℕ) (i : grid0.Coords)
    (a1 : Memref sig .tc .vmem S512x4096 .f32) (w1 : a1.IsWhole)
    (a2 : Memref sig .tc .vmem S1x4096 .f32) (w2 : a2.IsWhole)
    (a3 : Memref sig .tc .vmem S1x4096 .f32) (w3 : a3.IsWhole)
    (h1 : k0_cond1 i = 1#1) (h2 : ¬ k0_cond2 i = 1#1)
    (x : Vec F S512x4096 .f32) (K : PUnit → sProp 𝕄) :
    iprop(owns (c : Thread nD τ) a1 fullShare x ∗ (∃ d, owns (c : Thread nD τ) a2 fullShare d)
        ∗ (∃ d, owns (c : Thread nD τ) a3 fullShare d)
        ∗ (iprop(owns (c : Thread nD τ) a1 fullShare x ∗ owns (c : Thread nD τ) a2 fullShare (k0_pay2 x)
            ∗ owns (c : Thread nD τ) a3 fullShare (k0_pay3 x)) -∗ K ⟨⟩))
      ⊢ wp frame (wpE (defs₀ (F := F)) Variants.none c none) E (cc0__minmax_kernel i a1 w1 a2 w2 a3 w3) K := by
  simp only [cc0__minmax_kernel_eq_skeleton]; unfold cc0__minmax_kernel_skel
  unfold owns
  iintro ⟨⟨%f1, %hf1, H1⟩, ⟨%d2, %f2, -, H2⟩, ⟨%d3, %f3, -, H3⟩, Hk⟩
  subst hf1
  sl_exec (disch := first | exact h1 | exact h2)
  sl_step
  iapply Hk
  isplitl [H1]
  · iexists f1; isplitr; · ipureintro; rfl
    iexact H1
  isplitl [H2]
  · iexists _; isplitr
    swap; · iexact H2
    ipureintro; rw [store_row, load_block]
  iexists _; isplitr
  swap; · iexact H3
  ipureintro; rw [store_row, load_block]

set_option maxHeartbeats 1000000 in
/-- AT A LATER BLOCK (the first test fails, the second holds). On whole buffers, the input's at `x`, the first
    output's at `lo` and the second's at `hi`, the body runs to the continuation holding the input's as it was, the
    first output's at the minimum of `lo` with the column minima of `x` and the second's at the maximum of `hi`
    with the column maxima: each output is read before it is stored into, and each store covers its buffer. -/
theorem run_later (c : Dev nD) (E : Set ℕ) (i : grid0.Coords)
    (a1 : Memref sig .tc .vmem S512x4096 .f32) (w1 : a1.IsWhole)
    (a2 : Memref sig .tc .vmem S1x4096 .f32) (w2 : a2.IsWhole)
    (a3 : Memref sig .tc .vmem S1x4096 .f32) (w3 : a3.IsWhole)
    (h1 : ¬ k0_cond1 i = 1#1) (h2 : k0_cond2 i = 1#1)
    (x : Vec F S512x4096 .f32) (lo hi : Vec F S1x4096 .f32) (K : PUnit → sProp 𝕄) :
    iprop(owns (c : Thread nD τ) a1 fullShare x ∗ owns (c : Thread nD τ) a2 fullShare lo
        ∗ owns (c : Thread nD τ) a3 fullShare hi
        ∗ (iprop(owns (c : Thread nD τ) a1 fullShare x ∗ owns (c : Thread nD τ) a2 fullShare (k0_pay4 x lo)
            ∗ owns (c : Thread nD τ) a3 fullShare (k0_pay5 x hi)) -∗ K ⟨⟩))
      ⊢ wp frame (wpE (defs₀ (F := F)) Variants.none c none) E (cc0__minmax_kernel i a1 w1 a2 w2 a3 w3) K := by
  simp only [cc0__minmax_kernel_eq_skeleton]; unfold cc0__minmax_kernel_skel
  unfold owns
  iintro ⟨⟨%f1, %hf1, H1⟩, ⟨%f2, %hf2, H2⟩, ⟨%f3, %hf3, H3⟩, Hk⟩
  subst hf1; subst hf2; subst hf3
  sl_exec (disch := first | exact h1 | exact h2)
  sl_step
  iapply Hk
  isplitl [H1]
  · iexists f1; isplitr; · ipureintro; rfl
    iexact H1
  isplitl [H2]
  · iexists _; isplitr
    swap; · iexact H2
    ipureintro; rw [store_row, load_block, load_row]
  iexists _; isplitr
  swap; · iexact H3
  ipureintro; rw [store_row, load_block, load_row]

/-! ## What the buffers hold when the body is entered -/

/-- The input's current buffer holds the input's block at every point: the window is fetched at every point, and
    a fetch of an uncut window fills the whole buffer with the block. -/
theorem before_in (c : Dev nD) (t : Fin cfg0.N) (d) : (dat V c).before 0 t d = iblk V c 0 t := by
  rw [Dat.before_fetched _ 0 t (fetch0_0 t) d]
  unfold Dat.fetched Dat.blockOf iblk
  rw [A_eq]
  rfl

/-- At a later block the first output's buffer holds what the body left at the block before, the running minimum
    up to there: the block before did not write the buffer back (only the last block does), the window is never
    idle and never cut. -/
theorem before_min (c : Dev nD) (t : Fin cfg0.N) (ht : t.val ≠ 0) (d) :
    (dat V c).before 1 t d = runMin V c (t.val - 1) (Nat.lt_of_le_of_lt (Nat.sub_le _ _) t.isLt) := by
  have hN : t.val < 8 := lt_of_lt_of_eq t.isLt (show cfg0.N = 8 from N_0)
  rw [Dat.before_out_kept _ 1 rfl t ht
    (Bool.eq_false_iff.mpr fun h => by have := (flush0_1 _).mp h; dsimp only at this; omega)
    live1 (fun _ _ => rfl)]
  exact after_1 V c _

/-- Likewise the second output's buffer holds the running maximum up to the block before. -/
theorem before_max (c : Dev nD) (t : Fin cfg0.N) (ht : t.val ≠ 0) (d) :
    (dat V c).before 2 t d = runMax V c (t.val - 1) (Nat.lt_of_le_of_lt (Nat.sub_le _ _) t.isLt) := by
  have hN : t.val < 8 := lt_of_lt_of_eq t.isLt (show cfg0.N = 8 from N_0)
  rw [Dat.before_out_kept _ 2 rfl t ht
    (Bool.eq_false_iff.mpr fun h => by have := (flush0_2 _).mp h; dsimp only at this; omega)
    live2 (fun _ _ => rfl)]
  exact after_2 V c _

/-! ## The running extremes, one block at a time -/

theorem runMin_first (c : Dev nD) (t : Fin cfg0.N) (ht : t.val = 0) :
    runMin V c t.val t.isLt = k0_pay2 (iblk V c 0 t) := by
  obtain ⟨n, hn⟩ := t
  cases n with
  | zero => rfl
  | succ n => exact absurd ht (Nat.succ_ne_zero n)

theorem runMin_later (c : Dev nD) (t : Fin cfg0.N) (ht : t.val ≠ 0) :
    runMin V c t.val t.isLt
      = k0_pay4 (iblk V c 0 t) (runMin V c (t.val - 1) (Nat.lt_of_le_of_lt (Nat.sub_le _ _) t.isLt)) := by
  obtain ⟨n, hn⟩ := t
  cases n with
  | zero => exact absurd rfl ht
  | succ n => rfl

theorem runMax_first (c : Dev nD) (t : Fin cfg0.N) (ht : t.val = 0) :
    runMax V c t.val t.isLt = k0_pay3 (iblk V c 0 t) := by
  obtain ⟨n, hn⟩ := t
  cases n with
  | zero => rfl
  | succ n => exact absurd ht (Nat.succ_ne_zero n)

theorem runMax_later (c : Dev nD) (t : Fin cfg0.N) (ht : t.val ≠ 0) :
    runMax V c t.val t.isLt
      = k0_pay5 (iblk V c 0 t) (runMax V c (t.val - 1) (Nat.lt_of_le_of_lt (Nat.sub_le _ _) t.isLt)) := by
  obtain ⟨n, hn⟩ := t
  cases n with
  | zero => exact absurd rfl ht
  | succ n => rfl

/-! ## The obligation at a point -/

/-- What the body is called with at point `t`: the invariant, what the core owes, and each window's current buffer
    at what it then holds. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- What it returns: the same, each buffer at what the proof data say the body leaves. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

set_option maxHeartbeats 800000 in
/-- The body at any point. The input's buffer holds its block. At block 0 the first test holds and the second
    fails, the outputs' buffers hold anything, and the first run leaves the block's column extremes: the running
    extremes after block 0. At a later block the tests are the other way round, the outputs' buffers hold the
    running extremes up to the block before, and the second run leaves their minimum (maximum) with the block's
    column extremes: the running extremes after this block. The invariant and what the core owes pass through
    unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in]
  rw [show (dat V c).Φ t.succ = (dat V c).Φ t.castSucc from rfl,
    show (dat V c).owesAt () t.succ = (dat V c).owesAt () t.castSucc from rfl,
    after_0, after_1, after_2]
  by_cases h0 : t.val = 0
  · rw [runMin_first V c t h0, runMax_first V c t h0]
    iintro ⟨HΦ, Ho, ⟨%d0, H0⟩, ⟨%d1, H1⟩, ⟨%d2, H2⟩⟩
    iapply (run_first c Set.univ (grid0.coords t) _ _ _ _ _ _ ((cond1_iff t).mpr h0)
      (fun h => (cond2_iff t).mp h h0) (iblk V c 0 t) _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [runMin_later V c t h0, runMax_later V c t h0]
    simp only [before_min V c t h0, before_max V c t h0]
    iintro ⟨HΦ, Ho, ⟨%d0, H0⟩, ⟨%d1, H1⟩, ⟨%d2, H2⟩⟩
    iapply (run_later c Set.univ (grid0.coords t) _ _ _ _ _ _ (fun h => h0 ((cond1_iff t).mp h))
      ((cond2_iff t).mpr h0) (iblk V c 0 t) _ _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

end Region

/-- The library's body obligation for the first region, at every point. -/
theorem body_obligation (c : Dev nD) : BodyObligation (dat (F := F) V c) (defs₀ (F := F)) Variants.none () Set.univ := by
  intro t
  -- the three windows one by one; the two outputs share one table of idle points, nowhere true, so that
  -- rewriting it at this point's coordinates settles what both are left at: what the proof data say
  rw [bigSep_W0, bigSep_W0, Region.live1 (cfg0.grid.coords t)]
  exact Region.sound_body V c t

end Cert.KernelIdeal.MinMax

end
-- ==== Proof.MainData.lean ====
/-
  The second kernel region: the rows corrected, 128 rows at a point.

  At each of its 32 points the region loads a block of 128 full rows of the matrix and the two one-row column
  statistics (the minima and the maxima, which the first region left), computes the corrected rows and stores them
  into the matching block of the result. Nothing is carried from point to point.

  This module only NAMES the value the body stores, as one function of the three loaded blocks, and the region's
  proof data over it, for an arbitrary float family and arbitrary contents `V` of the buffers when the region is
  entered. The proofs about them are in the modules that import this one.
-/
import proofs.«106010_j79379585565572_1_alg».proof.Proof.Gen.KernelIdeal.Launch
import proofs.«106010_j79379585565572_1_alg».proof.Proof.Gen.KernelIdeal.Skeleton
import proofs.«106010_j79379585565572_1_alg».proof.Proof.Gen.KernelIdeal.Points
import Idealize.ShloMosaic.Lib.Pipeline.FrameBody
import Idealize.ShloMosaic.Lib.Pipeline.Frame

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores, from the block `x` of 128 rows and the one-row blocks `mn`, `mx` of the columns' minima
    and maxima: the normalised rows (`k1_pay3`), the first correction's pieces (`k1_pay5` … `k1_pay7`), the row
    after the first correction (`k1_pay8`) and the second's pieces (`k1_pay10`, `k1_pay11`), then the third
    correction mapped back through the range (`k1_pay2`) and the minima (`k1_pay1`). -/
def body (x : Vec F S128x4096 .f32) (mn mx : Vec F S1x4096 .f32) : FVec F S128x4096 .f32 :=
  k1_pay12 (k1_pay1 mn) (k1_pay2 mn mx)
    (k1_pay8 (k1_pay3 x mn mx) (k1_pay5 x mn mx) (k1_pay6 x mn mx) (k1_pay7 x mn mx))
    (k1_pay10 (k1_pay3 x mn mx) (k1_pay5 x mn mx) (k1_pay6 x mn mx) (k1_pay7 x mn mx))
    (k1_pay11 (k1_pay3 x mn mx) (k1_pay5 x mn mx) (k1_pay6 x mn mx) (k1_pay7 x mn mx))

/-- The region's proof data on core `c`: the arrays as the region finds them; after the body at point `t` each
    input's buffer at its block and the output's at `body` of the three input blocks; the scoped rest and the
    generator register untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => body (iblk V c 0 t) (iblk V c 1 t) (iblk V c 2 t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) :
    (dat V c).after 3 t = body (iblk V c 0 t) (iblk V c 1 t) (iblk V c 2 t) := by dsimp only [dat]

end Cert.KernelIdeal.Main

end
-- ==== Proof.MainRegion.lean ====
/-
  The second kernel region, as separation logic: at every grid point the body, handed the three input windows'
  current buffers at their blocks and the output's at anything, runs and leaves the inputs as they were and the
  output's buffer at `body` of the three blocks.

  The three inputs are read through whole-buffer loads and the one store covers the output's whole buffer, so what
  the store leaves is its payload; the two one-row inputs are fetched at the first point only and their block index
  never moves, so their buffers hold the same block at every point. The invariant (the other kernels' buffers and
  the generator register) and the core's debts pass through untouched.
-/
import proofs.«106010_j79379585565572_1_alg».proof.Proof.MainData
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.Main

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows hold their blocks at every point -/

/-- The block of 128 rows: fetched at every point. -/
theorem before_0 (c : Dev nD) (t : Fin cfg1.N) (d) : (dat V c).before 0 t d = iblk V c 0 t :=
  ((dat V c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- The row of minima: fetched once; its block never moves, so every point finds it there. -/
theorem before_1 (c : Dev nD) (t : Fin cfg1.N) (d) : (dat V c).before 1 t d = iblk V c 1 t :=
  ((dat V c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The row of maxima: likewise. -/
theorem before_2 (c : Dev nD) (t : Fin cfg1.N) (d) : (dat V c).before 2 t d = iblk V c 2 t :=
  ((dat V c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body's accesses and what its one store leaves -/

/-- The whole 128 × 4096 buffer as a rectangle. -/
abbrev rBig : Rect S128x4096 := Rect.unit (s := S128x4096) ![0, 0] S128x4096.size inb_S128x4096_S128x4096_0_0
/-- The whole 1 × 4096 buffer as a rectangle. -/
abbrev rRow : Rect S1x4096 := Rect.unit (s := S1x4096) ![0, 0] S1x4096.size inb_S1x4096_S1x4096_0_0

theorem hz : (![0, 0] : Fin 2 → Nat) = fun _ => 0 := funext fun a => by fin_cases a <;> rfl

/-- The one store covers the output's buffer. -/
theorem cover_out (p0 : Vec F S128x4096 .f32) (y : S128x4096.Idx) :
    ∃ pc ∈ ([⟨rBig, p0⟩] : List (View.Piece (Elt F) S128x4096 .f32)), y ∈ pc.1.set :=
  View.cover_of_tiled [⟨rBig, p0⟩] S128x4096.size (by rfl) y

/-! ## The body's triple -/

set_option maxHeartbeats 4000000 in
/-- On whole staging buffers, the inputs' holding `x0`, `x1`, `x2` and the output's anything, the body runs to the
    continuation with the inputs' as they were and the output's at `body x0 x1 x2`. -/
theorem sound_kernel (c : Dev nD) (E : Set ℕ) (i : grid1.Coords)
    (arg1 : Memref sig .tc .vmem S128x4096 .f32) (harg1 : arg1.IsWhole) (arg2 : Memref sig .tc .vmem S1x4096 .f32) (harg2 : arg2.IsWhole)
    (arg3 : Memref sig .tc .vmem S1x4096 .f32) (harg3 : arg3.IsWhole) (arg4 : Memref sig .tc .vmem S128x4096 .f32) (harg4 : arg4.IsWhole)
    (x0 : Vec F S128x4096 .f32) (x1 x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (body x0 x1 x2)) -∗ K ⟨⟩))
      ⊢ wp frame (wpE (defs₀ (F := F)) Variants.none c none) E (cc1__main_kernel i arg1 harg1 arg2 harg2 arg3 harg3 arg4 harg4) K := by
  simp only [cc1__main_kernel_eq_skeleton]; unfold cc1__main_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_out _)]
  sl_unfold_words
  rw [View.canon_unit_zero hz]
  simp only [View.readAt_eq_ld, View.ld_unit_zero (S := S128x4096) hz, View.ld_unit_zero (S := S1x4096) hz]
  rfl

/-! ## The body obligation, at a generic point -/

/-- What the body is called with at point `t`: the invariant, the core's debts, every window's current buffer. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- What it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t))

/-- The body at any point: the inputs' buffers hold their blocks, so the triple applies; the invariant and the
    core's debts pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Main

end
-- ==== Proof.WholeRun.lean ====
/-
  The whole program's run: a reshape of the input, the first kernel region (the columns' extremes), the second
  kernel region (the rows corrected), a reshape of the result — and what every buffer holds when it ends.

  The buffers' contents between two items of the program are a fold from the launch memory: a host stretch applies
  its operations; a kernel region leaves each of its arrays at what its write-backs fold to (the region's proof
  data, stated at the contents the region is entered with) and every other buffer as it was. Each region is a
  segment entered from "every unscoped buffer at the contents before it, the generator register at some state,
  nothing owed" and left at the same with the contents after it; the two reshapes are host segments. The launch
  theorem for a program of several regions then gives: every weakly fair execution terminates, and at the end every
  unscoped buffer holds the last contents of the fold. From that: the argument is unchanged (no item writes it), and
  the result buffer is the reshape of what the second region leaves in its output array.
-/
import proofs.«106010_j79379585565572_1_alg».proof.Proof.MinMaxRegion
import proofs.«106010_j79379585565572_1_alg».proof.Proof.MainRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the input's reshape: what the first region is entered with. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first region: its arrays at what its write-backs leave, every other buffer as entered. -/
def W2 (c : Dev nD) : Valuation τ sig (Elt F) :=
  Pipeline.withArrays spec0 c (W1 m ρ c) fun w => (MinMax.dat (V1 m ρ) c).arrAt w cfg0.N
theorem W2_arr (c : Dev nD) (w : Fin cfg0.W) :
    W2 m ρ c (Proc.devRef .tc (Pipeline.arrRef spec0 w)) = (MinMax.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (MinMax.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second region, which is entered with what the first leaves. -/
def W3 (c : Dev nD) : Valuation τ sig (Elt F) :=
  Pipeline.withArrays spec1 c (W2 m ρ c) fun w => (Main.dat (V2 m ρ) c).arrAt w cfg1.N
theorem W3_arr (c : Dev nD) (w : Fin cfg1.W) :
    W3 m ρ c (Proc.devRef .tc (Pipeline.arrRef spec1 w)) = (Main.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Main.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the result's reshape: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => MinMax.dat (V1 m ρ) c
  | ⟨1, _⟩ => fun c => Main.dat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The first region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (MinMax.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Main.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- Every weakly fair execution of the program terminates, nothing faulting, and at the end every unscoped buffer
    of every core holds the last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      (show (iprop(StableHlo.held (c : Thread nD τ) (Pipeline.ucRefs τ sig) (W4 m ρ c) ∗ R c) : sProp 𝕄)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Whole

end
-- ==== Proof.WholeRead.lean ====
/-
  What the last contents of the program's fold are, buffer by buffer: the argument is what was launched (no item
  writes it); the result is the reshape of what the second region leaves in its output array; the second region is
  entered with the reshaped argument as its matrix and with what the first region leaves in its two one-row
  arrays as its column statistics. Hence the frame: every execution ends with the argument unchanged.
-/
import proofs.«106010_j79379585565572_1_alg».proof.Proof.WholeRun
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- A reshape writes its result buffer only. -/
theorem hostOps0_keeps (c : Dev nD) (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
theorem hostOps2_keeps (c : Dev nD) (W : Valuation τ sig (Elt F)) (b : Ref sig .tc) (hb : b ≠ main_v3) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

/-- The argument reaches the end as launched. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := hostOps2_keeps c _ main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := hostOps0_keeps c _ main_arg0 (by decide)
    _ = m ((c : Thread nD τ).loc main_arg0) := rfl

/-- THE FRAME: every weakly fair execution terminates, nothing faulting, with the argument as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c _ (mem_uc main_arg0 (by decide))).trans (W4_main_arg0 m ρ c)) (run_all m ρ)

/-- The first region's matrix is the reshaped argument. -/
theorem V1_main_v0 (c : Dev nD) :
    V1 m ρ c main_v0 = shapeCast _ (m ((c : Thread nD τ).loc main_arg0)) shapeCasts_S1x4096x4096_S4096x4096 := by
  show StableHlo.after hostOps0 (W0 m ρ c) (Proc.devRef .tc main_v0) = _
  after_results
  rfl

/-- The second region's matrix is the first region's, which the first region leaves as it found it. -/
theorem V2_main_v0 (c : Dev nD) : V2 m ρ c main_v0 = V1 m ρ c main_v0 :=
  (W2_arr m ρ c 0).trans (((MinMax.dat (V1 m ρ) c).arrAt_in 0 rfl _).trans (MinMax.A_eq (V1 m ρ) c 0))

/-- The second region's row of minima is what the first region leaves in its first output array. -/
theorem V2_main_v1_0 (c : Dev nD) : V2 m ρ c main_v1_0 = (MinMax.dat (V1 m ρ) c).arrAt 1 cfg0.N := W2_arr m ρ c 1
/-- Its row of maxima is what the first region leaves in its second output array. -/
theorem V2_main_v1_1 (c : Dev nD) : V2 m ρ c main_v1_1 = (MinMax.dat (V1 m ρ) c).arrAt 2 cfg0.N := W2_arr m ρ c 2

/-- The result buffer at the end is the reshape of what the second region leaves in its output array. -/
theorem W4_main_v3 (c : Dev nD) :
    W4 m ρ c (Proc.devRef .tc main_v3)
      = shapeCast _ ((Main.dat (V2 m ρ) c).arrAt 3 cfg1.N) shapeCasts_S4096x4096_S1x4096x4096 := by
  show StableHlo.after hostOps2 (W3 m ρ c) (Proc.devRef .tc main_v3) = _
  after_results
  rw [show (W3 m ρ c (Proc.devRef .tc main_v2)) = (Main.dat (V2 m ρ) c).arrAt 3 cfg1.N from W3_arr m ρ c 3]
  rfl

end Cert.KernelIdeal.Whole

end
-- ==== Proof.Spec.lean ====
/-
  What both programs compute, as mathematics on the extended reals.

  The input is a 4096 × 4096 matrix `x`. Each column `j` is rescaled by its minimum `mn j` and its range
  `rg j` (the maximum minus the minimum, a zero range replaced by one): `a r j = (x r j - mn j) / rg j`.
  Each ROW `a r` is then corrected three times. One correction of a row `a` takes its sum `S = ∑ₖ aₖ` and its sum of
  squares `Q = ∑ₖ aₖ²`, forms at every entry `j`
      `d j = 4096 · aⱼ · aⱼ - 2 · aⱼ · S + Q`            (which is `∑ₖ (aⱼ - aₖ)²`),
      `e j = √(max (d j) 0 · c)`                        (`c` the single-precision word nearest to 1/4095),
  and replaces `aⱼ` by `aⱼ · (1 - t · e j · sign (aⱼ - S / 4096))` (`t` the word nearest to 1/10); after the first
  correction the word nearest to 0.005 is added. Finally the row is mapped back: `out r j = a r j · rg j + mn j`.
  A row's result depends on that row of `x` and on the two column statistics only, which is why a program may
  work through the rows in blocks.

  The float literals stay the words the programs print (read at the extended reals by `Ideal.ofBits`): both
  programs print the same words, so none is ever evaluated except the zero, the one and the two infinities.
-/
import Idealize.ShloMosaic.PureOps.Ideal
import Idealize.ShloMosaic.PureOps.Ideal.Laws
import Idealize.ShloMosaic.Lib.ValueIdx

noncomputable section

namespace Cert.Spec

open Idealize.ShloMosaic

/-- A single-precision word read as an extended real. -/
abbrev lit (b : BitVec 32) : EReal := Ideal.ofBits .f32 b

/-- The least entry of column `j`. -/
def colMin (x : Fin 4096 → Fin 4096 → EReal) (j : Fin 4096) : EReal := ⨅ r, x r j

/-- The greatest entry of column `j`. -/
def colMax (x : Fin 4096 → Fin 4096 → EReal) (j : Fin 4096) : EReal := ⨆ r, x r j

/-- A column's range from its extremes: the difference, or one where the difference is zero. -/
def rangeOf (mn mx : EReal) : EReal :=
  Scalar.select (Ideal.cmp .oeq (mx - mn) (lit 0x00000000#32)) (lit 0x3F800000#32) (mx - mn)

/-- One correction of a row, at entry `j`. -/
def correct (a : Fin 4096 → EReal) (j : Fin 4096) : EReal :=
  a j * (lit 0x3F800000#32 - lit 0x3DCCCCCD#32
      * Ideal.sqrt (max (lit 0x45800000#32 * a j * a j - lit 0x40000000#32 * a j * (∑ k, a k) + ∑ k, a k * a k)
          (lit 0x00000000#32) * lit 0x39800801#32)
      * Ideal.sign (a j - Ideal.div (∑ k, a k) (lit 0x45800000#32)))

/-- A row of the result from the row `xr` of the input, the columns' minima `mn` and ranges `rg`. -/
def rowOut (mn rg xr : Fin 4096 → EReal) (j : Fin 4096) : EReal :=
  correct (correct (fun k => correct (fun l => Ideal.div (xr l - mn l) (rg l)) k + lit 0x3BA3D70A#32)) j * rg j + mn j

/-- The whole result. -/
def out (x : Fin 4096 → Fin 4096 → EReal) (r j : Fin 4096) : EReal :=
  rowOut (colMin x) (fun k => rangeOf (colMin x k) (colMax x k)) (x r) j

end Cert.Spec

end
-- ==== Proof.MinMaxValue.lean ====
/-
  What the first kernel region leaves in its arrays, as mathematics on the extended reals.

  The region walks the 4096 × 4096 matrix `x` in eight blocks of 512 consecutive rows. From block 0 it keeps, for
  every column `q`, the least and the greatest of the block's 512 entries in that column; from every later block it
  keeps the lesser of what it had and the block's least entry (the greater of what it had and the block's greatest).
  So after block `n` the running minimum at column `q` is the infimum of `x r q` over the rows `r < 512 · (n + 1)`,
  and the running maximum the supremum over the same rows: an infimum is determined by which numbers lie below
  it, and a number lies below the lesser of two infima exactly when it lies below every entry either ranges over.
  After the eighth block the rows are all 4096, and the one write-back of each output, after that block, covers the
  whole one-row array. Hence the first output array ends holding every column's minimum, the second every
  column's maximum, and the input array, which is only read, is as the region found it.
-/
import proofs.«106010_j79379585565572_1_alg».proof.Proof.MinMaxData
import proofs.«106010_j79379585565572_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MinMax

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The matrix the region reads, by coordinates. -/
abbrev mat (c : Dev nD) (r k : Fin 4096) : EReal := (V c main_v0 : S4096x4096.Idx → EReal) (ix2 r k)

/-- Block `t` of the input starts at row `512 · t` and at column 0. -/
theorem index_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(p, k)` of block `t` is entry `(512 · t + p, k)` of the matrix. -/
theorem iblk_apply (c : Dev nD) (t : Fin cfg0.N) (p : Fin 512) (k : Fin 4096) (r : Fin 4096)
    (hr : r.val = 512 * t.val + p.val) :
    (iblk V c 0 t : S512x4096.Idx → EReal) (ix2 p k) = mat V c r k := by
  unfold iblk
  rw [View.read_apply]
  show V c main_v0 (((cfg0.win 0).blk t).view.emb (ix2 p k)) = V c main_v0 (ix2 r k)
  congr 1
  funext a
  apply Fin.ext
  match a with
  | ⟨0, _⟩ =>
    show win0_0.index t 0 * 512 + 1 * p.val = r.val
    rw [(index_in t).1, hr]; omega
  | ⟨1, _⟩ =>
    show win0_0.index t 1 * 4096 + 1 * k.val = k.val
    rw [(index_in t).2]; omega

/-- The single-precision word of +∞ reads as the top of the extended reals, -/
theorem posInf_word : Ideal.ofBits .f32 0x7F800000#32 = (⊤ : EReal) := by simp [Ideal.ofBits, Ideal.ieee]
/-- and the word of −∞ as the bottom. -/
theorem negInf_word : Ideal.ofBits .f32 0xFF800000#32 = (⊥ : EReal) := by simp [Ideal.ofBits, Ideal.ieee]

/-- The repeated minimum from the top, over all of a finite range, is the infimum over the range: a number lies below
    either exactly when it lies below every term. -/
theorem fold_min_top {n : ℕ} (f : Fin n → EReal) : (Finset.univ : Finset (Fin n)).fold min ⊤ f = ⨅ k, f k :=
  le_antisymm (le_iInf fun k => (Finset.fold_min_le _).2 (Or.inr ⟨k, Finset.mem_univ k, le_rfl⟩))
    ((Finset.le_fold_min _).2 ⟨le_top, fun k _ => iInf_le f k⟩)

/-- The repeated maximum from the bottom, over all of a finite range, is the supremum over the range. -/
theorem fold_max_bot {n : ℕ} (f : Fin n → EReal) : (Finset.univ : Finset (Fin n)).fold max ⊥ f = ⨆ k, f k :=
  le_antisymm ((Finset.fold_max_le _).2 ⟨bot_le, fun k _ => le_iSup f k⟩)
    (iSup_le fun k => (Finset.le_fold_max _).2 (Or.inr ⟨k, Finset.mem_univ k, le_rfl⟩))

/-- The one-row index `(0, q)` without its unit coordinate is the index `q` of a 4096-vector. -/
theorem tail_ix2 (q : Fin 4096) : (fun a : Fin 1 => (ix2 (0 : Fin 1) q : S1x4096.Idx) a.succ) = (ix1 q : S4096.Idx) := by
  funext a; match a with | ⟨0, _⟩ => rfl

/-- A 4096-vector index `q`, with the row `p` put back on the reduced axis, is the block index `(p, q)`. -/
theorem lift_ix1 (q : Fin 4096) (p : Fin 512) :
    reduces_S512x4096_S4096.lift (ix1 q : S4096.Idx) p = (ix2 p q : S512x4096.Idx) := by
  funext a; apply Fin.ext; match a with | ⟨0, _⟩ => rfl | ⟨1, _⟩ => rfl

/-- The minimum-reduction of a block along its rows, from +∞: at column `q` the infimum of the block's 512 entries
    in that column. -/
theorem reduceMin_apply (v : FVec Ideal S512x4096 .f32) (hφ : FKind.Formats .f32)
    (hacc : (0x7F800000#32 : BitVec 32) = 0x7F800000#32) (q : Fin 4096) :
    multiReduction (F := Ideal) .minimumf [0] S4096 v 0x7F800000#32 reduces_S512x4096_S4096 hφ hacc (ix1 q)
      = ⨅ p : Fin 512, v (ix2 p q) := by
  refine (multiReduction_minimumf_eq_fold v _ reduces_S512x4096_S4096 hφ hacc (ix1 q)).trans ?_
  refine (reduces_S512x4096_S4096.fold_filter_drop_single _ _ v (ix1 q)).trans ?_
  show (Finset.univ : Finset (Fin 512)).fold min (Ideal.ofBits .f32 0x7F800000#32)
    (fun p => v (reduces_S512x4096_S4096.lift (ix1 q) p)) = _
  have e : (fun p : Fin 512 => v (reduces_S512x4096_S4096.lift (ix1 q) p)) = fun p => v (ix2 p q) :=
    funext fun p => congrArg v (lift_ix1 q p)
  rw [posInf_word]
  exact (congrArg (fun f : Fin 512 → EReal => (Finset.univ : Finset (Fin 512)).fold min ⊤ f) e).trans (fold_min_top _)

/-- The maximum-reduction of a block along its rows, from −∞: at column `q` the supremum of the block's 512 entries
    in that column. -/
theorem reduceMax_apply (v : FVec Ideal S512x4096 .f32) (hφ : FKind.Formats .f32)
    (hacc : (0xFF800000#32 : BitVec 32) = 0xFF800000#32) (q : Fin 4096) :
    multiReduction (F := Ideal) .maximumf [0] S4096 v 0xFF800000#32 reduces_S512x4096_S4096 hφ hacc (ix1 q)
      = ⨆ p : Fin 512, v (ix2 p q) := by
  refine (multiReduction_maximumf_eq_fold v _ reduces_S512x4096_S4096 hφ hacc (ix1 q)).trans ?_
  refine (reduces_S512x4096_S4096.fold_filter_drop_single _ _ v (ix1 q)).trans ?_
  show (Finset.univ : Finset (Fin 512)).fold max (Ideal.ofBits .f32 0xFF800000#32)
    (fun p => v (reduces_S512x4096_S4096.lift (ix1 q) p)) = _
  have e : (fun p : Fin 512 => v (reduces_S512x4096_S4096.lift (ix1 q) p)) = fun p => v (ix2 p q) :=
    funext fun p => congrArg v (lift_ix1 q p)
  rw [negInf_word]
  exact (congrArg (fun f : Fin 512 → EReal => (Finset.univ : Finset (Fin 512)).fold max ⊥ f) e).trans (fold_max_bot _)

/-- A block's column minima, as one row: at column `q` the infimum of the block's 512 entries in that column. -/
theorem pay2_apply (v : Vec Ideal S512x4096 .f32) (q : Fin 4096) :
    (k0_pay2 v : S1x4096.Idx → EReal) (ix2 (0 : Fin 1) q) = ⨅ p : Fin 512, (v : S512x4096.Idx → EReal) (ix2 p q) := by
  unfold k0_pay2 k0_pay1
  rw [shapeCast_self, shapeCast_addUnit_apply, tail_ix2]
  exact reduceMin_apply v _ _ q

/-- A block's column maxima, as one row: at column `q` the supremum of the block's 512 entries in that column. -/
theorem pay3_apply (v : Vec Ideal S512x4096 .f32) (q : Fin 4096) :
    (k0_pay3 v : S1x4096.Idx → EReal) (ix2 (0 : Fin 1) q) = ⨆ p : Fin 512, (v : S512x4096.Idx → EReal) (ix2 p q) := by
  unfold k0_pay3 k0_pay1
  rw [shapeCast_self, shapeCast_addUnit_apply, tail_ix2]
  exact reduceMax_apply v _ _ q

/-- A later block's step for the minimum: the lesser of what was kept and the block's column minimum. -/
theorem pay4_apply (v : Vec Ideal S512x4096 .f32) (w : Vec Ideal S1x4096 .f32) (q : Fin 4096) :
    (k0_pay4 v w : S1x4096.Idx → EReal) (ix2 (0 : Fin 1) q)
      = min ((w : S1x4096.Idx → EReal) (ix2 (0 : Fin 1) q)) (⨅ p : Fin 512, (v : S512x4096.Idx → EReal) (ix2 p q)) := by
  unfold k0_pay4
  rw [shapeCast_self, minimumf_apply, pay2_apply]

/-- A later block's step for the maximum: the greater of what was kept and the block's column maximum. -/
theorem pay5_apply (v : Vec Ideal S512x4096 .f32) (w : Vec Ideal S1x4096 .f32) (q : Fin 4096) :
    (k0_pay5 v w : S1x4096.Idx → EReal) (ix2 (0 : Fin 1) q)
      = max ((w : S1x4096.Idx → EReal) (ix2 (0 : Fin 1) q)) (⨆ p : Fin 512, (v : S512x4096.Idx → EReal) (ix2 p q)) := by
  unfold k0_pay5
  rw [shapeCast_self, maximumf_apply, pay3_apply]

/-- No row lies below row 0: the infimum over no rows is the top. -/
theorem rows_inf_zero (x : Fin 4096 → EReal) : (⨅ r : Fin 4096, ⨅ _ : r.val < 512 * 0, x r) = ⊤ :=
  le_antisymm le_top (le_iInf fun r => le_iInf fun hr => absurd hr (by omega))

/-- The rows below `512 · (n + 1)` are the rows below `512 · n` and the 512 rows of block `n`: so the infimum over
    the former is the lesser of the infima over the latter two. -/
theorem rows_inf_step (x : Fin 4096 → EReal) (b : Fin 512 → EReal) (n : ℕ) (hn : 512 * (n + 1) ≤ 4096)
    (hb : ∀ (p : Fin 512) (r : Fin 4096), r.val = 512 * n + p.val → b p = x r) :
    (⨅ r : Fin 4096, ⨅ _ : r.val < 512 * (n + 1), x r) = min (⨅ r : Fin 4096, ⨅ _ : r.val < 512 * n, x r) (⨅ p, b p) := by
  apply le_antisymm
  · refine le_min (le_iInf fun r => le_iInf fun hr => iInf₂_le r (by omega)) (le_iInf fun p => ?_)
    have hp := p.isLt
    have hr : (⟨512 * n + p.val, by omega⟩ : Fin 4096).val < 512 * (n + 1) := by dsimp only; omega
    exact (iInf₂_le (f := fun (r : Fin 4096) (_ : r.val < 512 * (n + 1)) => x r) ⟨512 * n + p.val, by omega⟩ hr).trans
      (le_of_eq (hb p _ rfl).symm)
  · refine le_iInf fun r => le_iInf fun hr => ?_
    by_cases hlt : r.val < 512 * n
    · exact (min_le_left _ _).trans (iInf₂_le r hlt)
    · exact (min_le_right _ _).trans ((iInf_le b ⟨r.val - 512 * n, by omega⟩).trans
        (le_of_eq (hb _ r (by dsimp only; omega))))

/-- The supremum over no rows is the bottom. -/
theorem rows_sup_zero (x : Fin 4096 → EReal) : (⨆ r : Fin 4096, ⨆ _ : r.val < 512 * 0, x r) = ⊥ :=
  le_antisymm (iSup_le fun r => iSup_le fun hr => absurd hr (by omega)) bot_le

/-- The supremum over the rows below `512 · (n + 1)` is the greater of the supremum over the rows below `512 · n` and
    the supremum over the 512 rows of block `n`. -/
theorem rows_sup_step (x : Fin 4096 → EReal) (b : Fin 512 → EReal) (n : ℕ) (hn : 512 * (n + 1) ≤ 4096)
    (hb : ∀ (p : Fin 512) (r : Fin 4096), r.val = 512 * n + p.val → b p = x r) :
    (⨆ r : Fin 4096, ⨆ _ : r.val < 512 * (n + 1), x r) = max (⨆ r : Fin 4096, ⨆ _ : r.val < 512 * n, x r) (⨆ p, b p) := by
  apply le_antisymm
  · refine iSup_le fun r => iSup_le fun hr => ?_
    by_cases hlt : r.val < 512 * n
    · exact (le_iSup₂ (f := fun (r : Fin 4096) (_ : r.val < 512 * n) => x r) r hlt).trans (le_max_left _ _)
    · exact ((le_of_eq (hb ⟨r.val - 512 * n, by omega⟩ r (by dsimp only; omega)).symm).trans
        (le_iSup b ⟨r.val - 512 * n, by omega⟩)).trans (le_max_right _ _)
  · refine max_le (iSup_le fun r => iSup_le fun hr => le_iSup₂ (f := fun (r : Fin 4096) (_ : r.val < 512 * (n + 1)) => x r) r (by omega))
      (iSup_le fun p => ?_)
    have hp := p.isLt
    have hr : (⟨512 * n + p.val, by omega⟩ : Fin 4096).val < 512 * (n + 1) := by dsimp only; omega
    exact (le_of_eq (hb p _ rfl)).trans (le_iSup₂ (f := fun (r : Fin 4096) (_ : r.val < 512 * (n + 1)) => x r) _ hr)

/-- Once every row is below the bound, the bounded infimum is the infimum over all rows, -/
theorem rows_inf_all (x : Fin 4096 → EReal) : (⨅ r : Fin 4096, ⨅ _ : r.val < 512 * (7 + 1), x r) = ⨅ r, x r :=
  iInf_congr fun r => iInf_pos (by have := r.isLt; omega)

/-- and the bounded supremum the supremum over all rows. -/
theorem rows_sup_all (x : Fin 4096 → EReal) : (⨆ r : Fin 4096, ⨆ _ : r.val < 512 * (7 + 1), x r) = ⨆ r, x r :=
  iSup_congr fun r => iSup_pos (by have := r.isLt; omega)

/-- After block `n` the running minimum at column `q` is the infimum of the column over the rows below
    `512 · (n + 1)`: block 0 gives the infimum over its own rows, and each later block adds its rows. -/
theorem runMin_apply (c : Dev nD) (q : Fin 4096) : ∀ (n : ℕ) (h : n < cfg0.N),
    (runMin V c n h : S1x4096.Idx → EReal) (ix2 (0 : Fin 1) q)
      = ⨅ r : Fin 4096, ⨅ _ : r.val < 512 * (n + 1), mat V c r q
  | 0, h => by
    have e := rows_inf_step (fun r => mat V c r q)
      (fun p => (iblk V c 0 ⟨0, h⟩ : S512x4096.Idx → EReal) (ix2 p q)) 0 (by omega)
      (fun p r hr => iblk_apply V c ⟨0, h⟩ p q r hr)
    rw [rows_inf_zero, min_eq_right le_top] at e
    rw [runMin, pay2_apply]
    exact e.symm
  | n + 1, h => by
    have hN : cfg0.N = 8 := N_0
    have e := rows_inf_step (fun r => mat V c r q)
      (fun p => (iblk V c 0 ⟨n + 1, h⟩ : S512x4096.Idx → EReal) (ix2 p q)) (n + 1) (by omega)
      (fun p r hr => iblk_apply V c ⟨n + 1, h⟩ p q r hr)
    rw [runMin, pay4_apply, runMin_apply c q n]
    exact e.symm

/-- After block `n` the running maximum at column `q` is the supremum of the column over the same rows. -/
theorem runMax_apply (c : Dev nD) (q : Fin 4096) : ∀ (n : ℕ) (h : n < cfg0.N),
    (runMax V c n h : S1x4096.Idx → EReal) (ix2 (0 : Fin 1) q)
      = ⨆ r : Fin 4096, ⨆ _ : r.val < 512 * (n + 1), mat V c r q
  | 0, h => by
    have e := rows_sup_step (fun r => mat V c r q)
      (fun p => (iblk V c 0 ⟨0, h⟩ : S512x4096.Idx → EReal) (ix2 p q)) 0 (by omega)
      (fun p r hr => iblk_apply V c ⟨0, h⟩ p q r hr)
    rw [rows_sup_zero, max_eq_right bot_le] at e
    rw [runMax, pay3_apply]
    exact e.symm
  | n + 1, h => by
    have hN : cfg0.N = 8 := N_0
    have e := rows_sup_step (fun r => mat V c r q)
      (fun p => (iblk V c 0 ⟨n + 1, h⟩ : S512x4096.Idx → EReal) (ix2 p q)) (n + 1) (by omega)
      (fun p r hr => iblk_apply V c ⟨n + 1, h⟩ p q r hr)
    rw [runMax, pay5_apply, runMax_apply c q n]
    exact e.symm

/-- The last block's point is in the grid. -/
theorem last_lt : 7 < cfg0.N := by rw [show cfg0.N = 8 from N_0]; decide

/-- The two outputs' one block sits at row 0 and column 0, at every point. -/
theorem index_out : ∀ t : Fin cfg0.N, (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, (win0_1.index t (0 : Fin 2) = 0 ∧ win0_1.index t (1 : Fin 2) = 0)
    ∧ (win0_2.index t (0 : Fin 2) = 0 ∧ win0_2.index t (1 : Fin 2) = 0))

/-- So an entry of the first output's block is the same entry of its one-row array: the block is the array. -/
theorem emb_min (t : Fin cfg0.N) (y : S1x4096.Idx) : (((cfg0.win 1).blk t).view.emb y : S1x4096.Idx) = y := by
  funext a
  apply Fin.ext
  match a with
  | ⟨0, _⟩ => show win0_1.index t 0 * 1 + 1 * (y 0).val = (y 0).val; rw [(index_out t).1.1]; omega
  | ⟨1, _⟩ => show win0_1.index t 1 * 4096 + 1 * (y 1).val = (y 1).val; rw [(index_out t).1.2]; omega

/-- Likewise for the second output. -/
theorem emb_max (t : Fin cfg0.N) (y : S1x4096.Idx) : (((cfg0.win 2).blk t).view.emb y : S1x4096.Idx) = y := by
  funext a
  apply Fin.ext
  match a with
  | ⟨0, _⟩ => show win0_2.index t 0 * 1 + 1 * (y 0).val = (y 0).val; rw [(index_out t).2.1]; omega
  | ⟨1, _⟩ => show win0_2.index t 1 * 4096 + 1 * (y 1).val = (y 1).val; rw [(index_out t).2.2]; omega

/-- The first output array ends holding whatever row its staging buffer holds after the last block: the one
    write-back, after block 7, writes that row, and its block covers the whole array. -/
theorem arr_of_last_min (c : Dev nD) (R : Vec Ideal S1x4096 .f32) (hR : (dat V c).after 1 ⟨7, last_lt⟩ = R) :
    (dat V c).arrAt 1 cfg0.N = R := by
  refine (dat V c).arrAt_eq_of_cover 1 R (fun t hf => ?_) (fun i => ?_)
  · have hlt : t.val < 8 := lt_of_lt_of_eq t.isLt N_0
    have h7 : t.val = 7 := by have := (flush0_1 t).mp hf; omega
    obtain rfl : t = ⟨7, last_lt⟩ := Fin.ext h7
    funext y
    rw [View.read_apply, emb_min, cast_eq]
    exact congrFun hR _
  · refine ⟨⟨7, last_lt⟩, (flush0_1 _).mpr rfl, ?_⟩
    have h := ((cfg0.win 1).blk ⟨7, last_lt⟩).view.emb_mem_set i
    rwa [emb_min] at h

/-- Likewise the second output array and its staging buffer. -/
theorem arr_of_last_max (c : Dev nD) (R : Vec Ideal S1x4096 .f32) (hR : (dat V c).after 2 ⟨7, last_lt⟩ = R) :
    (dat V c).arrAt 2 cfg0.N = R := by
  refine (dat V c).arrAt_eq_of_cover 2 R (fun t hf => ?_) (fun i => ?_)
  · have hlt : t.val < 8 := lt_of_lt_of_eq t.isLt N_0
    have h7 : t.val = 7 := by have := (flush0_2 t).mp hf; omega
    obtain rfl : t = ⟨7, last_lt⟩ := Fin.ext h7
    funext y
    rw [View.read_apply, emb_max, cast_eq]
    exact congrFun hR _
  · refine ⟨⟨7, last_lt⟩, (flush0_2 _).mpr rfl, ?_⟩
    have h := ((cfg0.win 2).blk ⟨7, last_lt⟩).view.emb_mem_set i
    rwa [emb_max] at h

/-- After the region the first output array holds every column's minimum: the running minimum after the last block
    ranges over all 4096 rows. -/
theorem arr_min (c : Dev nD) (q : Fin 4096) :
    ((dat V c).arrAt 1 cfg0.N : S1x4096.Idx → EReal) (ix2 (0 : Fin 1) q) = Cert.Spec.colMin (mat V c) q :=
  (congrFun (arr_of_last_min V c _ (after_1 V c ⟨7, last_lt⟩)) (ix2 (0 : Fin 1) q)).trans
    ((runMin_apply V c q 7 last_lt).trans (rows_inf_all fun r => mat V c r q))

/-- After the region the second output array holds every column's maximum. -/
theorem arr_max (c : Dev nD) (q : Fin 4096) :
    ((dat V c).arrAt 2 cfg0.N : S1x4096.Idx → EReal) (ix2 (0 : Fin 1) q) = Cert.Spec.colMax (mat V c) q :=
  (congrFun (arr_of_last_max V c _ (after_2 V c ⟨7, last_lt⟩)) (ix2 (0 : Fin 1) q)).trans
    ((runMax_apply V c q 7 last_lt).trans (rows_sup_all fun r => mat V c r q))

/-- The region leaves its input array as it found it: an array that is only read is never written back. -/
theorem arr_in (c : Dev nD) : (dat V c).arrAt 0 cfg0.N = V c main_v0 :=
  (dat V c).arrAt_in 0 rfl _

end Cert.KernelIdeal.MinMax

end
-- ==== Proof.MainAlgebra.lean ====
/-
  The second region's stored value, entry by entry, is the specification's row function.

  The body takes a block of 128 full rows `x` and the two one-row blocks of column minima `mn` and maxima `mx`.
  Every operation it performs is either pointwise, or copies one row over all 128 (the minima and the ranges), or is
  a ROW statistic: the sum of a row over its 4096 columns, kept as a column of 128 entries and copied back along
  the row. So entry `(p, q)` of anything the body computes depends only on row `p` of the block, and reading the
  operations off at `(p, q)` turns each of them into the scalar operation of the specification:

  * the range of column `q` is `rangeOf (mn q) (mx q)` and the normalised entry is `(x p q - mn q) / range q`;
  * for ANY block `a`, the operations of one correction, read at `(p, q)`, are the specification's `correct`
    applied to row `p` of `a`, at `q`: the row sum is `∑ₖ a p k`, the sum of squares `∑ₖ a p k · a p k`, the
    three-term expression under the root is built in the same order as the specification writes it, and the select
    on "the magnitude is positive" between "one with the sign of `d`" and `d` itself is the sign function of `d`;
  * the body is three such corrections, the word nearest 0.005 added after the first, then the product with the
    range and the sum with the minimum.

  The float literals stay words: each is the same word on both sides. Only the sign function's three words (zero,
  one, minus one) are read, by the library's lemma for that select.
-/
import proofs.«106010_j79379585565572_1_alg».proof.Proof.MainData
import proofs.«106010_j79379585565572_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Main

open Cert.KernelIdeal Cert.KernelIdeal.Gen Idealize.ShloMosaic Idealize.ShloMosaic.ValueIdx

/-! ## A statistic kept as a column, and copied back along the rows -/

/-- A vector of `a` entries viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The sums of the rows of a block -/

/-- The sums of the rows of a block, kept as a column. -/
def rowSums (a : FVec Ideal S128x4096 .f32) : FVec Ideal S128x1 .f32 :=
  shapeCast S128x1
    (multiReduction (F := Ideal) .add [1] S128 a 0x00000000#32 reduces_S128x4096_S128 (.inl rfl) rfl)
    shapeCasts_S128_S128x1

/-- The lane sum of a block at row `p` is the sum of that row's 4096 entries. -/
theorem laneSum_apply (a : FVec Ideal S128x4096 .f32) (hφ : FKind.Formats .f32)
    (hacc : (0x00000000#32 : BitVec 32) = FKind.add.neutral .f32 hφ) (p : Fin 128) :
    multiReduction (F := Ideal) .add [1] S128 a 0x00000000#32 reduces_S128x4096_S128 hφ hacc (ix1 p)
      = ∑ k : Fin 4096, a (ix2 p k) := by
  refine (Ideal.multiReduction_add_single a 0x00000000#32 reduces_S128x4096_S128 hφ hacc (ix1 p)).trans ?_
  refine Finset.sum_congr rfl fun k _ => congrArg a ?_
  funext d
  match d with
  | ⟨0, _⟩ => rfl
  | ⟨1, _⟩ => rfl

/-- The column of row sums at `(p, u)` is the sum of row `p`. -/
theorem rowSums_apply (a : FVec Ideal S128x4096 .f32) (p : Fin 128) (u : Fin 1) :
    rowSums a (ix2 p u) = ∑ k : Fin 4096, a (ix2 p k) := by
  unfold rowSums
  rw [shapeCast_a_a1_apply]
  exact laneSum_apply a _ _ p

/-! ## One correction of an arbitrary block, as the body's operations -/

/-- The root of a correction: at each entry, the three-term expression of the entry, its row's sum and its row's sum
    of squares, cut off below at zero, scaled, under the square root. -/
def rootPiece (a : FVec Ideal S128x4096 .f32) : FVec Ideal S128x4096 .f32 :=
  sqrt (mulf (maximumf
      (addf
        (subf (mulf (mulf (broadcast S128x4096 (Scalar.ofBits (F := Ideal) .f32 0x45800000#32)) a) a)
          (mulf (mulf (broadcast S128x4096 (Scalar.ofBits (F := Ideal) .f32 0x40000000#32)) a)
            (broadcastTo S128x4096 (rowSums a) broadcasts_S128x1_S128x4096)))
        (broadcastTo S128x4096 (rowSums (mulf a a)) broadcasts_S128x1_S128x4096))
      (broadcast S128x4096 (Scalar.ofBits (F := Ideal) .f32 0x00000000#32)))
    (broadcast S128x4096 (Scalar.ofBits (F := Ideal) .f32 0x39800801#32)))

/-- The deviation of a correction: each entry less its row's mean. -/
def devPiece (a : FVec Ideal S128x4096 .f32) : FVec Ideal S128x4096 .f32 :=
  subf a (broadcastTo S128x4096
    (divf (rowSums a) (broadcast S128x1 (Scalar.ofBits (F := Ideal) .f32 0x45800000#32)))
    broadcasts_S128x1_S128x4096)

/-- One with the sign of `d`, entry by entry. -/
def signBit (d : FVec Ideal S128x4096 .f32) : FVec Ideal S128x4096 .f32 :=
  select (cmpf .olt d (constant (F := Ideal) S128x4096 .f32 0x00000000#32))
    (constant (F := Ideal) S128x4096 .f32 0xBF800000#32) (constant (F := Ideal) S128x4096 .f32 0x3F800000#32)

/-- The sign of `d` as the body selects it: `s` where the magnitude of `d` is positive, else `d` itself. -/
def signSel (d s : FVec Ideal S128x4096 .f32) : FVec Ideal S128x4096 .f32 :=
  select (cmpf .ogt (absf d) (broadcast S128x4096 (Scalar.ofBits (F := Ideal) .f32 0x00000000#32))) s d

/-- A correction's last step: the block times one less the scaled root times the sign. -/
def finish (a r s : FVec Ideal S128x4096 .f32) : FVec Ideal S128x4096 .f32 :=
  mulf a (subf (broadcast S128x4096 (Scalar.ofBits (F := Ideal) .f32 0x3F800000#32))
    (mulf (mulf (broadcast S128x4096 (Scalar.ofBits (F := Ideal) .f32 0x3DCCCCCD#32)) r) s))

/-- One whole correction of a block. -/
def corrected (a : FVec Ideal S128x4096 .f32) : FVec Ideal S128x4096 .f32 :=
  finish a (rootPiece a) (signSel (devPiece a) (signBit (devPiece a)))

/-- The root at `(p, q)`, in the specification's words over row `p`. -/
theorem rootPiece_apply (a : FVec Ideal S128x4096 .f32) (p : Fin 128) (q : Fin 4096) :
    rootPiece a (ix2 p q)
      = Ideal.sqrt (max (Cert.Spec.lit 0x45800000#32 * a (ix2 p q) * a (ix2 p q)
            - Cert.Spec.lit 0x40000000#32 * a (ix2 p q) * (∑ k : Fin 4096, a (ix2 p k))
            + ∑ k : Fin 4096, a (ix2 p k) * a (ix2 p k))
          (Cert.Spec.lit 0x00000000#32) * Cert.Spec.lit 0x39800801#32) := by
  have hS := rowSums_apply a p (0 : Fin 1)
  have hQ := rowSums_apply (mulf a a) p (0 : Fin 1)
  have hb1 := broadcastTo_a1_ab_apply (rowSums a) broadcasts_S128x1_S128x4096 p q
  have hb2 := broadcastTo_a1_ab_apply (rowSums (mulf a a)) broadcasts_S128x1_S128x4096 p q
  show Ideal.sqrt (max (Cert.Spec.lit 0x45800000#32 * a (ix2 p q) * a (ix2 p q)
            - Cert.Spec.lit 0x40000000#32 * a (ix2 p q)
              * broadcastTo S128x4096 (rowSums a) broadcasts_S128x1_S128x4096 (ix2 p q)
            + broadcastTo S128x4096 (rowSums (mulf a a)) broadcasts_S128x1_S128x4096 (ix2 p q))
          (Cert.Spec.lit 0x00000000#32) * Cert.Spec.lit 0x39800801#32) = _
  rw [hb1, hb2, hS, hQ]
  rfl

/-- The deviation at `(p, q)`: the entry less the row's sum divided by the word for 4096. -/
theorem devPiece_apply (a : FVec Ideal S128x4096 .f32) (p : Fin 128) (q : Fin 4096) :
    devPiece a (ix2 p q)
      = a (ix2 p q) - Ideal.div (∑ k : Fin 4096, a (ix2 p k)) (Cert.Spec.lit 0x45800000#32) := by
  have hS := rowSums_apply a p (0 : Fin 1)
  have hb := broadcastTo_a1_ab_apply
    (divf (rowSums a) (broadcast S128x1 (Scalar.ofBits (F := Ideal) .f32 0x45800000#32)))
    broadcasts_S128x1_S128x4096 p q
  show a (ix2 p q) - broadcastTo S128x4096
      (divf (rowSums a) (broadcast S128x1 (Scalar.ofBits (F := Ideal) .f32 0x45800000#32)))
      broadcasts_S128x1_S128x4096 (ix2 p q) = _
  rw [hb]
  show a (ix2 p q) - Ideal.div (rowSums a (ix2 p (0 : Fin 1))) (Cert.Spec.lit 0x45800000#32) = _
  rw [hS]

/-- The body's select between "one with the sign of `d`" and `d` is the sign function of `d`, entry by entry. -/
theorem signSel_apply (d : FVec Ideal S128x4096 .f32) (i : S128x4096.Idx) :
    signSel d (signBit d) i = Ideal.sign (d i) :=
  Ideal.jnp_sign_eq_sign_f32 (d i)

/-- One correction of a block, read at `(p, q)`, is the specification's correction of row `p`, at `q`. -/
theorem corrected_apply (a : FVec Ideal S128x4096 .f32) (p : Fin 128) (q : Fin 4096) :
    corrected a (ix2 p q) = Cert.Spec.correct (fun k => a (ix2 p k)) q := by
  show a (ix2 p q) * (Cert.Spec.lit 0x3F800000#32
      - Cert.Spec.lit 0x3DCCCCCD#32 * rootPiece a (ix2 p q)
        * signSel (devPiece a) (signBit (devPiece a)) (ix2 p q)) = _
  rw [signSel_apply, rootPiece_apply, devPiece_apply]
  rfl

/-! ## The column statistics and the normalised block -/

/-- The minima pass through unchanged. -/
theorem pay1_eq (mn : Vec Ideal S1x4096 .f32) : k1_pay1 (F := Ideal) mn = mn :=
  shapeCast_self _ _

/-- The range of column `q` is the specification's, from that column's minimum and maximum. -/
theorem pay2_apply (mn mx : Vec Ideal S1x4096 .f32) (q : Fin 4096) :
    k1_pay2 (F := Ideal) mn mx (ix2 (0 : Fin 1) q)
      = Cert.Spec.rangeOf (mn (ix2 (0 : Fin 1) q)) (mx (ix2 (0 : Fin 1) q)) := by
  unfold k1_pay2
  rw [pay1_eq, shapeCast_self]
  rfl

/-- The normalised block at `(p, q)`: the entry less its column's minimum, over its column's range. -/
theorem pay3_apply (x : Vec Ideal S128x4096 .f32) (mn mx : Vec Ideal S1x4096 .f32) (p : Fin 128) (q : Fin 4096) :
    k1_pay3 (F := Ideal) x mn mx (ix2 p q)
      = Ideal.div (x (ix2 p q) - mn (ix2 (0 : Fin 1) q))
          (Cert.Spec.rangeOf (mn (ix2 (0 : Fin 1) q)) (mx (ix2 (0 : Fin 1) q))) := by
  have h1 := broadcastTo_1b_ab_apply (k1_pay1 (F := Ideal) mn) broadcasts_S1x4096_S128x4096 p q
  have h2 := broadcastTo_1b_ab_apply (k1_pay2 (F := Ideal) mn mx) broadcasts_S1x4096_S128x4096 p q
  unfold k1_pay3
  rw [shapeCast_self]
  show Ideal.div (x (ix2 p q) - broadcastTo S128x4096 (k1_pay1 (F := Ideal) mn) broadcasts_S1x4096_S128x4096 (ix2 p q))
      (broadcastTo S128x4096 (k1_pay2 (F := Ideal) mn mx) broadcasts_S1x4096_S128x4096 (ix2 p q)) = _
  rw [h1, h2, pay2_apply, pay1_eq]

/-! ## The payloads are the pieces of three corrections -/

theorem pay5_eq (x : Vec Ideal S128x4096 .f32) (mn mx : Vec Ideal S1x4096 .f32) :
    k1_pay5 (F := Ideal) x mn mx = rootPiece (k1_pay3 (F := Ideal) x mn mx) := rfl

theorem pay6_eq (x : Vec Ideal S128x4096 .f32) (mn mx : Vec Ideal S1x4096 .f32) :
    k1_pay6 (F := Ideal) x mn mx = devPiece (k1_pay3 (F := Ideal) x mn mx) := rfl

theorem pay7_eq (x : Vec Ideal S128x4096 .f32) (mn mx : Vec Ideal S1x4096 .f32) :
    k1_pay7 (F := Ideal) x mn mx = signBit (k1_pay6 (F := Ideal) x mn mx) := rfl

/-- The word nearest 0.005, at every entry. -/
def shift : FVec Ideal S128x4096 .f32 := broadcast S128x4096 (Scalar.ofBits (F := Ideal) .f32 0x3BA3D70A#32)

theorem pay8_eq (v14 v34 v38 v44 : FVec Ideal S128x4096 .f32) :
    k1_pay8 (F := Ideal) v14 v34 v38 v44 = addf (finish v14 v34 (signSel v38 v44)) shift := rfl

theorem pay10_eq (v14 v34 v38 v44 : FVec Ideal S128x4096 .f32) :
    k1_pay10 (F := Ideal) v14 v34 v38 v44
      = signSel (devPiece (k1_pay8 (F := Ideal) v14 v34 v38 v44))
          (signBit (devPiece (k1_pay8 (F := Ideal) v14 v34 v38 v44))) := rfl

theorem pay11_eq (v14 v34 v38 v44 : FVec Ideal S128x4096 .f32) :
    k1_pay11 (F := Ideal) v14 v34 v38 v44
      = mulf (broadcast S128x4096 (Scalar.ofBits (F := Ideal) .f32 0x3DCCCCCD#32))
          (rootPiece (k1_pay8 (F := Ideal) v14 v34 v38 v44)) := rfl

theorem pay12_eq (v3 v10 : FVec Ideal S1x4096 .f32) (v56 v90 v92 : FVec Ideal S128x4096 .f32) :
    k1_pay12 (F := Ideal) v3 v10 v56 v90 v92
      = addf (mulf
          (corrected (mulf v56 (subf (broadcast S128x4096 (Scalar.ofBits (F := Ideal) .f32 0x3F800000#32)) (mulf v92 v90))))
          (broadcastTo S128x4096 v10 broadcasts_S1x4096_S128x4096))
        (broadcastTo S128x4096 v3 broadcasts_S1x4096_S128x4096) := rfl

/-- What the body stores is three corrections of the normalised block, the shift added after the first, then the
    product with the ranges and the sum with the minima, each copied over the 128 rows. -/
theorem body_eq (x : Vec Ideal S128x4096 .f32) (mn mx : Vec Ideal S1x4096 .f32) :
    body (F := Ideal) x mn mx
      = addf (mulf
          (corrected (corrected (addf (corrected (k1_pay3 (F := Ideal) x mn mx)) shift)))
          (broadcastTo S128x4096 (k1_pay2 (F := Ideal) mn mx) broadcasts_S1x4096_S128x4096))
        (broadcastTo S128x4096 (k1_pay1 (F := Ideal) mn) broadcasts_S1x4096_S128x4096) := by
  unfold body
  rw [pay12_eq, pay10_eq, pay11_eq, pay8_eq, pay7_eq, pay6_eq, pay5_eq]
  rfl

/-- Entry `(p, q)` of what the body stores is the specification's row function of row `p` of the block, the
    minima and the ranges made from the two one-row blocks. -/
theorem body_apply (x : Vec Ideal S128x4096 .f32) (mn mx : Vec Ideal S1x4096 .f32) (p : Fin 128) (q : Fin 4096) :
    body (F := Ideal) x mn mx (ix2 p q)
      = Cert.Spec.rowOut (fun k => mn (ix2 (0 : Fin 1) k))
          (fun k => Cert.Spec.rangeOf (mn (ix2 (0 : Fin 1) k)) (mx (ix2 (0 : Fin 1) k)))
          (fun k => x (ix2 p k)) q := by
  have h1 := broadcastTo_1b_ab_apply (k1_pay1 (F := Ideal) mn) broadcasts_S1x4096_S128x4096 p q
  have h2 := broadcastTo_1b_ab_apply (k1_pay2 (F := Ideal) mn mx) broadcasts_S1x4096_S128x4096 p q
  rw [body_eq]
  show corrected (corrected (addf (corrected (k1_pay3 (F := Ideal) x mn mx)) shift)) (ix2 p q)
        * broadcastTo S128x4096 (k1_pay2 (F := Ideal) mn mx) broadcasts_S1x4096_S128x4096 (ix2 p q)
      + broadcastTo S128x4096 (k1_pay1 (F := Ideal) mn) broadcasts_S1x4096_S128x4096 (ix2 p q) = _
  rw [h1, h2, pay2_apply, pay1_eq]
  simp only [corrected_apply, addf_apply, pay3_apply]
  rfl

end Cert.KernelIdeal.Main

end
-- ==== Proof.MainValue.lean ====
/-
  What the second region leaves in its result array.

  The region works through the 4096 rows of the matrix in 32 blocks of 128 full rows. At block t it reads rows
  128·t … 128·t + 127 of the matrix and, whole, the two one-row arrays of the columns' minima and maxima, and it
  writes rows 128·t … 128·t + 127 of the result. Entry (p, q) of what it writes is the specification's row function
  of row p of the block it read (the sibling module on the stored value), which is row 128·t + p of the matrix.
  So every block written is the matching block of ONE function on the whole array,

      G (r, q) = rowOut minima ranges (row r of the matrix) q,

  and since row r lies in block r / 128 the 32 blocks fill the array: after the region the result array is G.
-/
import proofs.«106010_j79379585565572_1_alg».proof.Proof.MainAlgebra
import Idealize.ShloMosaic.Lib.Pipeline.Value

noncomputable section

namespace Cert.KernelIdeal.Main

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Where the blocks lie, decided over the 32 points: the matrix's block and the result's block at point t are
    block row t, block column 0; the two one-row arrays are always read at their one block. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The specification's row function depends on its three rows entry by entry only. -/
theorem rowOut_congr {mn mn' rg rg' xr xr' : Fin 4096 → EReal} (h0 : ∀ k, mn k = mn' k) (h1 : ∀ k, rg k = rg' k)
    (h2 : ∀ k, xr k = xr' k) (q : Fin 4096) : Cert.Spec.rowOut mn rg xr q = Cert.Spec.rowOut mn' rg' xr' q := by
  obtain rfl : mn = mn' := funext h0
  obtain rfl : rg = rg' := funext h1
  obtain rfl : xr = xr' := funext h2
  rfl

/-- Row p of the matrix's block at point t is row 128·t + p of the matrix. -/
theorem rows_apply (c : Dev nD) (t : Fin cfg1.N) (p : Fin 128) (k : Fin 4096) (r : Fin 4096)
    (hr : r.val = 128 * t.val + p.val) :
    (iblk V c 0 t : Vec Ideal S128x4096 .f32) (ix2 p k) = (V c main_v0 : S4096x4096.Idx → EReal) (ix2 r k) := by
  obtain ⟨e0, e1, -⟩ := block_index t
  unfold iblk
  rw [View.read_apply]
  show (V c main_v0 : S4096x4096.Idx → EReal) _ = _
  congr 1
  funext a
  apply Fin.ext
  match a with
  | ⟨0, _⟩ => show win1_0.index t (0 : Fin 2) * 128 + 1 * p.val = r.val; omega
  | ⟨1, _⟩ => show win1_0.index t (1 : Fin 2) * 4096 + 1 * k.val = k.val; omega

/-- The minima's block at any point is the whole one-row array. -/
theorem minima_apply (c : Dev nD) (t : Fin cfg1.N) (k : Fin 4096) :
    (iblk V c 1 t : Vec Ideal S1x4096 .f32) (ix2 (0 : Fin 1) k) = (V c main_v1_0 : S1x4096.Idx → EReal) (ix2 (0 : Fin 1) k) := by
  obtain ⟨-, -, e0, e1, -⟩ := block_index t
  unfold iblk
  rw [View.read_apply]
  show (V c main_v1_0 : S1x4096.Idx → EReal) _ = _
  congr 1
  funext a
  apply Fin.ext
  match a with
  | ⟨0, _⟩ => show win1_1.index t (0 : Fin 2) * 1 + 1 * 0 = 0; omega
  | ⟨1, _⟩ => show win1_1.index t (1 : Fin 2) * 4096 + 1 * k.val = k.val; omega

/-- The maxima's block at any point is the whole one-row array. -/
theorem maxima_apply (c : Dev nD) (t : Fin cfg1.N) (k : Fin 4096) :
    (iblk V c 2 t : Vec Ideal S1x4096 .f32) (ix2 (0 : Fin 1) k) = (V c main_v1_1 : S1x4096.Idx → EReal) (ix2 (0 : Fin 1) k) := by
  obtain ⟨-, -, -, -, e0, e1, -⟩ := block_index t
  unfold iblk
  rw [View.read_apply]
  show (V c main_v1_1 : S1x4096.Idx → EReal) _ = _
  congr 1
  funext a
  apply Fin.ext
  match a with
  | ⟨0, _⟩ => show win1_2.index t (0 : Fin 2) * 1 + 1 * 0 = 0; omega
  | ⟨1, _⟩ => show win1_2.index t (1 : Fin 2) * 4096 + 1 * k.val = k.val; omega

/-- The whole result: entry (r, q) is the specification's row function of row r of the matrix the region reads,
    the minima and the ranges made from the two one-row arrays it reads. -/
def whole (c : Dev nD) : S4096x4096.Idx → EReal := fun i =>
  Cert.Spec.rowOut (fun k => (V c main_v1_0 : S1x4096.Idx → EReal) (ix2 (0 : Fin 1) k))
    (fun k => Cert.Spec.rangeOf ((V c main_v1_0 : S1x4096.Idx → EReal) (ix2 (0 : Fin 1) k))
      ((V c main_v1_1 : S1x4096.Idx → EReal) (ix2 (0 : Fin 1) k)))
    (fun k => (V c main_v0 : S4096x4096.Idx → EReal) (ix2 (i 0) k)) (i 1)

/-- What the body stores at point t, at an entry j of the block, is the whole result at the entry i of the array
    that lies 128·t rows further down. -/
theorem stored_apply (c : Dev nD) (t : Fin cfg1.N) (j : S128x4096.Idx) (i : S4096x4096.Idx)
    (h0 : (i 0).val = 128 * t.val + (j 0).val) (h1 : (i 1).val = (j 1).val) :
    body (iblk V c 0 t) (iblk V c 1 t) (iblk V c 2 t) j = whole V c i := by
  obtain ⟨p, q, rfl⟩ : ∃ (p : Fin 128) (q : Fin 4096), j = ix2 p q := ⟨j 0, j 1, eq_ix2 j⟩
  have hq : i 1 = q := Fin.ext h1
  refine (body_apply (iblk V c 0 t) (iblk V c 1 t) (iblk V c 2 t) p q).trans ?_
  unfold whole
  rw [hq]
  exact rowOut_congr (fun k => minima_apply V c t k)
    (fun k => by
      show Cert.Spec.rangeOf ((iblk V c 1 t : Vec Ideal S1x4096 .f32) (ix2 (0 : Fin 1) k)) ((iblk V c 2 t : Vec Ideal S1x4096 .f32) (ix2 (0 : Fin 1) k)) = _
      rw [minima_apply V c t k, maxima_apply V c t k])
    (fun k => rows_apply V c t p k (i 0) h0) q

/-- WHAT POINT t WRITES BACK is block t of the whole result. -/
theorem flushed_eq (c : Dev nD) (t : Fin cfg1.N) :
    (dat V c).flushed 3 t = ((cfg1.win 3).blk t).view.read (Elt Ideal) (whole V c) := by
  show (cfg1.win 3).cut (grid1.coords t) ((dat V c).after 3 t) = _
  rw [after_3]
  obtain ⟨-, -, -, -, -, -, e0, e1⟩ := block_index t
  funext j
  refine stored_apply V c t j (((cfg1.win 3).blk t).view.emb j) ?_ ?_
  · show win1_3.index t (0 : Fin 2) * 128 + 1 * (j 0).val = 128 * t.val + (j 0).val; omega
  · show win1_3.index t (1 : Fin 2) * 4096 + 1 * (j 1).val = (j 1).val; omega

/-- An index of the array is in point t's block iff each coordinate is in the block's range on its axis. -/
theorem mem_blk (t : Fin cfg1.N) (i : S4096x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v2).slice (win1_3.rect t)).set ↔ _
  rw [View.set_slice_whole, Rect.mem_set_unit]
  exact Iff.rfl

/-- Every entry of the array is written: row r lies in the block of point r / 128. -/
theorem cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  have hN : cfg1.N = 32 := N_1
  let t : Fin cfg1.N := ⟨(i 0).val / 128, by rw [hN]; omega⟩
  have ht : t.val = (i 0).val / 128 := rfl
  obtain ⟨-, -, -, -, -, -, e0, e1⟩ := block_index t
  refine ⟨t, flush1_3 t, ?_⟩
  rw [mem_blk]
  intro a
  match a with
  | ⟨0, _⟩ => show win1_3.index t (0 : Fin 2) * 128 ≤ (i 0).val ∧ (i 0).val < win1_3.index t (0 : Fin 2) * 128 + 128; omega
  | ⟨1, _⟩ => show win1_3.index t (1 : Fin 2) * 4096 ≤ (i 1).val ∧ (i 1).val < win1_3.index t (1 : Fin 2) * 4096 + 4096; omega

/-- After the region the result array is the whole result. -/
theorem arr_whole (c : Dev nD) : (dat V c).arrAt 3 cfg1.N = whole V c :=
  (dat V c).arrAt_eq_of_cover 3 (whole V c) (fun t _ => flushed_eq V c t) cover

/-- After the region, entry `(r, q)` of the result array is the specification's row function of row `r` of the
    matrix the region reads, the minima and the ranges made from the two one-row arrays it reads. -/
theorem arr_out (c : Dev nD) (r q : Fin 4096) :
    ((dat V c).arrAt 3 cfg1.N : S4096x4096.Idx → EReal) (ix2 r q)
      = Cert.Spec.rowOut (fun k => (V c main_v1_0 : S1x4096.Idx → EReal) (ix2 (0 : Fin 1) k))
          (fun k => Cert.Spec.rangeOf ((V c main_v1_0 : S1x4096.Idx → EReal) (ix2 (0 : Fin 1) k))
            ((V c main_v1_1 : S1x4096.Idx → EReal) (ix2 (0 : Fin 1) k)))
          (fun k => (V c main_v0 : S4096x4096.Idx → EReal) (ix2 r k)) q := by
  rw [arr_whole V c]
  rfl

end Cert.KernelIdeal.Main

end
-- ==== Proof.KernelValue.lean ====
/-
  The idealized kernel's result, read at the extended reals: the specification of the argument's matrix.

  The program's fold ends with the result buffer at the reshape of the second region's output array. Entry
  `(r, j)` of that array is the specification's row function of row `r` of the second region's matrix and of the
  minima and ranges made from its two one-row inputs; the matrix is the reshaped argument (the first region leaves
  it as it found it), and the two one-row inputs are what the first region leaves in its outputs: the columns'
  minima and maxima of that same matrix. So entry `(0, r, j)` of the result is the specification's entry
  `(r, j)` of the argument read as a matrix.
-/
import proofs.«106010_j79379585565572_1_alg».proof.Proof.WholeRead
import proofs.«106010_j79379585565572_1_alg».proof.Proof.MinMaxValue
import proofs.«106010_j79379585565572_1_alg».proof.Proof.MainValue
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The argument read as a matrix: its one leading axis dropped. -/
abbrev argMat (c : Dev nD) (r k : Fin 4096) : EReal :=
  (m ((c : Thread nD τ).loc main_arg0) : S1x4096x4096.Idx → EReal) (ix3 (0 : Fin 1) r k)

/-- The result the claim names: the specification of the argument's matrix, entry by entry. -/
def result (c : Dev nD) : S1x4096x4096.Idx → EReal :=
  fun i => Cert.Spec.out (argMat m c) ⟨(i 1).val, (i 1).isLt⟩ ⟨(i 2).val, (i 2).isLt⟩

/-- The first region's matrix, by coordinates, is the argument's. -/
theorem V1_mat (c : Dev nD) (r k : Fin 4096) :
    (V1 m ρ c main_v0 : S4096x4096.Idx → EReal) (ix2 r k) = argMat m c r k := by
  rw [V1_main_v0]
  exact shapeCast_apply _ shapeCasts_S1x4096x4096_S4096x4096 (ix2 r k) (ix3 (0 : Fin 1) r k)
    (by rewrite [Shape.rowMajor_val_three, Shape.rowMajor_val_two]
        show (0 * 4096 + r.val) * 4096 + k.val = r.val * 4096 + k.val
        omega)

theorem mat_eq (c : Dev nD) : MinMax.mat (V1 m ρ) c = argMat m c := by
  funext r k; exact V1_mat m ρ c r k

/-- Entry `(r, j)` of the second region's output array is the specification's entry of the argument's matrix. -/
theorem out_entry (c : Dev nD) (r j : Fin 4096) :
    ((Main.dat (V2 m ρ) c).arrAt 3 cfg1.N : S4096x4096.Idx → EReal) (ix2 r j) = Cert.Spec.out (argMat m c) r j := by
  rw [Main.arr_out (V2 m ρ) c r j]
  unfold Cert.Spec.out
  congr 1
  · funext k
    rw [V2_main_v1_0, MinMax.arr_min (V1 m ρ) c k, mat_eq]
  · funext k
    rw [V2_main_v1_0, V2_main_v1_1, MinMax.arr_min (V1 m ρ) c k, MinMax.arr_max (V1 m ρ) c k, mat_eq]
  · funext k
    rw [V2_main_v0]
    exact V1_mat m ρ c r k

/-- The result buffer at the end of the fold is `result`. -/
theorem W4_result (c : Dev nD) : W4 m ρ c (Proc.devRef .tc main_v3) = result m c := by
  rw [W4_main_v3]
  funext i
  obtain ⟨a, r, j, rfl⟩ : ∃ (a : Fin 1) (r j : Fin 4096), i = ix3 a r j := ⟨i 0, i 1, i 2, eq_ix3 i⟩
  obtain rfl : a = 0 := Subsingleton.elim _ _
  refine (shapeCast_apply _ shapeCasts_S4096x4096_S1x4096x4096 (ix3 (0 : Fin 1) r j) (ix2 r j)
    (by rewrite [Shape.rowMajor_val_two, Shape.rowMajor_val_three]
        show r.val * 4096 + j.val = (0 * 4096 + r.val) * 4096 + j.val
        omega)).trans ?_
  exact out_entry m ρ c r j

/-- The run, read: every weakly fair execution of the idealized kernel terminates with the result buffer at the
    specification of the argument's matrix and the argument unchanged. -/
theorem run_value : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)) :=
  (θ_run defs _ _).mono (fun r h c =>
    ⟨(h c _ (mem_uc main_v3 (by decide))).trans (W4_result m ρ c),
     (h c _ (mem_uc main_arg0 (by decide))).trans (W4_main_arg0 m ρ c)⟩) (run_all m ρ)

end Cert.KernelIdeal.Whole

end
-- ==== Proof.RefRun.lean ====
/-
  The reference program's run, read back stage by stage.

  The reference's @main is a straight line of 154 tensor operations on one device: it reshapes its argument to a
  4096 × 4096 matrix, takes each column's least and greatest entry, rescales every column by them, corrects every
  row three times from the row's sum and sum of squares, and maps the columns back. A straight line started from a
  memory with zero counters always terminates, and when it has, every buffer holds the fold of the operations'
  results over what the memory held at the start; so all that is to be shown is what that fold leaves in the result
  buffer, and that it leaves the argument alone.

  Written out as one expression of the argument the result is enormous, because each correction reads the matrix it
  corrects several times over and three corrections are stacked. So the line is cut at the three matrices where one
  phase hands over to the next — the rescaled matrix, the matrix after the first correction, the matrix after the
  second — and each stretch is folded on its own, from an ARBITRARY assignment of contents to the buffers: the
  stretch's result is the corresponding stage of the argument as soon as the one matrix it starts from (for the last
  stretch also the columns' minima and ranges, which the mapping back reads again) is the stage before, and a
  stretch leaves untouched every buffer it does not write. Inside a stretch the two sides are the same expression of
  the stage it starts from. Chaining the four stretches gives the whole line.
-/
import proofs.«106010_j79379585565572_1_alg».proof.Proof.RefStages
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The line in four stretches -/

/-- The first 18 operations: the columns' minima `%1` and maxima `%2`, their ranges `%7` (a zero range replaced by one), and the rescaled matrix `%13`. -/
abbrev opsA : List (HloOp τ sig (Elt F)) :=
  [ reshape main_arg0 main_v0 rfl shapeCasts_S1x4096x4096_S4096x4096,
    nullary main_cst (constant S_ .f32 0x7F800000#32),
    binary main_v0 main_cst main_v1 ((fun x v => Host.reduce FloatOps.minimumf x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    nullary main_cst_0 (constant S_ .f32 0xFF800000#32),
    binary main_v0 main_cst_0 main_v2 ((fun x v => Host.reduce FloatOps.maximumf x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    binary main_v2 main_v1 main_v3 (subf : (⟨S4096, .f32⟩ : BufTy).Contents (Elt F) → (⟨S4096, .f32⟩ : BufTy).Contents (Elt F) → (⟨S4096, .f32⟩ : BufTy).Contents (Elt F)),
    nullary main_cst_1 (constant S_ .f32 0x00000000#32),
    unary main_cst_1 main_v4 (broadcastInDim S4096 ![] bcast_S_S4096 : (⟨S_, .f32⟩ : BufTy).Contents (Elt F) → (⟨S4096, .f32⟩ : BufTy).Contents (Elt F)),
    binary main_v3 main_v4 main_v5 (cmpf .oeq : (⟨S4096, .f32⟩ : BufTy).Contents (Elt F) → (⟨S4096, .f32⟩ : BufTy).Contents (Elt F) → (⟨S4096, .i1⟩ : BufTy).Contents (Elt F)),
    nullary main_cst_2 (constant S_ .f32 0x3F800000#32),
    unary main_cst_2 main_v6 (broadcastInDim S4096 ![] bcast_S_S4096 : (⟨S_, .f32⟩ : BufTy).Contents (Elt F) → (⟨S4096, .f32⟩ : BufTy).Contents (Elt F)),
    TRef.ternary (TRef.of (T := ⟨S4096, .i1⟩) main_v5) (TRef.of (T := ⟨S4096, .f32⟩) main_v6) (TRef.of (T := ⟨S4096, .f32⟩) main_v3) (TRef.of (T := ⟨S4096, .f32⟩) main_v7) select,
    unary main_v1 main_v8 (broadcastInDim S1x4096 ![1] bcast_S4096_S1x4096_1 : (⟨S4096, .f32⟩ : BufTy).Contents (Elt F) → (⟨S1x4096, .f32⟩ : BufTy).Contents (Elt F)),
    unary main_v8 main_v9 (broadcastInDim S4096x4096 ![0, 1] bcast_S1x4096_S4096x4096_0_1 : (⟨S1x4096, .f32⟩ : BufTy).Contents (Elt F) → (⟨S4096x4096, .f32⟩ : BufTy).Contents (Elt F)),
    binary main_v0 main_v9 main_v10 (subf : (⟨S4096x4096, .f32⟩ : BufTy).Contents (Elt F) → (⟨S4096x4096, .f32⟩ : BufTy).Contents (Elt F) → (⟨S4096x4096, .f32⟩ : BufTy).Contents (Elt F)),
    unary main_v7 main_v11 (broadcastInDim S1x4096 ![1] bcast_S4096_S1x4096_1 : (⟨S4096, .f32⟩ : BufTy).Contents (Elt F) → (⟨S1x4096, .f32⟩ : BufTy).Contents (Elt F)),
    unary main_v11 main_v12 (broadcastInDim S4096x4096 ![0, 1] bcast_S1x4096_S4096x4096_0_1 : (⟨S1x4096, .f32⟩ : BufTy).Contents (Elt F) → (⟨S4096x4096, .f32⟩ : BufTy).Contents (Elt F)),
    binary main_v10 main_v12 main_v13 (Host.divf : (⟨S4096x4096, .f32⟩ : BufTy).Contents (Elt F) → (⟨S4096x4096, .f32⟩ : BufTy).Contents (Elt F) → (⟨S4096x4096, .f32⟩ : BufTy).Contents (Elt F)) ]

/-- The next 43 operations, the first correction: from `%13` to `%46` (which includes the added constant). -/
abbrev opsB : List (HloOp τ sig (Elt F)) :=
  [ nullary main_cst_3 (constant S_ .f32 0x00000000#32),
    binary main_v13 main_cst_3 main_v14 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v14 main_v15 (broadcastInDim S4096x1 ![0] bcast_S4096_S4096x1_0 : (⟨S4096, .f32⟩ : BufTy).Contents (Elt F) → (⟨S4096x1, .f32⟩ : BufTy).Contents (Elt F)),
    binary main_v13 main_v13 main_v16 (mulf : (⟨S4096x4096, .f32⟩ : BufTy).Contents (Elt F) → (⟨S4096x4096, .f32⟩ : BufTy).Contents (Elt F) → (⟨S4096x4096, .f32⟩ : BufTy).Contents (Elt F)),
    nullary main_cst_4 (constant S_ .f32 0x00000000#32),
    binary main_v16 main_cst_4 main_v17 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v17 main_v18 (broadcastInDim S4096x1 ![0] bcast_S4096_S4096x1_0 : (⟨S4096, .f32⟩ : BufTy).Contents (Elt F) → (⟨S4096x1, .f32⟩ : BufTy).Contents (Elt F)),
    nullary main_cst_5 (constant S_ .f32 0x45800000#32),
    unary main_cst_5 main_v19 (broadcastInDim S4096x4096 ![] bcast_S_S4096x4096 : (⟨S_, .f32⟩ : BufTy).Contents (Elt F) → (⟨S4096x4096, .f32⟩ : BufTy).Contents (Elt F)),
    binary main_v19 main_v13 main_v20 (mulf : (⟨S4096x4096, .f32⟩ : BufTy).Contents (Elt F) → (⟨S4096x4096, .f32⟩ : BufTy).Contents (Elt F) → (⟨S4096x4096, .f32⟩ : BufTy).Contents (Elt F)),
    binary main_v20 main_v13 main_v21 (mulf : (⟨S4096x4096, .f32⟩ : BufTy).Contents (Elt F) → (⟨S4096x4096, .f32⟩ : BufTy).Contents (Elt F) → (⟨S4096x4096, .f32⟩ : BufTy).Contents (Elt F)),
    nullary main_cst_6 (constant S_ .f32 0x40000000#32),
    unary main_cst_6 main_v22 (broadcastInDim S4096x4096 ![] bcast_S_S4096x4096 : (⟨S_, .f32⟩ : BufTy).Contents (Elt F) → (⟨S4096x4096, .f32⟩ : BufTy).Contents (Elt F)),
    binary main_v22 main_v13 main_v23 (mulf : (⟨S4096x4096, .f32⟩ : BufTy).Contents (Elt F) → (⟨S4096x4096, .f32⟩ : BufTy).Contents (Elt F) → (⟨S4096x4096, .f32⟩ : BufTy).Contents (Elt F)),
    unary main_v15 main_v24 (broadcastInDim S4096x4096 ![0, 1] bcast_S4096x1_S4096x4096_0_1 : (⟨S4096x1, .f32⟩ : BufTy).Contents (Elt F) → (⟨S4096x4096, .f32⟩ : BufTy).Contents (Elt F)),
    binary main_v23 main_v24 main_v25 (mulf : (⟨S4096x4096, .f32⟩ : BufTy).Contents (Elt F) → (⟨S4096x4096, .f32⟩ : BufTy).Contents (Elt F) → (⟨S4096x4096, .f32⟩ : BufTy).Contents (Elt F)),
    binary main_v21 main_v25 main_v26 (subf : (⟨S4096x4096, .f32⟩ : BufTy).Contents (Elt F) → (⟨S4096x4096, .f32⟩ : BufTy).Contents (Elt F) → (⟨S4096x4096, .f32⟩ : BufTy).Contents (Elt F)),
    unary main_v18 main_v27 (broadcastInDim S4096x4096 ![0, 1] bcast_S4096x1_S4096x4096_0_1 : (⟨S4096x1, .f32⟩ : BufTy).Contents (Elt F) → (⟨S4096x4096, .f32⟩ : BufTy).Contents (Elt F)),
    binary main_v26 main_v27 main_v28 (addf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x00000000#32),
    unary main_cst_7 main_v29 (broadcastInDim S4096x4096 ![] bcast_S_S4096x4096 : (⟨S_, .f32⟩ : BufTy).Contents (Elt F) → (⟨S4096x4096, .f32⟩ : BufTy).Contents (Elt F)),
    binary main_v28 main_v29 main_v30 (maximumf : (⟨S4096x4096, .f32⟩ : BufTy).Contents (Elt F) → (⟨S4096x4096, .f32⟩ : BufTy).Contents (Elt F) → (⟨S4096x4096, .f32⟩ : BufTy).Contents (Elt F)),
    nullary main_cst_8 (constant S_ .f32 0x39800801#32),
    unary main_cst_8 main_v31 (broadcastInDim S4096x4096 ![] bcast_S_S4096x4096 : (⟨S_, .f32⟩ : BufTy).Contents (Elt F) → (⟨S4096x4096, .f32⟩ : BufTy).Contents (Elt F)),
    binary main_v30 main_v31 main_v32 (mulf : (⟨S4096x4096, .f32⟩ : BufTy).Contents (Elt F) → (⟨S4096x4096, .f32⟩ : BufTy).Contents (Elt F) → (⟨S4096x4096, .f32⟩ : BufTy).Contents (Elt F)),
    unary main_v32 main_v33 (Host.sqrt : (⟨S4096x4096, .f32⟩ : BufTy).Contents (Elt F) → (⟨S4096x4096, .f32⟩ : BufTy).Contents (Elt F)),
    nullary main_cst_9 (constant S_ .f32 0x45800000#32),
    unary main_cst_9 main_v34 (broadcastInDim S4096x1 ![] bcast_S_S4096x1 : (⟨S_, .f32⟩ : BufTy).Contents (Elt F) → (⟨S4096x1, .f32⟩ : BufTy).Contents (Elt F)),
    binary main_v15 main_v34 main_v35 (Host.divf : (⟨S4096x1, .f32⟩ : BufTy).Contents (Elt F) → (⟨S4096x1, .f32⟩ : BufTy).Contents (Elt F) → (⟨S4096x1, .f32⟩ : BufTy).Contents (Elt F)),
    nullary main_cst_10 (constant S_ .f32 0x3DCCCCCD#32),
    unary main_cst_10 main_v36 (broadcastInDim S4096x4096 ![] bcast_S_S4096x4096 : (⟨S_, .f32⟩ : BufTy).Contents (Elt F) → (⟨S4096x4096, .f32⟩ : BufTy).Contents (Elt F)),
    binary main_v36 main_v33 main_v37 (mulf : (⟨S4096x4096, .f32⟩ : BufTy).Contents (Elt F) → (⟨S4096x4096, .f32⟩ : BufTy).Contents (Elt F) → (⟨S4096x4096, .f32⟩ : BufTy).Contents (Elt F)),
    unary main_v35 main_v38 (broadcastInDim S4096x4096 ![0, 1] bcast_S4096x1_S4096x4096_0_1 : (⟨S4096x1, .f32⟩ : BufTy).Contents (Elt F) → (⟨S4096x4096, .f32⟩ : BufTy).Contents (Elt F)),
    binary main_v13 main_v38 main_v39 (subf : (⟨S4096x4096, .f32⟩ : BufTy).Contents (Elt F) → (⟨S4096x4096, .f32⟩ : BufTy).Contents (Elt F) → (⟨S4096x4096, .f32⟩ : BufTy).Contents (Elt F)),
    unary main_v39 main_v40 (Host.sign : (⟨S4096x4096, .f32⟩ : BufTy).Contents (Elt F) → (⟨S4096x4096, .f32⟩ : BufTy).Contents (Elt F)),
    binary main_v37 main_v40 main_v41 (mulf : (⟨S4096x4096, .f32⟩ : BufTy).Contents (Elt F) → (⟨S4096x4096, .f32⟩ : BufTy).Contents (Elt F) → (⟨S4096x4096, .f32⟩ : BufTy).Contents (Elt F)),
    nullary main_cst_11 (constant S_ .f32 0x3F800000#32),
    unary main_cst_11 main_v42 (broadcastInDim S4096x4096 ![] bcast_S_S4096x4096 : (⟨S_, .f32⟩ : BufTy).Contents (Elt F) → (⟨S4096x4096, .f32⟩ : BufTy).Contents (Elt F)),
    binary main_v42 main_v41 main_v43 (subf : (⟨S4096x4096, .f32⟩ : BufTy).Contents (Elt F) → (⟨S4096x4096, .f32⟩ : BufTy).Contents (Elt F) → (⟨S4096x4096, .f32⟩ : BufTy).Contents (Elt F)),
    binary main_v13 main_v43 main_v44 (mulf : (⟨S4096x4096, .f32⟩ : BufTy).Contents (Elt F) → (⟨S4096x4096, .f32⟩ : BufTy).Contents (Elt F) → (⟨S4096x4096, .f32⟩ : BufTy).Contents (Elt F)),
    nullary main_cst_12 (constant S_ .f32 0x3BA3D70A#32),
    unary main_cst_12 main_v45 (broadcastInDim S4096x4096 ![] bcast_S_S4096x4096 : (⟨S_, .f32⟩ : BufTy).Contents (Elt F) → (⟨S4096x4096, .f32⟩ : BufTy).Contents (Elt F)),
    binary main_v44 main_v45 main_v46 (addf : (⟨S4096x4096, .f32⟩ : BufTy).Contents (Elt F) → (⟨S4096x4096, .f32⟩ : BufTy).Contents (Elt F) → (⟨S4096x4096, .f32⟩ : BufTy).Contents (Elt F)) ]

/-- The next 43 operations, the second correction: from `%46` to `%79`. -/
abbrev opsC : List (HloOp τ sig (Elt F)) :=
  [ nullary main_cst_13 (constant S_ .f32 0x00000000#32),
    binary main_v46 main_cst_13 main_v47 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v47 main_v48 (broadcastInDim S4096x1 ![0] bcast_S4096_S4096x1_0 : (⟨S4096, .f32⟩ : BufTy).Contents (Elt F) → (⟨S4096x1, .f32⟩ : BufTy).Contents (Elt F)),
    binary main_v46 main_v46 main_v49 (mulf : (⟨S4096x4096, .f32⟩ : BufTy).Contents (Elt F) → (⟨S4096x4096, .f32⟩ : BufTy).Contents (Elt F) → (⟨S4096x4096, .f32⟩ : BufTy).Contents (Elt F)),
    nullary main_cst_14 (constant S_ .f32 0x00000000#32),
    binary main_v49 main_cst_14 main_v50 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v50 main_v51 (broadcastInDim S4096x1 ![0] bcast_S4096_S4096x1_0 : (⟨S4096, .f32⟩ : BufTy).Contents (Elt F) → (⟨S4096x1, .f32⟩ : BufTy).Contents (Elt F)),
    nullary main_cst_15 (constant S_ .f32 0x45800000#32),
    unary main_cst_15 main_v52 (broadcastInDim S4096x4096 ![] bcast_S_S4096x4096 : (⟨S_, .f32⟩ : BufTy).Contents (Elt F) → (⟨S4096x4096, .f32⟩ : BufTy).Contents (Elt F)),
    binary main_v52 main_v46 main_v53 (mulf : (⟨S4096x4096, .f32⟩ : BufTy).Contents (Elt F) → (⟨S4096x4096, .f32⟩ : BufTy).Contents (Elt F) → (⟨S4096x4096, .f32⟩ : BufTy).Contents (Elt F)),
    binary main_v53 main_v46 main_v54 (mulf : (⟨S4096x4096, .f32⟩ : BufTy).Contents (Elt F) → (⟨S4096x4096, .f32⟩ : BufTy).Contents (Elt F) → (⟨S4096x4096, .f32⟩ : BufTy).Contents (Elt F)),
    nullary main_cst_16 (constant S_ .f32 0x40000000#32),
    unary main_cst_16 main_v55 (broadcastInDim S4096x4096 ![] bcast_S_S4096x4096 : (⟨S_, .f32⟩ : BufTy).Contents (Elt F) → (⟨S4096x4096, .f32⟩ : BufTy).Contents (Elt F)),
    binary main_v55 main_v46 main_v56 (mulf : (⟨S4096x4096, .f32⟩ : BufTy).Contents (Elt F) → (⟨S4096x4096, .f32⟩ : BufTy).Contents (Elt F) → (⟨S4096x4096, .f32⟩ : BufTy).Contents (Elt F)),
    unary main_v48 main_v57 (broadcastInDim S4096x4096 ![0, 1] bcast_S4096x1_S4096x4096_0_1 : (⟨S4096x1, .f32⟩ : BufTy).Contents (Elt F) → (⟨S4096x4096, .f32⟩ : BufTy).Contents (Elt F)),
    binary main_v56 main_v57 main_v58 (mulf : (⟨S4096x4096, .f32⟩ : BufTy).Contents (Elt F) → (⟨S4096x4096, .f32⟩ : BufTy).Contents (Elt F) → (⟨S4096x4096, .f32⟩ : BufTy).Contents (Elt F)),
    binary main_v54 main_v58 main_v59 (subf : (⟨S4096x4096, .f32⟩ : BufTy).Contents (Elt F) → (⟨S4096x4096, .f32⟩ : BufTy).Contents (Elt F) → (⟨S4096x4096, .f32⟩ : BufTy).Contents (Elt F)),
    unary main_v51 main_v60 (broadcastInDim S4096x4096 ![0, 1] bcast_S4096x1_S4096x4096_0_1 : (⟨S4096x1, .f32⟩ : BufTy).Contents (Elt F) → (⟨S4096x4096, .f32⟩ : BufTy).Contents (Elt F)),
    binary main_v59 main_v60 main_v61 (addf : (⟨S4096x4096, .f32⟩ : BufTy).Contents (Elt F) → (⟨S4096x4096, .f32⟩ : BufTy).Contents (Elt F) → (⟨S4096x4096, .f32⟩ : BufTy).Contents (Elt F)),
    nullary main_cst_17 (constant S_ .f32 0x00000000#32),
    unary main_cst_17 main_v62 (broadcastInDim S4096x4096 ![] bcast_S_S4096x4096 : (⟨S_, .f32⟩ : BufTy).Contents (Elt F) → (⟨S4096x4096, .f32⟩ : BufTy).Contents (Elt F)),
    binary main_v61 main_v62 main_v63 (maximumf : (⟨S4096x4096, .f32⟩ : BufTy).Contents (Elt F) → (⟨S4096x4096, .f32⟩ : BufTy).Contents (Elt F) → (⟨S4096x4096, .f32⟩ : BufTy).Contents (Elt F)),
    nullary main_cst_18 (constant S_ .f32 0x39800801#32),
    unary main_cst_18 main_v64 (broadcastInDim S4096x4096 ![] bcast_S_S4096x4096 : (⟨S_, .f32⟩ : BufTy).Contents (Elt F) → (⟨S4096x4096, .f32⟩ : BufTy).Contents (Elt F)),
    binary main_v63 main_v64 main_v65 (mulf : (⟨S4096x4096, .f32⟩ : BufTy).Contents (Elt F) → (⟨S4096x4096, .f32⟩ : BufTy).Contents (Elt F) → (⟨S4096x4096, .f32⟩ : BufTy).Contents (Elt F)),
    unary main_v65 main_v66 (Host.sqrt : (⟨S4096x4096, .f32⟩ : BufTy).Contents (Elt F) → (⟨S4096x4096, .f32⟩ : BufTy).Contents (Elt F)),
    nullary main_cst_19 (constant S_ .f32 0x45800000#32),
    unary main_cst_19 main_v67 (broadcastInDim S4096x1 ![] bcast_S_S4096x1 : (⟨S_, .f32⟩ : BufTy).Contents (Elt F) → (⟨S4096x1, .f32⟩ : BufTy).Contents (Elt F)),
    binary main_v48 main_v67 main_v68 (Host.divf : (⟨S4096x1, .f32⟩ : BufTy).Contents (Elt F) → (⟨S4096x1, .f32⟩ : BufTy).Contents (Elt F) → (⟨S4096x1, .f32⟩ : BufTy).Contents (Elt F)),
    nullary main_cst_20 (constant S_ .f32 0x3DCCCCCD#32),
    unary main_cst_20 main_v69 (broadcastInDim S4096x4096 ![] bcast_S_S4096x4096 : (⟨S_, .f32⟩ : BufTy).Contents (Elt F) → (⟨S4096x4096, .f32⟩ : BufTy).Contents (Elt F)),
    binary main_v69 main_v66 main_v70 (mulf : (⟨S4096x4096, .f32⟩ : BufTy).Contents (Elt F) → (⟨S4096x4096, .f32⟩ : BufTy).Contents (Elt F) → (⟨S4096x4096, .f32⟩ : BufTy).Contents (Elt F)),
    unary main_v68 main_v71 (broadcastInDim S4096x4096 ![0, 1] bcast_S4096x1_S4096x4096_0_1 : (⟨S4096x1, .f32⟩ : BufTy).Contents (Elt F) → (⟨S4096x4096, .f32⟩ : BufTy).Contents (Elt F)),
    binary main_v46 main_v71 main_v72 (subf : (⟨S4096x4096, .f32⟩ : BufTy).Contents (Elt F) → (⟨S4096x4096, .f32⟩ : BufTy).Contents (Elt F) → (⟨S4096x4096, .f32⟩ : BufTy).Contents (Elt F)),
    unary main_v72 main_v73 (Host.sign : (⟨S4096x4096, .f32⟩ : BufTy).Contents (Elt F) → (⟨S4096x4096, .f32⟩ : BufTy).Contents (Elt F)),
    binary main_v70 main_v73 main_v74 (mulf : (⟨S4096x4096, .f32⟩ : BufTy).Contents (Elt F) → (⟨S4096x4096, .f32⟩ : BufTy).Contents (Elt F) → (⟨S4096x4096, .f32⟩ : BufTy).Contents (Elt F)),
    nullary main_cst_21 (constant S_ .f32 0x3F800000#32),
    unary main_cst_21 main_v75 (broadcastInDim S4096x4096 ![] bcast_S_S4096x4096 : (⟨S_, .f32⟩ : BufTy).Contents (Elt F) → (⟨S4096x4096, .f32⟩ : BufTy).Contents (Elt F)),
    binary main_v75 main_v74 main_v76 (subf : (⟨S4096x4096, .f32⟩ : BufTy).Contents (Elt F) → (⟨S4096x4096, .f32⟩ : BufTy).Contents (Elt F) → (⟨S4096x4096, .f32⟩ : BufTy).Contents (Elt F)),
    binary main_v46 main_v76 main_v77 (mulf : (⟨S4096x4096, .f32⟩ : BufTy).Contents (Elt F) → (⟨S4096x4096, .f32⟩ : BufTy).Contents (Elt F) → (⟨S4096x4096, .f32⟩ : BufTy).Contents (Elt F)),
    nullary main_cst_22 (constant S_ .f32 0x00000000#32),
    unary main_cst_22 main_v78 (broadcastInDim S4096x4096 ![] bcast_S_S4096x4096 : (⟨S_, .f32⟩ : BufTy).Contents (Elt F) → (⟨S4096x4096, .f32⟩ : BufTy).Contents (Elt F)),
    binary main_v77 main_v78 main_v79 (addf : (⟨S4096x4096, .f32⟩ : BufTy).Contents (Elt F) → (⟨S4096x4096, .f32⟩ : BufTy).Contents (Elt F) → (⟨S4096x4096, .f32⟩ : BufTy).Contents (Elt F)) ]

/-- The last 50 operations: the third correction, from `%79` to `%112`, then the mapping back by the ranges `%7` and the minima `%1`, and the reshape into the result `%119`. -/
abbrev opsD : List (HloOp τ sig (Elt F)) :=
  [ nullary main_cst_23 (constant S_ .f32 0x00000000#32),
    binary main_v79 main_cst_23 main_v80 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v80 main_v81 (broadcastInDim S4096x1 ![0] bcast_S4096_S4096x1_0 : (⟨S4096, .f32⟩ : BufTy).Contents (Elt F) → (⟨S4096x1, .f32⟩ : BufTy).Contents (Elt F)),
    binary main_v79 main_v79 main_v82 (mulf : (⟨S4096x4096, .f32⟩ : BufTy).Contents (Elt F) → (⟨S4096x4096, .f32⟩ : BufTy).Contents (Elt F) → (⟨S4096x4096, .f32⟩ : BufTy).Contents (Elt F)),
    nullary main_cst_24 (constant S_ .f32 0x00000000#32),
    binary main_v82 main_cst_24 main_v83 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v83 main_v84 (broadcastInDim S4096x1 ![0] bcast_S4096_S4096x1_0 : (⟨S4096, .f32⟩ : BufTy).Contents (Elt F) → (⟨S4096x1, .f32⟩ : BufTy).Contents (Elt F)),
    nullary main_cst_25 (constant S_ .f32 0x45800000#32),
    unary main_cst_25 main_v85 (broadcastInDim S4096x4096 ![] bcast_S_S4096x4096 : (⟨S_, .f32⟩ : BufTy).Contents (Elt F) → (⟨S4096x4096, .f32⟩ : BufTy).Contents (Elt F)),
    binary main_v85 main_v79 main_v86 (mulf : (⟨S4096x4096, .f32⟩ : BufTy).Contents (Elt F) → (⟨S4096x4096, .f32⟩ : BufTy).Contents (Elt F) → (⟨S4096x4096, .f32⟩ : BufTy).Contents (Elt F)),
    binary main_v86 main_v79 main_v87 (mulf : (⟨S4096x4096, .f32⟩ : BufTy).Contents (Elt F) → (⟨S4096x4096, .f32⟩ : BufTy).Contents (Elt F) → (⟨S4096x4096, .f32⟩ : BufTy).Contents (Elt F)),
    nullary main_cst_26 (constant S_ .f32 0x40000000#32),
    unary main_cst_26 main_v88 (broadcastInDim S4096x4096 ![] bcast_S_S4096x4096 : (⟨S_, .f32⟩ : BufTy).Contents (Elt F) → (⟨S4096x4096, .f32⟩ : BufTy).Contents (Elt F)),
    binary main_v88 main_v79 main_v89 (mulf : (⟨S4096x4096, .f32⟩ : BufTy).Contents (Elt F) → (⟨S4096x4096, .f32⟩ : BufTy).Contents (Elt F) → (⟨S4096x4096, .f32⟩ : BufTy).Contents (Elt F)),
    unary main_v81 main_v90 (broadcastInDim S4096x4096 ![0, 1] bcast_S4096x1_S4096x4096_0_1 : (⟨S4096x1, .f32⟩ : BufTy).Contents (Elt F) → (⟨S4096x4096, .f32⟩ : BufTy).Contents (Elt F)),
    binary main_v89 main_v90 main_v91 (mulf : (⟨S4096x4096, .f32⟩ : BufTy).Contents (Elt F) → (⟨S4096x4096, .f32⟩ : BufTy).Contents (Elt F) → (⟨S4096x4096, .f32⟩ : BufTy).Contents (Elt F)),
    binary main_v87 main_v91 main_v92 (subf : (⟨S4096x4096, .f32⟩ : BufTy).Contents (Elt F) → (⟨S4096x4096, .f32⟩ : BufTy).Contents (Elt F) → (⟨S4096x4096, .f32⟩ : BufTy).Contents (Elt F)),
    unary main_v84 main_v93 (broadcastInDim S4096x4096 ![0, 1] bcast_S4096x1_S4096x4096_0_1 : (⟨S4096x1, .f32⟩ : BufTy).Contents (Elt F) → (⟨S4096x4096, .f32⟩ : BufTy).Contents (Elt F)),
    binary main_v92 main_v93 main_v94 (addf : (⟨S4096x4096, .f32⟩ : BufTy).Contents (Elt F) → (⟨S4096x4096, .f32⟩ : BufTy).Contents (Elt F) → (⟨S4096x4096, .f32⟩ : BufTy).Contents (Elt F)),
    nullary main_cst_27 (constant S_ .f32 0x00000000#32),
    unary main_cst_27 main_v95 (broadcastInDim S4096x4096 ![] bcast_S_S4096x4096 : (⟨S_, .f32⟩ : BufTy).Contents (Elt F) → (⟨S4096x4096, .f32⟩ : BufTy).Contents (Elt F)),
    binary main_v94 main_v95 main_v96 (maximumf : (⟨S4096x4096, .f32⟩ : BufTy).Contents (Elt F) → (⟨S4096x4096, .f32⟩ : BufTy).Contents (Elt F) → (⟨S4096x4096, .f32⟩ : BufTy).Contents (Elt F)),
    nullary main_cst_28 (constant S_ .f32 0x39800801#32),
    unary main_cst_28 main_v97 (broadcastInDim S4096x4096 ![] bcast_S_S4096x4096 : (⟨S_, .f32⟩ : BufTy).Contents (Elt F) → (⟨S4096x4096, .f32⟩ : BufTy).Contents (Elt F)),
    binary main_v96 main_v97 main_v98 (mulf : (⟨S4096x4096, .f32⟩ : BufTy).Contents (Elt F) → (⟨S4096x4096, .f32⟩ : BufTy).Contents (Elt F) → (⟨S4096x4096, .f32⟩ : BufTy).Contents (Elt F)),
    unary main_v98 main_v99 (Host.sqrt : (⟨S4096x4096, .f32⟩ : BufTy).Contents (Elt F) → (⟨S4096x4096, .f32⟩ : BufTy).Contents (Elt F)),
    nullary main_cst_29 (constant S_ .f32 0x45800000#32),
    unary main_cst_29 main_v100 (broadcastInDim S4096x1 ![] bcast_S_S4096x1 : (⟨S_, .f32⟩ : BufTy).Contents (Elt F) → (⟨S4096x1, .f32⟩ : BufTy).Contents (Elt F)),
    binary main_v81 main_v100 main_v101 (Host.divf : (⟨S4096x1, .f32⟩ : BufTy).Contents (Elt F) → (⟨S4096x1, .f32⟩ : BufTy).Contents (Elt F) → (⟨S4096x1, .f32⟩ : BufTy).Contents (Elt F)),
    nullary main_cst_30 (constant S_ .f32 0x3DCCCCCD#32),
    unary main_cst_30 main_v102 (broadcastInDim S4096x4096 ![] bcast_S_S4096x4096 : (⟨S_, .f32⟩ : BufTy).Contents (Elt F) → (⟨S4096x4096, .f32⟩ : BufTy).Contents (Elt F)),
    binary main_v102 main_v99 main_v103 (mulf : (⟨S4096x4096, .f32⟩ : BufTy).Contents (Elt F) → (⟨S4096x4096, .f32⟩ : BufTy).Contents (Elt F) → (⟨S4096x4096, .f32⟩ : BufTy).Contents (Elt F)),
    unary main_v101 main_v104 (broadcastInDim S4096x4096 ![0, 1] bcast_S4096x1_S4096x4096_0_1 : (⟨S4096x1, .f32⟩ : BufTy).Contents (Elt F) → (⟨S4096x4096, .f32⟩ : BufTy).Contents (Elt F)),
    binary main_v79 main_v104 main_v105 (subf : (⟨S4096x4096, .f32⟩ : BufTy).Contents (Elt F) → (⟨S4096x4096, .f32⟩ : BufTy).Contents (Elt F) → (⟨S4096x4096, .f32⟩ : BufTy).Contents (Elt F)),
    unary main_v105 main_v106 (Host.sign : (⟨S4096x4096, .f32⟩ : BufTy).Contents (Elt F) → (⟨S4096x4096, .f32⟩ : BufTy).Contents (Elt F)),
    binary main_v103 main_v106 main_v107 (mulf : (⟨S4096x4096, .f32⟩ : BufTy).Contents (Elt F) → (⟨S4096x4096, .f32⟩ : BufTy).Contents (Elt F) → (⟨S4096x4096, .f32⟩ : BufTy).Contents (Elt F)),
    nullary main_cst_31 (constant S_ .f32 0x3F800000#32),
    unary main_cst_31 main_v108 (broadcastInDim S4096x4096 ![] bcast_S_S4096x4096 : (⟨S_, .f32⟩ : BufTy).Contents (Elt F) → (⟨S4096x4096, .f32⟩ : BufTy).Contents (Elt F)),
    binary main_v108 main_v107 main_v109 (subf : (⟨S4096x4096, .f32⟩ : BufTy).Contents (Elt F) → (⟨S4096x4096, .f32⟩ : BufTy).Contents (Elt F) → (⟨S4096x4096, .f32⟩ : BufTy).Contents (Elt F)),
    binary main_v79 main_v109 main_v110 (mulf : (⟨S4096x4096, .f32⟩ : BufTy).Contents (Elt F) → (⟨S4096x4096, .f32⟩ : BufTy).Contents (Elt F) → (⟨S4096x4096, .f32⟩ : BufTy).Contents (Elt F)),
    nullary main_cst_32 (constant S_ .f32 0x00000000#32),
    unary main_cst_32 main_v111 (broadcastInDim S4096x4096 ![] bcast_S_S4096x4096 : (⟨S_, .f32⟩ : BufTy).Contents (Elt F) → (⟨S4096x4096, .f32⟩ : BufTy).Contents (Elt F)),
    binary main_v110 main_v111 main_v112 (addf : (⟨S4096x4096, .f32⟩ : BufTy).Contents (Elt F) → (⟨S4096x4096, .f32⟩ : BufTy).Contents (Elt F) → (⟨S4096x4096, .f32⟩ : BufTy).Contents (Elt F)),
    unary main_v7 main_v113 (broadcastInDim S1x4096 ![1] bcast_S4096_S1x4096_1 : (⟨S4096, .f32⟩ : BufTy).Contents (Elt F) → (⟨S1x4096, .f32⟩ : BufTy).Contents (Elt F)),
    unary main_v113 main_v114 (broadcastInDim S4096x4096 ![0, 1] bcast_S1x4096_S4096x4096_0_1 : (⟨S1x4096, .f32⟩ : BufTy).Contents (Elt F) → (⟨S4096x4096, .f32⟩ : BufTy).Contents (Elt F)),
    binary main_v112 main_v114 main_v115 (mulf : (⟨S4096x4096, .f32⟩ : BufTy).Contents (Elt F) → (⟨S4096x4096, .f32⟩ : BufTy).Contents (Elt F) → (⟨S4096x4096, .f32⟩ : BufTy).Contents (Elt F)),
    unary main_v1 main_v116 (broadcastInDim S1x4096 ![1] bcast_S4096_S1x4096_1 : (⟨S4096, .f32⟩ : BufTy).Contents (Elt F) → (⟨S1x4096, .f32⟩ : BufTy).Contents (Elt F)),
    unary main_v116 main_v117 (broadcastInDim S4096x4096 ![0, 1] bcast_S1x4096_S4096x4096_0_1 : (⟨S1x4096, .f32⟩ : BufTy).Contents (Elt F) → (⟨S4096x4096, .f32⟩ : BufTy).Contents (Elt F)),
    binary main_v115 main_v117 main_v118 (addf : (⟨S4096x4096, .f32⟩ : BufTy).Contents (Elt F) → (⟨S4096x4096, .f32⟩ : BufTy).Contents (Elt F) → (⟨S4096x4096, .f32⟩ : BufTy).Contents (Elt F)),
    reshape main_v118 main_v119 rfl shapeCasts_S4096x4096_S1x4096x4096 ]

/-! ## @main is the four stretches in a row -/

set_option maxRecDepth 8192 in
set_option maxHeartbeats 4000000 in
/-- @main runs the four stretches one after the other: both sides unfold to the same sequence of steps. -/
theorem main_eq (c : Dev nD) : main (F := F) c = seq (opsA ++ (opsB ++ (opsC ++ opsD))) := by
  rw [seq_append, seq_append, seq_append]
  chain_rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-! ## Every operation touches TensorCore buffers only, and determines its results -/

theorem opsA_sub : (opsA : List (HloOp τ sig (Elt F))).Forall fun op => op.bufs ⊆ tcRefs τ sig :=
  ⟨reshape_bufs_sub .., nullary_bufs_sub .., binary_bufs_sub .., nullary_bufs_sub .., binary_bufs_sub .., binary_bufs_sub .., nullary_bufs_sub .., unary_bufs_sub .., binary_bufs_sub .., nullary_bufs_sub .., unary_bufs_sub .., ternary_bufs_sub .., unary_bufs_sub .., unary_bufs_sub .., binary_bufs_sub .., unary_bufs_sub .., unary_bufs_sub .., binary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl⟩

theorem opsB_sub : (opsB : List (HloOp τ sig (Elt F))).Forall fun op => op.bufs ⊆ tcRefs τ sig :=
  ⟨nullary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsC_sub : (opsC : List (HloOp τ sig (Elt F))).Forall fun op => op.bufs ⊆ tcRefs τ sig :=
  ⟨nullary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsD_sub : (opsD : List (HloOp τ sig (Elt F))).Forall fun op => op.bufs ⊆ tcRefs τ sig :=
  ⟨nullary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., binary_bufs_sub .., unary_bufs_sub .., unary_bufs_sub .., binary_bufs_sub .., reshape_bufs_sub ..⟩
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_sub : (opsA ++ (opsB ++ (opsC ++ opsD)) : List (HloOp τ sig (Elt F))).Forall fun op => op.bufs ⊆ tcRefs τ sig :=
  List.forall_append.mpr ⟨opsA_sub, List.forall_append.mpr ⟨opsB_sub, List.forall_append.mpr ⟨opsC_sub, opsD_sub⟩⟩⟩

theorem ops_fresh : (opsA ++ (opsB ++ (opsC ++ opsD)) : List (HloOp τ sig (Elt F))).Forall fun op => op.fresh = ∅ :=
  List.forall_append.mpr ⟨opsA_fresh, List.forall_append.mpr ⟨opsB_fresh, List.forall_append.mpr ⟨opsC_fresh, opsD_fresh⟩⟩⟩

/-! ## The first stretch, from any contents `W`

What it leaves in `%13`, `%7` and `%1` is the stage of that name of whatever `W` holds in the argument's buffer,
which it does not write. -/

theorem A_v13 (W : Valuation τ sig (Elt F)) :
    after opsA W (Proc.devRef .tc main_v13) = Stages.val_main_v13 (F := F) (W (Proc.devRef .tc main_arg0)) := by
  after_results_simp
  rfl

theorem A_v7 (W : Valuation τ sig (Elt F)) :
    after opsA W (Proc.devRef .tc main_v7) = Stages.val_main_v7 (F := F) (W (Proc.devRef .tc main_arg0)) := by
  after_results_simp
  rfl

theorem A_v1 (W : Valuation τ sig (Elt F)) :
    after opsA W (Proc.devRef .tc main_v1) = Stages.val_main_v1 (F := F) (W (Proc.devRef .tc main_arg0)) := by
  after_results_simp
  rfl

theorem A_arg0 (W : Valuation τ sig (Elt F)) :
    after opsA W (Proc.devRef .tc main_arg0) = W (Proc.devRef .tc main_arg0) := by
  after_results_simp

/-! ## The first correction, from any contents `W` that hold the rescaled matrix in `%13` -/

theorem B_v46 (W : Valuation τ sig (Elt F)) (x0 : (⟨S1x4096x4096, .f32⟩ : BufTy).Contents (Elt F))
    (h13 : W (Proc.devRef .tc main_v13) = Stages.val_main_v13 (F := F) x0) :
    after opsB W (Proc.devRef .tc main_v46) = Stages.val_main_v46 (F := F) x0 := by
  after_results_simp
  rw [h13]
  rfl

theorem B_v7 (W : Valuation τ sig (Elt F)) :
    after opsB W (Proc.devRef .tc main_v7) = W (Proc.devRef .tc main_v7) := by
  after_results_simp

theorem B_v1 (W : Valuation τ sig (Elt F)) :
    after opsB W (Proc.devRef .tc main_v1) = W (Proc.devRef .tc main_v1) := by
  after_results_simp

theorem B_arg0 (W : Valuation τ sig (Elt F)) :
    after opsB W (Proc.devRef .tc main_arg0) = W (Proc.devRef .tc main_arg0) := by
  after_results_simp

/-! ## The second correction, from any contents `W` that hold the once-corrected matrix in `%46` -/

theorem C_v79 (W : Valuation τ sig (Elt F)) (x0 : (⟨S1x4096x4096, .f32⟩ : BufTy).Contents (Elt F))
    (h46 : W (Proc.devRef .tc main_v46) = Stages.val_main_v46 (F := F) x0) :
    after opsC W (Proc.devRef .tc main_v79) = Stages.val_main_v79 (F := F) x0 := by
  after_results_simp
  rw [h46]
  rfl

theorem C_v7 (W : Valuation τ sig (Elt F)) :
    after opsC W (Proc.devRef .tc main_v7) = W (Proc.devRef .tc main_v7) := by
  after_results_simp

theorem C_v1 (W : Valuation τ sig (Elt F)) :
    after opsC W (Proc.devRef .tc main_v1) = W (Proc.devRef .tc main_v1) := by
  after_results_simp

theorem C_arg0 (W : Valuation τ sig (Elt F)) :
    after opsC W (Proc.devRef .tc main_arg0) = W (Proc.devRef .tc main_arg0) := by
  after_results_simp

/-! ## The third correction and the mapping back, from any contents `W` that hold the twice-corrected matrix in
`%79`, the ranges in `%7` and the minima in `%1` -/

theorem D_v119 (W : Valuation τ sig (Elt F)) (x0 : (⟨S1x4096x4096, .f32⟩ : BufTy).Contents (Elt F))
    (h79 : W (Proc.devRef .tc main_v79) = Stages.val_main_v79 (F := F) x0)
    (h7 : W (Proc.devRef .tc main_v7) = Stages.val_main_v7 (F := F) x0)
    (h1 : W (Proc.devRef .tc main_v1) = Stages.val_main_v1 (F := F) x0) :
    after opsD W (Proc.devRef .tc main_v119) = Stages.val_main_v119 (F := F) x0 := by
  after_results_simp
  rw [h79, h7, h1]
  rfl

theorem D_arg0 (W : Valuation τ sig (Elt F)) :
    after opsD W (Proc.devRef .tc main_arg0) = W (Proc.devRef .tc main_arg0) := by
  after_results_simp

/-! ## The whole line -/

/-- The fold of all 154 operations leaves the last stage of the argument in the result buffer: each stretch starts
    from what the stretches before it left. -/
theorem all_v119 (V : Valuation τ sig (Elt F)) :
    after (opsA ++ (opsB ++ (opsC ++ opsD))) V (Proc.devRef .tc main_v119)
      = Stages.val_main_v119 (F := F) (V (Proc.devRef .tc main_arg0)) := by
  rw [after_append, after_append, after_append]
  exact D_v119 _ _ (C_v79 _ _ (B_v46 _ _ (A_v13 V)))
    ((C_v7 _).trans ((B_v7 _).trans (A_v7 V))) ((C_v1 _).trans ((B_v1 _).trans (A_v1 V)))

/-- No operation writes the argument's buffer. -/
theorem all_arg0 (V : Valuation τ sig (Elt F)) :
    after (opsA ++ (opsB ++ (opsC ++ opsD))) V (Proc.devRef .tc main_arg0) = V (Proc.devRef .tc main_arg0) := by
  rw [after_append, after_append, after_append, D_arg0, C_arg0, B_arg0, A_arg0]

/-- On every device, for any float values, from any memory with zero counters: every weakly fair execution of the
    reference's @main terminates with the result at its last stage of the argument's launch contents and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = Cert.ReferenceIdeal.Stages.val_main_v119 (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v119).trans (all_v119 _), (h c main_arg0).trans (all_arg0 _)⟩)
    (run_seq scopedRefs_eq scopedSems_eq defs main (fun _ => opsA ++ (opsB ++ (opsC ++ opsD))) main_eq (fun _ => ops_sub) m ρ
      (fun _ => List.forall_iff_forall_mem.mp ops_fresh))

end Cert.ReferenceIdeal.HandRun

end
-- ==== Proof.RefValue.lean ====
/-
  The reference's last stage, entry by entry, is the specification.

  The reference is read one stage at a time, each stage at an explicit entry `(r, j)`.
  * The column minimum and maximum are folds of `min` from `+∞` and of `max` from `-∞` down a column; over the
    extended reals these are the column's infimum and supremum (`v1_at`, `v2_at`). So the range stage is the
    specification's `rangeOf` (`v7_at`) and the rescaled matrix is `(x r k - mn k) / rg k` (`v13_at`).
  * Each of the three corrections takes its row's sum and sum of squares (a zero word plus a finite sum, and the
    zero word is `0`), spreads them along the row, and forms the specification's `correct` of the row it starts
    from (`v44_at`, `v77_at`, `v110_at`). The first is followed by adding the word nearest to 0.005, the other
    two by adding zero (`v46_at`, `v79_at`, `v112_at`).
  * Composing the three (`v112_spec`), mapping back by the range and the minimum of column `j`, and reading the
    final reshape at `(0, r, j)` gives `Cert.Spec.out` (`ref_eq_spec`).
  No float literal is evaluated except the zero word and the two infinities.
-/
import proofs.«106010_j79379585565572_1_alg».proof.Proof.RefStages
import proofs.«106010_j79379585565572_1_alg».proof.Proof.Spec
import Idealize.ShloMosaic.Lib.ValueIdx
import Idealize.ShloMosaic.Lib.ValueLayout
import Idealize.ShloMosaic.Lib.Pipeline.Value
import Idealize.ShloMosaic.PureOps.Ideal.Laws
import Mathlib.Data.Fintype.Lattice

noncomputable section

namespace Cert.ReferenceIdeal.RefValue

open Cert.ReferenceIdeal Cert.ReferenceIdeal.Gen Cert.ReferenceIdeal.Stages Idealize.ShloMosaic Idealize.ShloMosaic.ValueIdx

/-- The input read as a matrix: its one leading axis dropped. -/
abbrev mat (x0 : S1x4096x4096.Idx → EReal) (r k : Fin 4096) : EReal := x0 (ix3 (0 : Fin 1) r k)

/-- The word of `+∞` is the top of the extended reals. -/
theorem ofBits_posInf : Ideal.ofBits .f32 0x7F800000#32 = (⊤ : EReal) := by simp [Ideal.ofBits, Ideal.ieee]
/-- The word of `-∞` is the bottom of the extended reals. -/
theorem ofBits_negInf : Ideal.ofBits .f32 0xFF800000#32 = (⊥ : EReal) := by simp [Ideal.ofBits, Ideal.ieee]

/-- Dropping the row axis of a 4096 × 4096 matrix leaves its columns. -/
theorem reduces_d0 : S4096x4096.Reduces [0] S4096 := by decide

/-- A fold of `min` from `⊤` over a finite range is the infimum. -/
theorem fold_min_top {n : Nat} (f : Fin n → EReal) : (Finset.univ : Finset (Fin n)).fold min ⊤ f = ⨅ k, f k :=
  Finset.inf_univ_eq_iInf f

/-- A fold of `max` from `⊥` over a finite range is the supremum. -/
theorem fold_max_bot {n : Nat} (f : Fin n → EReal) : (Finset.univ : Finset (Fin n)).fold max ⊥ f = ⨆ k, f k :=
  Finset.sup_univ_eq_iSup f

/-- The first reshape drops the leading axis: entry `(r, k)` is the input's `(0, r, k)`. -/
theorem v0_at (x0 : S1x4096x4096.Idx → EReal) (r k : Fin 4096) :
    val_main_v0 (F := Ideal) x0 (ix2 r k) = mat x0 r k := by
  rw [val_main_v0_apply]
  exact congrArg x0 (funext fun a => Fin.ext (by
    match a with
    | ⟨0, _⟩ => rfl
    | ⟨1, _⟩ => show (r.val * 4096 + k.val) / 4096 % 4096 = r.val; omega
    | ⟨2, _⟩ => show (r.val * 4096 + k.val) % 4096 = k.val; omega))

/-- Column `j` with the row coordinate `k` put back is the entry `(k, j)`. -/
theorem lift_d0 (j : Fin 4096) (k : Fin 4096) : reduces_d0.lift (ix1 j) k = ix2 k j :=
  funext fun a => Fin.ext (by match a with | ⟨0, _⟩ => rfl | ⟨1, _⟩ => rfl)

/-- The column minimum is the column's infimum. -/
theorem v1_at (x0 : S1x4096x4096.Idx → EReal) (j : Fin 4096) :
    val_main_v1 (F := Ideal) x0 (ix1 j) = Cert.Spec.colMin (mat x0) j := by
  unfold val_main_v1
  rw [Host.reduce_eq_fold_single FloatOps.minimumf _ _ reducesTo_S4096x4096_S4096_d0 reduces_d0 h_S_]
  have hg : (val_main_v0 (F := Ideal) x0 ∘ reduces_d0.lift (ix1 j)) = fun k : Fin 4096 => mat x0 k j :=
    funext fun k => (congrArg (val_main_v0 (F := Ideal) x0) (lift_d0 j k)).trans (v0_at x0 k j)
  rw [hg]
  show Finset.fold min (Ideal.ofBits .f32 0x7F800000#32) (fun k : Fin 4096 => mat x0 k j) Finset.univ = _
  rw [ofBits_posInf, fold_min_top]
  rfl

/-- The column maximum is the column's supremum. -/
theorem v2_at (x0 : S1x4096x4096.Idx → EReal) (j : Fin 4096) :
    val_main_v2 (F := Ideal) x0 (ix1 j) = Cert.Spec.colMax (mat x0) j := by
  unfold val_main_v2
  rw [Host.reduce_eq_fold_single FloatOps.maximumf _ _ reducesTo_S4096x4096_S4096_d0 reduces_d0 h_S_]
  have hg : (val_main_v0 (F := Ideal) x0 ∘ reduces_d0.lift (ix1 j)) = fun k : Fin 4096 => mat x0 k j :=
    funext fun k => (congrArg (val_main_v0 (F := Ideal) x0) (lift_d0 j k)).trans (v0_at x0 k j)
  rw [hg]
  show Finset.fold max (Ideal.ofBits .f32 0xFF800000#32) (fun k : Fin 4096 => mat x0 k j) Finset.univ = _
  rw [ofBits_negInf, fold_max_bot]
  rfl

/-- The range of column `j`. -/
theorem v7_at (x0 : S1x4096x4096.Idx → EReal) (j : Fin 4096) :
    val_main_v7 (F := Ideal) x0 (ix1 j)
      = Cert.Spec.rangeOf (Cert.Spec.colMin (mat x0) j) (Cert.Spec.colMax (mat x0) j) := by
  rw [val_main_v7_apply, val_main_v5_apply, val_main_v3_apply, val_main_v4_apply, val_main_v6_apply,
    val_main_cst_1_apply, val_main_cst_2_apply, v1_at, v2_at]
  rfl

/-- The rescaled matrix: entry `(r, k)` less its column's minimum, over its column's range. -/
theorem v13_at (x0 : S1x4096x4096.Idx → EReal) (r k : Fin 4096) :
    val_main_v13 (F := Ideal) x0 (ix2 r k)
      = Ideal.div (mat x0 r k - Cert.Spec.colMin (mat x0) k)
          (Cert.Spec.rangeOf (Cert.Spec.colMin (mat x0) k) (Cert.Spec.colMax (mat x0) k)) := by
  rw [val_main_v13_apply, val_main_v10_apply, val_main_v9_apply, val_main_v8_apply, val_main_v12_apply,
    val_main_v11_apply, v0_at,
    show idx_main_v8 (idx_main_v9 (ix2 r k)) = ix1 k from funext fun a => Fin.ext (by match a with | ⟨0, _⟩ => rfl),
    show idx_main_v11 (idx_main_v12 (ix2 r k)) = ix1 k from funext fun a => Fin.ext (by match a with | ⟨0, _⟩ => rfl),
    v1_at, v7_at]
  rfl

/-- The index a row sum reads at: row `r`, column `k`. -/
theorem idx_row (r k : Fin 4096) : idx_main_v14 (ix1 r) k = ix2 r k :=
  funext fun a => Fin.ext (by match a with | ⟨0, _⟩ => rfl | ⟨1, _⟩ => rfl)

/-- A row statistic spread along the row is read, at `(r, j)`, at `r`. -/
theorem idx_spread (r j : Fin 4096) : idx_main_v15 (idx_main_v24 (ix2 r j)) = ix1 r :=
  funext fun a => Fin.ext (by match a with | ⟨0, _⟩ => rfl)

/-- The sum of row `r` of the matrix the first correction starts from. -/
theorem v14_at (x0 : S1x4096x4096.Idx → EReal) (r : Fin 4096) :
    val_main_v14 (F := Ideal) x0 (ix1 r) = ∑ k : Fin 4096, val_main_v13 (F := Ideal) x0 (ix2 r k) := by
  rw [val_main_v14_apply, val_main_cst_3_apply, Ideal.ofBits_def, Ideal.ofBits_zero_f32, zero_add]
  exact Finset.sum_congr rfl fun k _ => congrArg (fun i => val_main_v13 (F := Ideal) x0 i)
    (show idx_main_v14 (ix1 r) k = ix2 r k from idx_row r k)

/-- The sum of the squares of that row. -/
theorem v17_at (x0 : S1x4096x4096.Idx → EReal) (r : Fin 4096) :
    val_main_v17 (F := Ideal) x0 (ix1 r)
      = ∑ k : Fin 4096, val_main_v13 (F := Ideal) x0 (ix2 r k) * val_main_v13 (F := Ideal) x0 (ix2 r k) := by
  rw [val_main_v17_apply, val_main_cst_4_apply, Ideal.ofBits_def, Ideal.ofBits_zero_f32, zero_add]
  refine Finset.sum_congr rfl fun k _ => ?_
  rw [show idx_main_v17 (ix1 r) k = ix2 r k from idx_row r k, val_main_v16_apply]
  rfl

/-- The row's sum, spread along the row. -/
theorem v24_at (x0 : S1x4096x4096.Idx → EReal) (r j : Fin 4096) :
    val_main_v24 (F := Ideal) x0 (ix2 r j) = ∑ k : Fin 4096, val_main_v13 (F := Ideal) x0 (ix2 r k) := by
  rw [val_main_v24_apply, val_main_v15_apply,
    show idx_main_v15 (idx_main_v24 (ix2 r j)) = ix1 r from idx_spread r j, v14_at]

/-- The row's sum of squares, spread along the row. -/
theorem v27_at (x0 : S1x4096x4096.Idx → EReal) (r j : Fin 4096) :
    val_main_v27 (F := Ideal) x0 (ix2 r j)
      = ∑ k : Fin 4096, val_main_v13 (F := Ideal) x0 (ix2 r k) * val_main_v13 (F := Ideal) x0 (ix2 r k) := by
  rw [val_main_v27_apply, val_main_v18_apply,
    show idx_main_v18 (idx_main_v27 (ix2 r j)) = ix1 r from idx_spread r j, v17_at]

/-- The row's sum over the row's length, spread along the row. -/
theorem v38_at (x0 : S1x4096x4096.Idx → EReal) (r j : Fin 4096) :
    val_main_v38 (F := Ideal) x0 (ix2 r j)
      = Ideal.div (∑ k : Fin 4096, val_main_v13 (F := Ideal) x0 (ix2 r k)) (Cert.Spec.lit 0x45800000#32) := by
  rw [val_main_v38_apply, val_main_v35_apply, val_main_v15_apply, val_main_v34_apply, val_main_cst_9_apply,
    show idx_main_v15 (idx_main_v38 (ix2 r j)) = ix1 r from idx_spread r j, v14_at]
  rfl

/-- The first correction of row `r`, at entry `j`: the specification's correction of the row it starts from. -/
theorem v44_at (x0 : S1x4096x4096.Idx → EReal) (r j : Fin 4096) :
    val_main_v44 (F := Ideal) x0 (ix2 r j)
      = Cert.Spec.correct (fun k => val_main_v13 (F := Ideal) x0 (ix2 r k)) j := by
  rw [val_main_v44_apply, val_main_v43_apply, val_main_v42_apply, val_main_cst_11_apply, val_main_v41_apply,
    val_main_v40_apply, val_main_v39_apply, v38_at, val_main_v37_apply, val_main_v36_apply, val_main_cst_10_apply,
    val_main_v33_apply, val_main_v32_apply, val_main_v31_apply, val_main_cst_8_apply, val_main_v30_apply,
    val_main_v29_apply, val_main_cst_7_apply, val_main_v28_apply, v27_at, val_main_v26_apply, val_main_v25_apply,
    v24_at, val_main_v23_apply, val_main_v22_apply, val_main_cst_6_apply, val_main_v21_apply, val_main_v20_apply,
    val_main_v19_apply, val_main_cst_5_apply]
  simp only [Ideal.mulf_def, Ideal.subf_def, Ideal.addf_def, Ideal.maximumf_def, Ideal.ofBits_def,
    Ideal.hostUnary_sqrt_def, Ideal.hostUnary_sign_def]
  rfl

/-- After the first correction the reference adds the word nearest to 0.005. -/
theorem v46_at (x0 : S1x4096x4096.Idx → EReal) (r j : Fin 4096) :
    val_main_v46 (F := Ideal) x0 (ix2 r j)
      = Cert.Spec.correct (fun k => val_main_v13 (F := Ideal) x0 (ix2 r k)) j + Cert.Spec.lit 0x3BA3D70A#32 := by
  rw [val_main_v46_apply, val_main_v45_apply, val_main_cst_12_apply, v44_at]
  rfl

/-- The sum of row `r` of the matrix the second correction starts from. -/
theorem v47_at (x0 : S1x4096x4096.Idx → EReal) (r : Fin 4096) :
    val_main_v47 (F := Ideal) x0 (ix1 r) = ∑ k : Fin 4096, val_main_v46 (F := Ideal) x0 (ix2 r k) := by
  rw [val_main_v47_apply, val_main_cst_13_apply, Ideal.ofBits_def, Ideal.ofBits_zero_f32, zero_add]
  exact Finset.sum_congr rfl fun k _ => congrArg (fun i => val_main_v46 (F := Ideal) x0 i)
    (show idx_main_v47 (ix1 r) k = ix2 r k from idx_row r k)

/-- The sum of the squares of that row. -/
theorem v50_at (x0 : S1x4096x4096.Idx → EReal) (r : Fin 4096) :
    val_main_v50 (F := Ideal) x0 (ix1 r)
      = ∑ k : Fin 4096, val_main_v46 (F := Ideal) x0 (ix2 r k) * val_main_v46 (F := Ideal) x0 (ix2 r k) := by
  rw [val_main_v50_apply, val_main_cst_14_apply, Ideal.ofBits_def, Ideal.ofBits_zero_f32, zero_add]
  refine Finset.sum_congr rfl fun k _ => ?_
  rw [show idx_main_v50 (ix1 r) k = ix2 r k from idx_row r k, val_main_v49_apply]
  rfl

/-- The row's sum, spread along the row. -/
theorem v57_at (x0 : S1x4096x4096.Idx → EReal) (r j : Fin 4096) :
    val_main_v57 (F := Ideal) x0 (ix2 r j) = ∑ k : Fin 4096, val_main_v46 (F := Ideal) x0 (ix2 r k) := by
  rw [val_main_v57_apply, val_main_v48_apply,
    show idx_main_v48 (idx_main_v57 (ix2 r j)) = ix1 r from idx_spread r j, v47_at]

/-- The row's sum of squares, spread along the row. -/
theorem v60_at (x0 : S1x4096x4096.Idx → EReal) (r j : Fin 4096) :
    val_main_v60 (F := Ideal) x0 (ix2 r j)
      = ∑ k : Fin 4096, val_main_v46 (F := Ideal) x0 (ix2 r k) * val_main_v46 (F := Ideal) x0 (ix2 r k) := by
  rw [val_main_v60_apply, val_main_v51_apply,
    show idx_main_v51 (idx_main_v60 (ix2 r j)) = ix1 r from idx_spread r j, v50_at]

/-- The row's sum over the row's length, spread along the row. -/
theorem v71_at (x0 : S1x4096x4096.Idx → EReal) (r j : Fin 4096) :
    val_main_v71 (F := Ideal) x0 (ix2 r j)
      = Ideal.div (∑ k : Fin 4096, val_main_v46 (F := Ideal) x0 (ix2 r k)) (Cert.Spec.lit 0x45800000#32) := by
  rw [val_main_v71_apply, val_main_v68_apply, val_main_v48_apply, val_main_v67_apply, val_main_cst_19_apply,
    show idx_main_v48 (idx_main_v71 (ix2 r j)) = ix1 r from idx_spread r j, v47_at]
  rfl

/-- The second correction of row `r`, at entry `j`: the specification's correction of the row it starts from. -/
theorem v77_at (x0 : S1x4096x4096.Idx → EReal) (r j : Fin 4096) :
    val_main_v77 (F := Ideal) x0 (ix2 r j)
      = Cert.Spec.correct (fun k => val_main_v46 (F := Ideal) x0 (ix2 r k)) j := by
  rw [val_main_v77_apply, val_main_v76_apply, val_main_v75_apply, val_main_cst_21_apply, val_main_v74_apply,
    val_main_v73_apply, val_main_v72_apply, v71_at, val_main_v70_apply, val_main_v69_apply, val_main_cst_20_apply,
    val_main_v66_apply, val_main_v65_apply, val_main_v64_apply, val_main_cst_18_apply, val_main_v63_apply,
    val_main_v62_apply, val_main_cst_17_apply, val_main_v61_apply, v60_at, val_main_v59_apply, val_main_v58_apply,
    v57_at, val_main_v56_apply, val_main_v55_apply, val_main_cst_16_apply, val_main_v54_apply, val_main_v53_apply,
    val_main_v52_apply, val_main_cst_15_apply]
  simp only [Ideal.mulf_def, Ideal.subf_def, Ideal.addf_def, Ideal.maximumf_def, Ideal.ofBits_def,
    Ideal.hostUnary_sqrt_def, Ideal.hostUnary_sign_def]
  rfl

/-- After the second correction the reference adds zero. -/
theorem v79_at (x0 : S1x4096x4096.Idx → EReal) (r j : Fin 4096) :
    val_main_v79 (F := Ideal) x0 (ix2 r j)
      = Cert.Spec.correct (fun k => val_main_v46 (F := Ideal) x0 (ix2 r k)) j := by
  rw [val_main_v79_apply, val_main_v78_apply, val_main_cst_22_apply, v77_at, Ideal.ofBits_def, Ideal.addf_def,
    Ideal.ofBits_zero_f32, add_zero]

/-- The sum of row `r` of the matrix the third correction starts from. -/
theorem v80_at (x0 : S1x4096x4096.Idx → EReal) (r : Fin 4096) :
    val_main_v80 (F := Ideal) x0 (ix1 r) = ∑ k : Fin 4096, val_main_v79 (F := Ideal) x0 (ix2 r k) := by
  rw [val_main_v80_apply, val_main_cst_23_apply, Ideal.ofBits_def, Ideal.ofBits_zero_f32, zero_add]
  exact Finset.sum_congr rfl fun k _ => congrArg (fun i => val_main_v79 (F := Ideal) x0 i)
    (show idx_main_v80 (ix1 r) k = ix2 r k from idx_row r k)

/-- The sum of the squares of that row. -/
theorem v83_at (x0 : S1x4096x4096.Idx → EReal) (r : Fin 4096) :
    val_main_v83 (F := Ideal) x0 (ix1 r)
      = ∑ k : Fin 4096, val_main_v79 (F := Ideal) x0 (ix2 r k) * val_main_v79 (F := Ideal) x0 (ix2 r k) := by
  rw [val_main_v83_apply, val_main_cst_24_apply, Ideal.ofBits_def, Ideal.ofBits_zero_f32, zero_add]
  refine Finset.sum_congr rfl fun k _ => ?_
  rw [show idx_main_v83 (ix1 r) k = ix2 r k from idx_row r k, val_main_v82_apply]
  rfl

/-- The row's sum, spread along the row. -/
theorem v90_at (x0 : S1x4096x4096.Idx → EReal) (r j : Fin 4096) :
    val_main_v90 (F := Ideal) x0 (ix2 r j) = ∑ k : Fin 4096, val_main_v79 (F := Ideal) x0 (ix2 r k) := by
  rw [val_main_v90_apply, val_main_v81_apply,
    show idx_main_v81 (idx_main_v90 (ix2 r j)) = ix1 r from idx_spread r j, v80_at]

/-- The row's sum of squares, spread along the row. -/
theorem v93_at (x0 : S1x4096x4096.Idx → EReal) (r j : Fin 4096) :
    val_main_v93 (F := Ideal) x0 (ix2 r j)
      = ∑ k : Fin 4096, val_main_v79 (F := Ideal) x0 (ix2 r k) * val_main_v79 (F := Ideal) x0 (ix2 r k) := by
  rw [val_main_v93_apply, val_main_v84_apply,
    show idx_main_v84 (idx_main_v93 (ix2 r j)) = ix1 r from idx_spread r j, v83_at]

/-- The row's sum over the row's length, spread along the row. -/
theorem v104_at (x0 : S1x4096x4096.Idx → EReal) (r j : Fin 4096) :
    val_main_v104 (F := Ideal) x0 (ix2 r j)
      = Ideal.div (∑ k : Fin 4096, val_main_v79 (F := Ideal) x0 (ix2 r k)) (Cert.Spec.lit 0x45800000#32) := by
  rw [val_main_v104_apply, val_main_v101_apply, val_main_v81_apply, val_main_v100_apply, val_main_cst_29_apply,
    show idx_main_v81 (idx_main_v104 (ix2 r j)) = ix1 r from idx_spread r j, v80_at]
  rfl

/-- The third correction of row `r`, at entry `j`: the specification's correction of the row it starts from. -/
theorem v110_at (x0 : S1x4096x4096.Idx → EReal) (r j : Fin 4096) :
    val_main_v110 (F := Ideal) x0 (ix2 r j)
      = Cert.Spec.correct (fun k => val_main_v79 (F := Ideal) x0 (ix2 r k)) j := by
  rw [val_main_v110_apply, val_main_v109_apply, val_main_v108_apply, val_main_cst_31_apply, val_main_v107_apply,
    val_main_v106_apply, val_main_v105_apply, v104_at, val_main_v103_apply, val_main_v102_apply, val_main_cst_30_apply,
    val_main_v99_apply, val_main_v98_apply, val_main_v97_apply, val_main_cst_28_apply, val_main_v96_apply,
    val_main_v95_apply, val_main_cst_27_apply, val_main_v94_apply, v93_at, val_main_v92_apply, val_main_v91_apply,
    v90_at, val_main_v89_apply, val_main_v88_apply, val_main_cst_26_apply, val_main_v87_apply, val_main_v86_apply,
    val_main_v85_apply, val_main_cst_25_apply]
  simp only [Ideal.mulf_def, Ideal.subf_def, Ideal.addf_def, Ideal.maximumf_def, Ideal.ofBits_def,
    Ideal.hostUnary_sqrt_def, Ideal.hostUnary_sign_def]
  rfl

/-- After the third correction the reference adds zero. -/
theorem v112_at (x0 : S1x4096x4096.Idx → EReal) (r j : Fin 4096) :
    val_main_v112 (F := Ideal) x0 (ix2 r j)
      = Cert.Spec.correct (fun k => val_main_v79 (F := Ideal) x0 (ix2 r k)) j := by
  rw [val_main_v112_apply, val_main_v111_apply, val_main_cst_32_apply, v110_at, Ideal.ofBits_def, Ideal.addf_def,
    Ideal.ofBits_zero_f32, add_zero]

/-- The three corrections of row `r` composed are the specification's three, over the rescaled row. -/
theorem v112_spec (x0 : S1x4096x4096.Idx → EReal) (r j : Fin 4096) :
    val_main_v112 (F := Ideal) x0 (ix2 r j)
      = Cert.Spec.correct (Cert.Spec.correct (fun k => Cert.Spec.correct (fun l =>
          Ideal.div (mat x0 r l - Cert.Spec.colMin (mat x0) l)
            (Cert.Spec.rangeOf (Cert.Spec.colMin (mat x0) l) (Cert.Spec.colMax (mat x0) l))) k
          + Cert.Spec.lit 0x3BA3D70A#32)) j := by
  rw [v112_at,
    show (fun k => val_main_v79 (F := Ideal) x0 (ix2 r k))
        = Cert.Spec.correct (fun k => val_main_v46 (F := Ideal) x0 (ix2 r k)) from funext fun k => v79_at x0 r k,
    show (fun k => val_main_v46 (F := Ideal) x0 (ix2 r k))
        = (fun k => Cert.Spec.correct (fun l => val_main_v13 (F := Ideal) x0 (ix2 r l)) k
            + Cert.Spec.lit 0x3BA3D70A#32) from funext fun k => v46_at x0 r k,
    show (fun l => val_main_v13 (F := Ideal) x0 (ix2 r l))
        = (fun l => Ideal.div (mat x0 r l - Cert.Spec.colMin (mat x0) l)
            (Cert.Spec.rangeOf (Cert.Spec.colMin (mat x0) l) (Cert.Spec.colMax (mat x0) l)))
      from funext fun l => v13_at x0 r l]

/-- A column statistic spread down the rows is read, at `(r, j)`, at `j`. -/
theorem idx_col (r j : Fin 4096) : idx_main_v113 (idx_main_v114 (ix2 r j)) = ix1 j :=
  funext fun a => Fin.ext (by match a with | ⟨0, _⟩ => rfl)

/-- The last reshape reads entry `(0, r, j)` at `(r, j)`. -/
theorem idx_out (r j : Fin 4096) : idx_main_v119 (ix3 (0 : Fin 1) r j) = ix2 r j :=
  funext fun a => Fin.ext (by
    match a with
    | ⟨0, _⟩ => show ((0 * 4096 + r.val) * 4096 + j.val) / 4096 = r.val; omega
    | ⟨1, _⟩ => show ((0 * 4096 + r.val) * 4096 + j.val) % 4096 = j.val; omega)

/-- Entry `(0, r, j)` of the reference's result is the specification's entry `(r, j)` of the input's matrix. -/
theorem ref_eq_spec (x0 : S1x4096x4096.Idx → EReal) (r j : Fin 4096) :
    val_main_v119 (F := Ideal) x0 (ix3 (0 : Fin 1) r j) = Cert.Spec.out (mat x0) r j := by
  rw [val_main_v119_apply, idx_out, val_main_v118_apply, val_main_v115_apply, val_main_v114_apply,
    val_main_v113_apply, val_main_v117_apply, val_main_v116_apply, idx_col,
    show idx_main_v116 (idx_main_v117 (ix2 r j)) = ix1 j from idx_col r j, v7_at, v1_at, v112_spec]
  rfl

end Cert.ReferenceIdeal.RefValue

end
-- ==== Proof.lean ====
/-
  The certificate: a two-stage row-correction kernel against its plain reference, over the extended reals.

  The input is a 4096 × 4096 matrix. Each column is rescaled by its minimum and its range; each row is then
  corrected three times from its own sum and sum of squares; the rows are mapped back through the columns' ranges
  and minima (Proof/Spec.lean states this as one function, `Cert.Spec.out`). The kernel computes the columns'
  extremes in a first grid of eight row blocks, accumulating a running minimum and maximum, and the corrected rows
  in a second grid of 32 blocks of 128 whole rows; the reference computes the same in whole-array operations.

  * Both programs run to the end, fault nowhere and leave the argument unchanged: the kernel's two regions are
    segments of the several-region launch (Proof/WholeRun.lean and its word-level twin), the reference is a line
    of host operations (Proof/RefRun.lean).
  * The idealized kernel differs from the printed kernel only in reading "1.0 with the sign bit of v" as
    "-1 if v < 0, else 1", three times: the rule's own statement.
  * At the extended reals both programs end with the specification of the argument's matrix: the kernel because
    a block-wise minimum of minima is the minimum, a row's correction only needs that row, and
    "if |v| > 0 then (-1 if v < 0, else 1) else v" is the sign function; the reference because adding zero
    changes nothing. No law used needs the inputs finite.
-/
import proofs.«106010_j79379585565572_1_alg».proof.Defs
import proofs.«106010_j79379585565572_1_alg».proof.Proof.Gen.Kernel
import proofs.«106010_j79379585565572_1_alg».proof.Proof.Gen.KernelIdeal
import proofs.«106010_j79379585565572_1_alg».proof.Proof.Gen.ReferenceIdeal
import proofs.«106010_j79379585565572_1_alg».proof.Proof.Gen.Pre_finite_inputs
import proofs.«106010_j79379585565572_1_alg».proof.Proof.KernelWholeRead
import proofs.«106010_j79379585565572_1_alg».proof.Proof.KernelValue
import proofs.«106010_j79379585565572_1_alg».proof.Proof.RefRun
import proofs.«106010_j79379585565572_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Whole.frame (F := Bits) m ρ

theorem frame_ki : @Cert.frame_KernelIdeal Cert.KernelIdeal.Gen.facts Cert.Pre_finite_inputs.Gen.facts :=
  fun m ρ _ => Cert.KernelIdeal.Whole.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.HandRun.run (F := Ideal) m ρ)

/-- The ideal pass's three rewrites, each the sign-bit rule's own statement at the block's shape. -/
theorem preserves : Cert.preserves_Kernel_KernelIdeal :=
  ⟨IdealRules.sign_bit.statement Cert.KernelIdeal.S128x4096 .f32,
   IdealRules.sign_bit.statement Cert.KernelIdeal.S128x4096 .f32,
   IdealRules.sign_bit.statement Cert.KernelIdeal.S128x4096 .f32⟩

/-- At the extended reals the kernel's result buffer ends at the specification of its argument's matrix, and the
    reference's at the specification of its own argument's matrix; the arguments agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Whole.result m c, Cert.KernelIdeal.Whole.run_value m ρ, ?_⟩
  refine (θ_run Cert.ReferenceIdeal.defs _ _).mono (fun _ h c => ⟨(h c).1.trans ?_, (h c).2⟩)
    (Cert.ReferenceIdeal.HandRun.run (F := Ideal) m' ρ')
  rw [hagree c]
  funext i
  obtain ⟨a, r, j, rfl⟩ : ∃ (a : Fin 1) (r j : Fin 4096), i = ix3 a r j := ⟨i 0, i 1, i 2, eq_ix3 i⟩
  obtain rfl : a = 0 := Subsingleton.elim _ _
  exact Cert.ReferenceIdeal.RefValue.ref_eq_spec _ r j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
